-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x224x224x18 : Shape := ⟨5, ![1, 32, 224, 224, 18]⟩
abbrev S18x256x512x4 : Shape := ⟨4, ![18, 256, 512, 4]⟩
abbrev S18x256x512 : Shape := ⟨3, ![18, 256, 512]⟩
abbrev S_ : Shape := ⟨0, ![]⟩

class Facts : Prop where
  bcast_S_S1x32x224x224x18 : S_.BroadcastsInDim S1x32x224x224x18 (![] : Fin 0 → Fin S1x32x224x224x18.rank)
  reducesTo_S1x32x224x224x18_S_d0_1_2_3_4 : S1x32x224x224x18.ReducesTo [0, 1, 2, 3, 4] S_
  h_S_ : 0 < S_.numel
  bcast_S_S18x256x512x4 : S_.BroadcastsInDim S18x256x512x4 (![] : Fin 0 → Fin S18x256x512x4.rank)
  reducesTo_S18x256x512x4_S_d0_1_2_3 : S18x256x512x4.ReducesTo [0, 1, 2, 3] S_
  bcast_S_S18x256x512 : S_.BroadcastsInDim S18x256x512 (![] : Fin 0 → Fin S18x256x512.rank)
  reducesTo_S18x256x512_S_d0_1_2 : S18x256x512.ReducesTo [0, 1, 2] S_

variable [Facts]

def fn_part2 {F : FTy → Type} [FloatOps F] (main_arg6 : IVec S18x256x512 32) (main_v27 : IVec S_ 1) (main_v32 : IVec S18x256x512 1) (main_c_12 : IVec S_ 1) : IVec S_ 1 :=
  let main_v33 : IVec S_ 1 := (fun x v => Host.reduce IntOp.andi x v reducesTo_S18x256x512_S_d0_1_2 h_S_) main_v32 main_c_12
  let main_v34 : IVec S_ 1 := andi main_v27 main_v33
  let main_c_13 : IVec S_ 32 := constantI S_ 32 0#32
  let main_v35 : IVec S18x256x512 32 := broadcastInDim S18x256x512 ![] bcast_S_S18x256x512 main_c_13
  let main_v36 : IVec S18x256x512 1 := cmpi .sge main_arg6 main_v35
  let main_c_14 : IVec S_ 32 := constantI S_ 32 224#32
  let main_v37 : IVec S18x256x512 32 := broadcastInDim S18x256x512 ![] bcast_S_S18x256x512 main_c_14
  let main_v38 : IVec S18x256x512 1 := cmpi .slt main_arg6 main_v37
  let main_v39 : IVec S18x256x512 1 := andi main_v36 main_v38
  let main_c_15 : IVec S_ 1 := constantI S_ 1 1#1
  let main_v40 : IVec S_ 1 := (fun x v => Host.reduce IntOp.andi x v reducesTo_S18x256x512_S_d0_1_2 h_S_) main_v39 main_c_15
  let main_v41 : IVec S_ 1 := andi main_v34 main_v40
  main_v41

def fn_part1 {F : FTy → Type} [FloatOps F] (main_arg3 : IVec S18x256x512 32) (main_arg4 : IVec S18x256x512 32) (main_arg5 : IVec S18x256x512 32) (main_arg6 : IVec S18x256x512 32) (main_v13 : IVec S_ 1) (main_v15 : IVec S18x256x512 1) (main_c_5 : IVec S_ 32) : IVec S_ 1 :=
  let main_v16 : IVec S18x256x512 32 := broadcastInDim S18x256x512 ![] bcast_S_S18x256x512 main_c_5
  let main_v17 : IVec S18x256x512 1 := cmpi .slt main_arg3 main_v16
  let main_v18 : IVec S18x256x512 1 := andi main_v15 main_v17
  let main_c_6 : IVec S_ 1 := constantI S_ 1 1#1
  let main_v19 : IVec S_ 1 := (fun x v => Host.reduce IntOp.andi x v reducesTo_S18x256x512_S_d0_1_2 h_S_) main_v18 main_c_6
  let main_v20 : IVec S_ 1 := andi main_v13 main_v19
  let main_c_7 : IVec S_ 32 := constantI S_ 32 0#32
  let main_v21 : IVec S18x256x512 32 := broadcastInDim S18x256x512 ![] bcast_S_S18x256x512 main_c_7
  let main_v22 : IVec S18x256x512 1 := cmpi .sge main_arg4 main_v21
  let main_c_8 : IVec S_ 32 := constantI S_ 32 224#32
  let main_v23 : IVec S18x256x512 32 := broadcastInDim S18x256x512 ![] bcast_S_S18x256x512 main_c_8
  let main_v24 : IVec S18x256x512 1 := cmpi .slt main_arg4 main_v23
  let main_v25 : IVec S18x256x512 1 := andi main_v22 main_v24
  let main_c_9 : IVec S_ 1 := constantI S_ 1 1#1
  let main_v26 : IVec S_ 1 := (fun x v => Host.reduce IntOp.andi x v reducesTo_S18x256x512_S_d0_1_2 h_S_) main_v25 main_c_9
  let main_v27 : IVec S_ 1 := andi main_v20 main_v26
  let main_c_10 : IVec S_ 32 := constantI S_ 32 0#32
  let main_v28 : IVec S18x256x512 32 := broadcastInDim S18x256x512 ![] bcast_S_S18x256x512 main_c_10
  let main_v29 : IVec S18x256x512 1 := cmpi .sge main_arg5 main_v28
  let main_c_11 : IVec S_ 32 := constantI S_ 32 224#32
  let main_v30 : IVec S18x256x512 32 := broadcastInDim S18x256x512 ![] bcast_S_S18x256x512 main_c_11
  let main_v31 : IVec S18x256x512 1 := cmpi .slt main_arg5 main_v30
  let main_v32 : IVec S18x256x512 1 := andi main_v29 main_v31
  let main_c_12 : IVec S_ 1 := constantI S_ 1 1#1
  fn_part2 (F := F) main_arg6 main_v27 main_v32 main_c_12

def fn {F : FTy → Type} [FloatOps F] (main_arg0 : FVec F S1x32x224x224x18 .f32) (main_arg1 : FVec F S18x256x512x4 .f32) (main_arg2 : FVec F S18x256x512 .f32) (main_arg3 : IVec S18x256x512 32) (main_arg4 : IVec S18x256x512 32) (main_arg5 : IVec S18x256x512 32) (main_arg6 : IVec S18x256x512 32) : IVec S_ 1 :=
  let main_v0 : FVec F S1x32x224x224x18 .f32 := Host.absf main_arg0
  let main_cst : FVec F S_ .f32 := constant S_ .f32 0x7F800000#32
  let main_v1 : FVec F S1x32x224x224x18 .f32 := broadcastInDim S1x32x224x224x18 ![] bcast_S_S1x32x224x224x18 main_cst
  let main_v2 : IVec S1x32x224x224x18 1 := cmpf .olt main_v0 main_v1
  let main_c : IVec S_ 1 := constantI S_ 1 1#1
  let main_v3 : IVec S_ 1 := (fun x v => Host.reduce IntOp.andi x v reducesTo_S1x32x224x224x18_S_d0_1_2_3_4 h_S_) main_v2 main_c
  let main_v4 : FVec F S18x256x512x4 .f32 := Host.absf main_arg1
  let main_cst_0 : FVec F S_ .f32 := constant S_ .f32 0x7F800000#32
  let main_v5 : FVec F S18x256x512x4 .f32 := broadcastInDim S18x256x512x4 ![] bcast_S_S18x256x512x4 main_cst_0
  let main_v6 : IVec S18x256x512x4 1 := cmpf .olt main_v4 main_v5
  let main_c_1 : IVec S_ 1 := constantI S_ 1 1#1
  let main_v7 : IVec S_ 1 := (fun x v => Host.reduce IntOp.andi x v reducesTo_S18x256x512x4_S_d0_1_2_3 h_S_) main_v6 main_c_1
  let main_v8 : IVec S_ 1 := andi main_v3 main_v7
  let main_v9 : FVec F S18x256x512 .f32 := Host.absf main_arg2
  let main_cst_2 : FVec F S_ .f32 := constant S_ .f32 0x7F800000#32
  let main_v10 : FVec F S18x256x512 .f32 := broadcastInDim S18x256x512 ![] bcast_S_S18x256x512 main_cst_2
  let main_v11 : IVec S18x256x512 1 := cmpf .olt main_v9 main_v10
  let main_c_3 : IVec S_ 1 := constantI S_ 1 1#1
  let main_v12 : IVec S_ 1 := (fun x v => Host.reduce IntOp.andi x v reducesTo_S18x256x512_S_d0_1_2 h_S_) main_v11 main_c_3
  let main_v13 : IVec S_ 1 := andi main_v8 main_v12
  let main_c_4 : IVec S_ 32 := constantI S_ 32 0#32
  let main_v14 : IVec S18x256x512 32 := broadcastInDim S18x256x512 ![] bcast_S_S18x256x512 main_c_4
  let main_v15 : IVec S18x256x512 1 := cmpi .sge main_arg3 main_v14
  let main_c_5 : IVec S_ 32 := constantI S_ 32 224#32
  fn_part1 (F := F) main_arg3 main_arg4 main_arg5 main_arg6 main_v13 main_v15 main_c_5
-- ==== Kernel.lean ====
abbrev S1x32x224x224x18 : Shape := ⟨5, ![1, 32, 224, 224, 18]⟩
abbrev S18x256x512x4 : Shape := ⟨4, ![18, 256, 512, 4]⟩
abbrev S18x256x512 : Shape := ⟨3, ![18, 256, 512]⟩
abbrev S_ : Shape := ⟨0, ![]⟩
abbrev S256x512 : Shape := ⟨2, ![256, 512]⟩
abbrev S1x256x512x1 : Shape := ⟨4, ![1, 256, 512, 1]⟩
abbrev S18x256x512x1 : Shape := ⟨4, ![18, 256, 512, 1]⟩
abbrev S18x131072x4 : Shape := ⟨3, ![18, 131072, 4]⟩
abbrev S18x131072x1 : Shape := ⟨3, ![18, 131072, 1]⟩
abbrev S18x131072 : Shape := ⟨2, ![18, 131072]⟩
abbrev S32x224x224x18 : Shape := ⟨4, ![32, 224, 224, 18]⟩
abbrev S18x224x32x224 : Shape := ⟨4, ![18, 224, 32, 224]⟩
abbrev S18x224x32x256 : Shape := ⟨4, ![18, 224, 32, 256]⟩
abbrev S18x224x8192 : Shape := ⟨3, ![18, 224, 8192]⟩
abbrev S18x131328 : Shape := ⟨2, ![18, 131328]⟩
abbrev S32x131328 : Shape := ⟨2, ![32, 131328]⟩
abbrev S1x224x8192 : Shape := ⟨3, ![1, 224, 8192]⟩
abbrev S18x384 : Shape := ⟨2, ![18, 384]⟩
abbrev S32x384 : Shape := ⟨2, ![32, 384]⟩
abbrev S384x32 : Shape := ⟨2, ![384, 32]⟩
abbrev S1x384 : Shape := ⟨2, ![1, 384]⟩
abbrev S384 : Shape := ⟨1, ![384]⟩
abbrev S224x8192 : Shape := ⟨2, ![224, 8192]⟩
abbrev S384x224 : Shape := ⟨2, ![384, 224]⟩
abbrev S384x256 : Shape := ⟨2, ![384, 256]⟩
abbrev S384x1 : Shape := ⟨2, ![384, 1]⟩
abbrev S384x8192 : Shape := ⟨2, ![384, 8192]⟩
abbrev S384x32x256 : Shape := ⟨3, ![384, 32, 256]⟩
abbrev S384x1x256 : Shape := ⟨3, ![384, 1, 256]⟩
abbrev S32x131072 : Shape := ⟨2, ![32, 131072]⟩
abbrev S1x32x256x512 : Shape := ⟨4, ![1, 32, 256, 512]⟩

abbrev nBuf : Space → Nat
  | .hbm => 71
  | .vmem => 21
  | .smem => 0
  | _ => 0

abbrev bufTy : (tb : Table) → Fin (tcTables nBuf tb) → BufTy
  | .hbm, ⟨0, _⟩ => ⟨S1x32x224x224x18, .f32⟩
  | .hbm, ⟨1, _⟩ => ⟨S18x256x512x4, .f32⟩
  | .hbm, ⟨2, _⟩ => ⟨S18x256x512, .f32⟩
  | .hbm, ⟨3, _⟩ => ⟨S18x256x512, .i32⟩
  | .hbm, ⟨4, _⟩ => ⟨S18x256x512, .i32⟩
  | .hbm, ⟨5, _⟩ => ⟨S18x256x512, .i32⟩
  | .hbm, ⟨6, _⟩ => ⟨S18x256x512, .i32⟩
  | .hbm, ⟨7, _⟩ => ⟨S_, .f32⟩
  | .hbm, ⟨8, _⟩ => ⟨S18x256x512x4, .f32⟩
  | .hbm, ⟨9, _⟩ => ⟨S18x256x512x4, .i1⟩
  | .hbm, ⟨10, _⟩ => ⟨S18x256x512x4, .f32⟩
  | .hbm, ⟨11, _⟩ => ⟨S18x256x512x4, .f32⟩
  | .hbm, ⟨12, _⟩ => ⟨S18x256x512x4, .f32⟩
  | .hbm, ⟨13, _⟩ => ⟨S_, .f32⟩
  | .hbm, ⟨14, _⟩ => ⟨S256x512, .f32⟩
  | .hbm, ⟨15, _⟩ => ⟨S1x256x512x1, .f32⟩
  | .hbm, ⟨16, _⟩ => ⟨S_, .f32⟩
  | .hbm, ⟨17, _⟩ => ⟨S1x256x512x1, .f32⟩
  | .hbm, ⟨18, _⟩ => ⟨S1x256x512x1, .f32⟩
  | .hbm, ⟨19, _⟩ => ⟨S18x256x512x4, .f32⟩
  | .hbm, ⟨20, _⟩ => ⟨S18x256x512x4, .f32⟩
  | .hbm, ⟨21, _⟩ => ⟨S18x256x512x1, .f32⟩
  | .hbm, ⟨22, _⟩ => ⟨S18x256x512x4, .f32⟩
  | .hbm, ⟨23, _⟩ => ⟨S18x256x512x4, .f32⟩
  | .hbm, ⟨24, _⟩ => ⟨S18x131072x4, .f32⟩
  | .hbm, ⟨25, _⟩ => ⟨S18x131072x1, .f32⟩
  | .hbm, ⟨26, _⟩ => ⟨S18x131072, .f32⟩
  | .hbm, ⟨27, _⟩ => ⟨S18x131072x1, .f32⟩
  | .hbm, ⟨28, _⟩ => ⟨S18x131072, .f32⟩
  | .hbm, ⟨29, _⟩ => ⟨S18x131072x1, .f32⟩
  | .hbm, ⟨30, _⟩ => ⟨S18x131072, .f32⟩
  | .hbm, ⟨31, _⟩ => ⟨S18x131072x1, .f32⟩
  | .hbm, ⟨32, _⟩ => ⟨S18x131072, .f32⟩
  | .hbm, ⟨33, _⟩ => ⟨S18x131072, .i32⟩
  | .hbm, ⟨34, _⟩ => ⟨S18x131072, .i32⟩
  | .hbm, ⟨35, _⟩ => ⟨S18x131072, .i32⟩
  | .hbm, ⟨36, _⟩ => ⟨S18x131072, .i32⟩
  | .hbm, ⟨37, _⟩ => ⟨S32x224x224x18, .f32⟩
  | .hbm, ⟨38, _⟩ => ⟨S32x224x224x18, .bf16⟩
  | .hbm, ⟨39, _⟩ => ⟨S18x224x32x224, .bf16⟩
  | .hbm, ⟨40, _⟩ => ⟨S_, .i32⟩
  | .hbm, ⟨41, _⟩ => ⟨S_, .bf16⟩
  | .hbm, ⟨42, _⟩ => ⟨S18x224x32x256, .bf16⟩
  | .hbm, ⟨43, _⟩ => ⟨S18x224x8192, .bf16⟩
  | .hbm, ⟨44, _⟩ => ⟨S_, .i32⟩
  | .hbm, ⟨45, _⟩ => ⟨S_, .i32⟩
  | .hbm, ⟨46, _⟩ => ⟨S18x131328, .i32⟩
  | .hbm, ⟨47, _⟩ => ⟨S_, .i32⟩
  | .hbm, ⟨48, _⟩ => ⟨S_, .i32⟩
  | .hbm, ⟨49, _⟩ => ⟨S18x131328, .i32⟩
  | .hbm, ⟨50, _⟩ => ⟨S_, .i32⟩
  | .hbm, ⟨51, _⟩ => ⟨S_, .i32⟩
  | .hbm, ⟨52, _⟩ => ⟨S18x131328, .i32⟩
  | .hbm, ⟨53, _⟩ => ⟨S_, .i32⟩
  | .hbm, ⟨54, _⟩ => ⟨S_, .i32⟩
  | .hbm, ⟨55, _⟩ => ⟨S18x131328, .i32⟩
  | .hbm, ⟨56, _⟩ => ⟨S_, .i32⟩
  | .hbm, ⟨57, _⟩ => ⟨S_, .f32⟩
  | .hbm, ⟨58, _⟩ => ⟨S18x131328, .f32⟩
  | .hbm, ⟨59, _⟩ => ⟨S_, .i32⟩
  | .hbm, ⟨60, _⟩ => ⟨S_, .f32⟩
  | .hbm, ⟨61, _⟩ => ⟨S18x131328, .f32⟩
  | .hbm, ⟨62, _⟩ => ⟨S_, .i32⟩
  | .hbm, ⟨63, _⟩ => ⟨S_, .f32⟩
  | .hbm, ⟨64, _⟩ => ⟨S18x131328, .f32⟩
  | .hbm, ⟨65, _⟩ => ⟨S_, .i32⟩
  | .hbm, ⟨66, _⟩ => ⟨S_, .f32⟩
  | .hbm, ⟨67, _⟩ => ⟨S18x131328, .f32⟩
  | .hbm, ⟨68, _⟩ => ⟨S32x131328, .f32⟩
  | .hbm, ⟨69, _⟩ => ⟨S32x131072, .f32⟩
  | .hbm, ⟨70, _⟩ => ⟨S1x32x256x512, .f32⟩
  | .local _ .vmem, ⟨0, _⟩ => ⟨S1x224x8192, .bf16⟩
  | .local _ .vmem, ⟨1, _⟩ => ⟨S1x224x8192, .bf16⟩
  | .local _ .vmem, ⟨2, _⟩ => ⟨S18x384, .i32⟩
  | .local _ .vmem, ⟨3, _⟩ => ⟨S18x384, .i32⟩
  | .local _ .vmem, ⟨4, _⟩ => ⟨S18x384, .i32⟩
  | .local _ .vmem, ⟨5, _⟩ => ⟨S18x384, .i32⟩
  | .local _ .vmem, ⟨6, _⟩ => ⟨S18x384, .i32⟩
  | .local _ .vmem, ⟨7, _⟩ => ⟨S18x384, .i32⟩
  | .local _ .vmem, ⟨8, _⟩ => ⟨S18x384, .i32⟩
  | .local _ .vmem, ⟨9, _⟩ => ⟨S18x384, .i32⟩
  | .local _ .vmem, ⟨10, _⟩ => ⟨S18x384, .f32⟩
  | .local _ .vmem, ⟨11, _⟩ => ⟨S18x384, .f32⟩
  | .local _ .vmem, ⟨12, _⟩ => ⟨S18x384, .f32⟩
  | .local _ .vmem, ⟨13, _⟩ => ⟨S18x384, .f32⟩
  | .local _ .vmem, ⟨14, _⟩ => ⟨S18x384, .f32⟩
  | .local _ .vmem, ⟨15, _⟩ => ⟨S18x384, .f32⟩
  | .local _ .vmem, ⟨16, _⟩ => ⟨S18x384, .f32⟩
  | .local _ .vmem, ⟨17, _⟩ => ⟨S18x384, .f32⟩
  | .local _ .vmem, ⟨18, _⟩ => ⟨S32x384, .f32⟩
  | .local _ .vmem, ⟨19, _⟩ => ⟨S32x384, .f32⟩
  | .local _ .vmem, ⟨20, _⟩ => ⟨S384x32, .f32⟩
  | _, _ => ⟨S1x32x224x224x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_c_2 : Ref sig .tc := ⟨.hbm, 44, rfl⟩
abbrev main_call1_v0 : Ref sig .tc := ⟨.hbm, 45, rfl⟩
abbrev main_v32 : Ref sig .tc := ⟨.hbm, 46, rfl⟩
abbrev main_c_3 : Ref sig .tc := ⟨.hbm, 47, rfl⟩
abbrev main_call2_v0 : Ref sig .tc := ⟨.hbm, 48, rfl⟩
abbrev main_v33 : Ref sig .tc := ⟨.hbm, 49, rfl⟩
abbrev main_c_4 : Ref sig .tc := ⟨.hbm, 50, rfl⟩
abbrev main_call3_v0 : Ref sig .tc := ⟨.hbm, 51, rfl⟩
abbrev main_v34 : Ref sig .tc := ⟨.hbm, 52, rfl⟩
abbrev main_c_5 : Ref sig .tc := ⟨.hbm, 53, rfl⟩
abbrev main_call4_v0 : Ref sig .tc := ⟨.hbm, 54, rfl⟩
abbrev main_v35 : Ref sig .tc := ⟨.hbm, 55, rfl⟩
abbrev main_c_6 : Ref sig .tc := ⟨.hbm, 56, rfl⟩
abbrev main_call5_v0 : Ref sig .tc := ⟨.hbm, 57, rfl⟩
abbrev main_v36 : Ref sig .tc := ⟨.hbm, 58, rfl⟩
abbrev main_c_7 : Ref sig .tc := ⟨.hbm, 59, rfl⟩
abbrev main_call6_v0 : Ref sig .tc := ⟨.hbm, 60, rfl⟩
abbrev main_v37 : Ref sig .tc := ⟨.hbm, 61, rfl⟩
abbrev main_c_8 : Ref sig .tc := ⟨.hbm, 62, rfl⟩
abbrev main_call7_v0 : Ref sig .tc := ⟨.hbm, 63, rfl⟩
abbrev main_v38 : Ref sig .tc := ⟨.hbm, 64, rfl⟩
abbrev main_c_9 : Ref sig .tc := ⟨.hbm, 65, rfl⟩
abbrev main_call8_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![342, 18], ![false, false]⟩

def k0_off1 (i : grid0.Coords) : Fin 2 → Nat :=
  let arg1 : BitVec 32 := BitVec.ofNat 32 (i 1).val
  let v3 : Index := Scalar.indexCast arg1
  let c0 : Index := 0#32
  ![v3.toNat, 0]
def k0_cond2 (i : grid0.Coords) : BitVec 1 :=
  let arg1 : BitVec 32 := BitVec.ofNat 32 (i 1).val
  let c17_i32 : BitVec 32 := 17#32
  let v97 : BitVec 1 := Scalar.cmpi .eq arg1 c17_i32
  let v98 : BitVec 32 := Scalar.extui v97
  let c0_i32_26 : BitVec 32 := 0#32
  let v99 : BitVec 1 := Scalar.cmpi .ne v98 c0_i32_26
  v99

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x224x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S18x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S18x384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S18x384 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S18x384 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S18x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S18x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S18x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S18x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S_S18x256x512x4 : S_.BroadcastsInDim S18x256x512x4 (![] : Fin 0 → Fin S18x256x512x4.rank)
  reducesTo_S18x256x512x4_S256x512_d0_3 : S18x256x512x4.ReducesTo [0, 3] S256x512
  h_S_ : 0 < S_.numel
  bcast_S256x512_S1x256x512x1_1_2 : S256x512.BroadcastsInDim S1x256x512x1 (![1, 2] : Fin 2 → Fin S1x256x512x1.rank)
  bcast_S_S1x256x512x1 : S_.BroadcastsInDim S1x256x512x1 (![] : Fin 0 → Fin S1x256x512x1.rank)
  bcast_S1x256x512x1_S18x256x512x4_0_1_2_3 : S1x256x512x1.BroadcastsInDim S18x256x512x4 (![0, 1, 2, 3] : Fin 4 → Fin S18x256x512x4.rank)
  bcast_S18x256x512_S18x256x512x1_0_1_2 : S18x256x512.BroadcastsInDim S18x256x512x1 (![0, 1, 2] : Fin 3 → Fin S18x256x512x1.rank)
  bcast_S18x256x512x1_S18x256x512x4_0_1_2_3 : S18x256x512x1.BroadcastsInDim S18x256x512x4 (![0, 1, 2, 3] : Fin 4 → Fin S18x256x512x4.rank)
  shapeCasts_S18x256x512x4_S18x131072x4 : S18x256x512x4.ShapeCasts S18x131072x4
  slices_S18x131072x4_S18x131072x1_0_0_0 : S18x131072x4.Slices ![0, 0, 0] S18x131072x1
  shapeCasts_S18x131072x1_S18x131072 : S18x131072x1.ShapeCasts S18x131072
  slices_S18x131072x4_S18x131072x1_0_0_1 : S18x131072x4.Slices ![0, 0, 1] S18x131072x1
  slices_S18x131072x4_S18x131072x1_0_0_2 : S18x131072x4.Slices ![0, 0, 2] S18x131072x1
  slices_S18x131072x4_S18x131072x1_0_0_3 : S18x131072x4.Slices ![0, 0, 3] S18x131072x1
  shapeCasts_S18x256x512_S18x131072 : S18x256x512.ShapeCasts S18x131072
  shapeCasts_S1x32x224x224x18_S32x224x224x18 : S1x32x224x224x18.ShapeCasts S32x224x224x18
  bitsLt_bf16_f32 : FTy.bits .bf16 < FTy.bits .f32
  transposes_S32x224x224x18_S18x224x32x224_3_1_0_2 : S32x224x224x18.Transposes [3, 1, 0, 2] S18x224x32x224
  pads_S18x224x32x224_S18x224x32x256_000_000_000_0320 : S18x224x32x224.Pads (![0, 0, 0, 0] : Fin 4 → Nat) ![0, 0, 0, 32] ![0, 0, 0, 0] S18x224x32x256
  shapeCasts_S18x224x32x256_S18x224x8192 : S18x224x32x256.ShapeCasts S18x224x8192
  pads_S18x131072_S18x131328_000_02560 : S18x131072.Pads (![0, 0] : Fin 2 → Nat) ![0, 256] ![0, 0] S18x131328
  inb_S384x32_S384x32_0_0 : ∀ a, (![0, 0] : Fin 2 → Nat) a + S384x32.size a ≤ S384x32.size a
  h_S384x32 : 0 < S384x32.numel
  shapeCasts_S384x32_S384x32 : S384x32.ShapeCasts S384x32
  h_S1x384 : 0 < S1x384.numel
  shapeCasts_S1x384_S384 : S1x384.ShapeCasts S384
  inb_S1x224x8192_S1x224x8192_0_0_0 : ∀ a, (![0, 0, 0] : Fin 3 → Nat) a + S1x224x8192.size a ≤ S1x224x8192.size a
  h_S1x224x8192 : 0 < S1x224x8192.numel
  shapeCasts_S1x224x8192_S224x8192 : S1x224x8192.ShapeCasts S224x8192
  iota_S384x224_d1_w32 : S384x224.Iotas .tc 32 [1]
  iota_S384x256_d1_w32 : S384x256.Iotas .tc 32 [1]
  shapeCasts_S384_S384x1 : S384.ShapeCasts S384x1
  broadcasts_S384x1_S384x256 : S384x1.Broadcasts S384x256
  shapeCasts_S384x1_S384x1 : S384x1.ShapeCasts S384x1
  broadcasts_S384x1_S384x224 : S384x1.Broadcasts S384x224
  natLt_1_32 : 1 < 32
  shapeCasts_S384x8192_S384x32x256 : S384x8192.ShapeCasts S384x32x256
  shapeCasts_S384x256_S384x1x256 : S384x256.ShapeCasts S384x1x256
  broadcasts_S384x1x256_S384x32x256 : S384x1x256.Broadcasts S384x32x256
  reduces_S384x32x256_S384x32 : S384x32x256.Reduces [2] S384x32
  transposes_S384x32_p1_0_S32x384 : S384x32.Transposes [1, 0] S32x384
  inb_S32x384_S32x384_0_0 : ∀ a, (![0, 0] : Fin 2 → Nat) a + S32x384.size a ≤ S32x384.size a
  h_S32x384 : 0 < S32x384.numel
  slices_S32x131328_S32x131072_0_0 : S32x131328.Slices ![0, 0] S32x131072
  shapeCasts_S32x131072_S1x32x256x512 : S32x131072.ShapeCasts S1x32x256x512
  dot_S384x224_S224x8192_S384x8192_1_0_0_1_n_n_wf : DotDims.WF S384x224 S224x8192 S384x8192 [1] [0] [0] [1] [] []
  hrank0 : 0 < grid0.rank
  k0_off1_inb : ∀ i : grid0.Coords, ∀ a, (k0_off1 i) a + S1x384.size a ≤ S18x384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x224x8192.size a ≤ S18x224x8192.size a
  hwx0_0 : ∀ i : grid0.Coords, EltTy.bits .bf16 = 32 ∨ (Rect.block (s := S18x224x8192) S1x224x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S18x384.size a ≤ S18x131328.size a
  hwx0_1 : ∀ i : grid0.Coords, EltTy.bits .i32 = 32 ∨ (Rect.block (s := S18x131328) S18x384.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S18x384.size a ≤ S18x131328.size a
  hwx0_2 : ∀ i : grid0.Coords, EltTy.bits .i32 = 32 ∨ (Rect.block (s := S18x131328) S18x384.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S18x384.size a ≤ S18x131328.size a
  hwx0_3 : ∀ i : grid0.Coords, EltTy.bits .i32 = 32 ∨ (Rect.block (s := S18x131328) S18x384.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S18x384.size a ≤ S18x131328.size a
  hwx0_4 : ∀ i : grid0.Coords, EltTy.bits .i32 = 32 ∨ (Rect.block (s := S18x131328) S18x384.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S18x384.size a ≤ S18x131328.size a
  hwx0_5 : ∀ i : grid0.Coords, EltTy.bits .f32 = 32 ∨ (Rect.block (s := S18x131328) S18x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S18x384.size a ≤ S18x131328.size a
  hwx0_6 : ∀ i : grid0.Coords, EltTy.bits .f32 = 32 ∨ (Rect.block (s := S18x131328) S18x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S18x384.size a ≤ S18x131328.size a
  hwx0_7 : ∀ i : grid0.Coords, EltTy.bits .f32 = 32 ∨ (Rect.block (s := S18x131328) S18x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S18x384.size a ≤ S18x131328.size a
  hwx0_8 : ∀ i : grid0.Coords, EltTy.bits .f32 = 32 ∨ (Rect.block (s := S18x131328) S18x384.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x384.size a ≤ S32x131328.size a
  hwx0_9 : ∀ i : grid0.Coords, EltTy.bits .f32 = 32 ∨ (Rect.block (s := S32x131328) S32x384.size (cc0_transform_9 i) (hinb0_9 i)).WholeWords (EltTy.packing .f32)

variable [Facts₀]

def dot_S384x224_S224x8192_S384x8192_1_0_0_1_n_n : DotDims S384x224 S224x8192 S384x8192 where
  lhsContracting := [1]
  rhsContracting := [0]
  lhsNonContracting := [0]
  rhsNonContracting := [1]
  lhsBatch := []
  rhsBatch := []
  wf := dot_S384x224_S224x8192_S384x8192_1_0_0_1_n_n_wf

abbrev win0_0 : Pipeline.Window sig grid0 :=
  Pipeline.Window.ofSpec (Memref.whole main_v31) S1x224x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S18x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S18x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S18x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S18x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36) S18x384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37) S18x384.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v38) S18x384.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v39) S18x384.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v40) S32x384.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S1x32x224x224x18 : Shape := ⟨5, ![1, 32, 224, 224, 18]⟩
abbrev S18x256x512x4 : Shape := ⟨4, ![18, 256, 512, 4]⟩
abbrev S18x256x512 : Shape := ⟨3, ![18, 256, 512]⟩
abbrev S_ : Shape := ⟨0, ![]⟩
abbrev S256x512 : Shape := ⟨2, ![256, 512]⟩
abbrev S1x256x512x1 : Shape := ⟨4, ![1, 256, 512, 1]⟩
abbrev S18x256x512x1 : Shape := ⟨4, ![18, 256, 512, 1]⟩
abbrev S18 : Shape := ⟨1, ![18]⟩
abbrev S18x1x1 : Shape := ⟨3, ![18, 1, 1]⟩
abbrev S18x256x512x3 : Shape := ⟨4, ![18, 256, 512, 3]⟩
abbrev S1x32x18x256x512 : Shape := ⟨5, ![1, 32, 18, 256, 512]⟩
abbrev S1x1x18x256x512 : Shape := ⟨5, ![1, 1, 18, 256, 512]⟩
abbrev S1x32x256x512 : Shape := ⟨4, ![1, 32, 256, 512]⟩

abbrev nBuf : Space → Nat
  | .hbm => 159
  | .vmem => 0
  | .smem => 0
  | _ => 0

abbrev hbmTy0_0 (i : Nat) : BufTy := match i % 128 with
  | 0 => ⟨S1x32x224x224x18, .f32⟩
  | 1 => ⟨S18x256x512x4, .f32⟩
  | 2 => ⟨S18x256x512, .f32⟩
  | 3 => ⟨S18x256x512, .i32⟩
  | 4 => ⟨S18x256x512, .i32⟩
  | 5 => ⟨S18x256x512, .i32⟩
  | 6 => ⟨S18x256x512, .i32⟩
  | 7 => ⟨S_, .f32⟩
  | 8 => ⟨S18x256x512x4, .f32⟩
  | 9 => ⟨S18x256x512x4, .i1⟩
  | 10 => ⟨S18x256x512x4, .f32⟩
  | 11 => ⟨S18x256x512x4, .f32⟩
  | 12 => ⟨S18x256x512x4, .f32⟩
  | 13 => ⟨S_, .f32⟩
  | 14 => ⟨S256x512, .f32⟩
  | 15 => ⟨S1x256x512x1, .f32⟩
  | 16 => ⟨S_, .f32⟩
  | 17 => ⟨S1x256x512x1, .f32⟩
  | 18 => ⟨S1x256x512x1, .f32⟩
  | 19 => ⟨S18x256x512x4, .f32⟩
  | 20 => ⟨S18x256x512x4, .f32⟩
  | 21 => ⟨S18x256x512x1, .f32⟩
  | 22 => ⟨S18x256x512x4, .f32⟩
  | 23 => ⟨S18x256x512x4, .f32⟩
  | 24 => ⟨S18, .i32⟩
  | 25 => ⟨S18x1x1, .i32⟩
  | 26 => ⟨S_, .i32⟩
  | 27 => ⟨S18x256x512, .i32⟩
  | 28 => ⟨S18x256x512, .i1⟩
  | 29 => ⟨S_, .i32⟩
  | 30 => ⟨S18x256x512, .i32⟩
  | 31 => ⟨S18x256x512, .i32⟩
  | 32 => ⟨S18x256x512, .i32⟩
  | 33 => ⟨S_, .i32⟩
  | 34 => ⟨S18x256x512, .i32⟩
  | 35 => ⟨S18x256x512, .i1⟩
  | 36 => ⟨S_, .i32⟩
  | 37 => ⟨S18x256x512, .i32⟩
  | 38 => ⟨S18x256x512, .i32⟩
  | 39 => ⟨S18x256x512, .i32⟩
  | 40 => ⟨S_, .i32⟩
  | 41 => ⟨S18x1x1, .i32⟩
  | 42 => ⟨S18x1x1, .i1⟩
  | 43 => ⟨S_, .i32⟩
  | 44 => ⟨S18x1x1, .i32⟩
  | 45 => ⟨S18x1x1, .i32⟩
  | 46 => ⟨S18x1x1, .i32⟩
  | 47 => ⟨S18x256x512, .i32⟩
  | 48 => ⟨S18x256x512x1, .i32⟩
  | 49 => ⟨S18x256x512x1, .i32⟩
  | 50 => ⟨S18x256x512x1, .i32⟩
  | 51 => ⟨S18x256x512x3, .i32⟩
  | 52 => ⟨S1x32x18x256x512, .f32⟩
  | 53 => ⟨S_, .i32⟩
  | 54 => ⟨S18x256x512, .i32⟩
  | 55 => ⟨S18x256x512, .i1⟩
  | 56 => ⟨S_, .i32⟩
  | 57 => ⟨S18x256x512, .i32⟩
  | 58 => ⟨S18x256x512, .i32⟩
  | 59 => ⟨S18x256x512, .i32⟩
  | 60 => ⟨S_, .i32⟩
  | 61 => ⟨S18x256x512, .i32⟩
  | 62 => ⟨S18x256x512, .i1⟩
  | 63 => ⟨S_, .i32⟩
  | 64 => ⟨S18x256x512, .i32⟩
  | 65 => ⟨S18x256x512, .i32⟩
  | 66 => ⟨S18x256x512, .i32⟩
  | 67 => ⟨S_, .i32⟩
  | 68 => ⟨S18x1x1, .i32⟩
  | 69 => ⟨S18x1x1, .i1⟩
  | 70 => ⟨S_, .i32⟩
  | 71 => ⟨S18x1x1, .i32⟩
  | 72 => ⟨S18x1x1, .i32⟩
  | 73 => ⟨S18x1x1, .i32⟩
  | 74 => ⟨S18x256x512, .i32⟩
  | 75 => ⟨S18x256x512x1, .i32⟩
  | 76 => ⟨S18x256x512x1, .i32⟩
  | 77 => ⟨S18x256x512x1, .i32⟩
  | 78 => ⟨S18x256x512x3, .i32⟩
  | 79 => ⟨S1x32x18x256x512, .f32⟩
  | 80 => ⟨S_, .i32⟩
  | 81 => ⟨S18x256x512, .i32⟩
  | 82 => ⟨S18x256x512, .i1⟩
  | 83 => ⟨S_, .i32⟩
  | 84 => ⟨S18x256x512, .i32⟩
  | 85 => ⟨S18x256x512, .i32⟩
  | 86 => ⟨S18x256x512, .i32⟩
  | 87 => ⟨S_, .i32⟩
  | 88 => ⟨S18x256x512, .i32⟩
  | 89 => ⟨S18x256x512, .i1⟩
  | 90 => ⟨S_, .i32⟩
  | 91 => ⟨S18x256x512, .i32⟩
  | 92 => ⟨S18x256x512, .i32⟩
  | 93 => ⟨S18x256x512, .i32⟩
  | 94 => ⟨S_, .i32⟩
  | 95 => ⟨S18x1x1, .i32⟩
  | 96 => ⟨S18x1x1, .i1⟩
  | 97 => ⟨S_, .i32⟩
  | 98 => ⟨S18x1x1, .i32⟩
  | 99 => ⟨S18x1x1, .i32⟩
  | 100 => ⟨S18x1x1, .i32⟩
  | 101 => ⟨S18x256x512, .i32⟩
  | 102 => ⟨S18x256x512x1, .i32⟩
  | 103 => ⟨S18x256x512x1, .i32⟩
  | 104 => ⟨S18x256x512x1, .i32⟩
  | 105 => ⟨S18x256x512x3, .i32⟩
  | 106 => ⟨S1x32x18x256x512, .f32⟩
  | 107 => ⟨S_, .i32⟩
  | 108 => ⟨S18x256x512, .i32⟩
  | 109 => ⟨S18x256x512, .i1⟩
  | 110 => ⟨S_, .i32⟩
  | 111 => ⟨S18x256x512, .i32⟩
  | 112 => ⟨S18x256x512, .i32⟩
  | 113 => ⟨S18x256x512, .i32⟩
  | 114 => ⟨S_, .i32⟩
  | 115 => ⟨S18x256x512, .i32⟩
  | 116 => ⟨S18x256x512, .i1⟩
  | 117 => ⟨S_, .i32⟩
  | 118 => ⟨S18x256x512, .i32⟩
  | 119 => ⟨S18x256x512, .i32⟩
  | 120 => ⟨S18x256x512, .i32⟩
  | 121 => ⟨S_, .i32⟩
  | 122 => ⟨S18x1x1, .i32⟩
  | 123 => ⟨S18x1x1, .i1⟩
  | 124 => ⟨S_, .i32⟩
  | 125 => ⟨S18x1x1, .i32⟩
  | 126 => ⟨S18x1x1, .i32⟩
  | 127 => ⟨S18x1x1, .i32⟩
  | _ => ⟨S1x32x224x224x18, .f32⟩

abbrev hbmTy0_1 (i : Nat) : BufTy := match i % 128 with
  | 0 => ⟨S18x256x512, .i32⟩
  | 1 => ⟨S18x256x512x1, .i32⟩
  | 2 => ⟨S18x256x512x1, .i32⟩
  | 3 => ⟨S18x256x512x1, .i32⟩
  | 4 => ⟨S18x256x512x3, .i32⟩
  | 5 => ⟨S1x32x18x256x512, .f32⟩
  | 6 => ⟨S18x256x512x1, .f32⟩
  | 7 => ⟨S18x256x512, .f32⟩
  | 8 => ⟨S1x1x18x256x512, .f32⟩
  | 9 => ⟨S1x32x18x256x512, .f32⟩
  | 10 => ⟨S1x32x18x256x512, .f32⟩
  | 11 => ⟨S18x256x512x1, .f32⟩
  | 12 => ⟨S18x256x512, .f32⟩
  | 13 => ⟨S1x1x18x256x512, .f32⟩
  | 14 => ⟨S1x32x18x256x512, .f32⟩
  | 15 => ⟨S1x32x18x256x512, .f32⟩
  | 16 => ⟨S1x32x18x256x512, .f32⟩
  | 17 => ⟨S18x256x512x1, .f32⟩
  | 18 => ⟨S18x256x512, .f32⟩
  | 19 => ⟨S1x1x18x256x512, .f32⟩
  | 20 => ⟨S1x32x18x256x512, .f32⟩
  | 21 => ⟨S1x32x18x256x512, .f32⟩
  | 22 => ⟨S1x32x18x256x512, .f32⟩
  | 23 => ⟨S18x256x512x1, .f32⟩
  | 24 => ⟨S18x256x512, .f32⟩
  | 25 => ⟨S1x1x18x256x512, .f32⟩
  | 26 => ⟨S1x32x18x256x512, .f32⟩
  | 27 => ⟨S1x32x18x256x512, .f32⟩
  | 28 => ⟨S1x32x18x256x512, .f32⟩
  | 29 => ⟨S_, .f32⟩
  | 30 => ⟨S1x32x256x512, .f32⟩
  | _ => ⟨S1x32x224x224x18, .f32⟩

abbrev hbmTy (i : Nat) : BufTy := match i / 128 with
  | 0 => hbmTy0_0 i
  | 1 => hbmTy0_1 i
  | _ => ⟨S1x32x224x224x18, .f32⟩

abbrev bufTy : (tb : Table) → Fin (tcTables nBuf tb) → BufTy
  | .hbm, ⟨i, _⟩ => hbmTy i
  | _, _ => ⟨S1x32x224x224x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_c_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_13 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_c_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_17 : Ref sig .tc := ⟨.hbm, 94, rfl⟩
abbrev main_v68 : Ref sig .tc := ⟨.hbm, 95, rfl⟩
abbrev main_v69 : Ref sig .tc := ⟨.hbm, 96, rfl⟩
abbrev main_c_18 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_19 : Ref sig .tc := ⟨.hbm, 107, rfl⟩
abbrev main_v79 : Ref sig .tc := ⟨.hbm, 108, rfl⟩
abbrev main_v80 : Ref sig .tc := ⟨.hbm, 109, rfl⟩
abbrev main_c_20 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_21 : Ref sig .tc := ⟨.hbm, 114, rfl⟩
abbrev main_v84 : Ref sig .tc := ⟨.hbm, 115, rfl⟩
abbrev main_v85 : Ref sig .tc := ⟨.hbm, 116, rfl⟩
abbrev main_c_22 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_23 : Ref sig .tc := ⟨.hbm, 121, rfl⟩
abbrev main_v89 : Ref sig .tc := ⟨.hbm, 122, rfl⟩
abbrev main_v90 : Ref sig .tc := ⟨.hbm, 123, rfl⟩
abbrev main_c_24 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_25 : Ref sig .tc := ⟨.hbm, 157, rfl⟩
abbrev main_v123 : Ref sig .tc := ⟨.hbm, 158, rfl⟩

abbrev nD : Nat := 1
abbrev τ : Topo := Topo.v7x

variable {F : FTy → Type} [FloatOps F]

class Facts₀ : Prop where
  bcast_S_S18x256x512x4 : S_.BroadcastsInDim S18x256x512x4 (![] : Fin 0 → Fin S18x256x512x4.rank)
  reducesTo_S18x256x512x4_S256x512_d0_3 : S18x256x512x4.ReducesTo [0, 3] S256x512
  h_S_ : 0 < S_.numel
  bcast_S256x512_S1x256x512x1_1_2 : S256x512.BroadcastsInDim S1x256x512x1 (![1, 2] : Fin 2 → Fin S1x256x512x1.rank)
  bcast_S_S1x256x512x1 : S_.BroadcastsInDim S1x256x512x1 (![] : Fin 0 → Fin S1x256x512x1.rank)
  bcast_S1x256x512x1_S18x256x512x4_0_1_2_3 : S1x256x512x1.BroadcastsInDim S18x256x512x4 (![0, 1, 2, 3] : Fin 4 → Fin S18x256x512x4.rank)
  bcast_S18x256x512_S18x256x512x1_0_1_2 : S18x256x512.BroadcastsInDim S18x256x512x1 (![0, 1, 2] : Fin 3 → Fin S18x256x512x1.rank)
  bcast_S18x256x512x1_S18x256x512x4_0_1_2_3 : S18x256x512x1.BroadcastsInDim S18x256x512x4 (![0, 1, 2, 3] : Fin 4 → Fin S18x256x512x4.rank)
  bcast_S18_S18x1x1_0 : S18.BroadcastsInDim S18x1x1 (![0] : Fin 1 → Fin S18x1x1.rank)
  bcast_S_S18x256x512 : S_.BroadcastsInDim S18x256x512 (![] : Fin 0 → Fin S18x256x512.rank)
  bcast_S_S18x1x1 : S_.BroadcastsInDim S18x1x1 (![] : Fin 0 → Fin S18x1x1.rank)
  bcast_S18x1x1_S18x256x512_0_1_2 : S18x1x1.BroadcastsInDim S18x256x512 (![0, 1, 2] : Fin 3 → Fin S18x256x512.rank)
  concatenates_S18x256x512x1_S18x256x512x1_S18x256x512x1_S18x256x512x3_d3 : Shape.Concatenates [S18x256x512x1, S18x256x512x1, S18x256x512x1] S18x256x512x3 3
  slices_S18x256x512x4_S18x256x512x1_0_0_0_0 : S18x256x512x4.Slices ![0, 0, 0, 0] S18x256x512x1
  shapeCasts_S18x256x512x1_S18x256x512 : S18x256x512x1.ShapeCasts S18x256x512
  bcast_S18x256x512_S1x1x18x256x512_2_3_4 : S18x256x512.BroadcastsInDim S1x1x18x256x512 (![2, 3, 4] : Fin 3 → Fin S1x1x18x256x512.rank)
  bcast_S1x1x18x256x512_S1x32x18x256x512_0_1_2_3_4 : S1x1x18x256x512.BroadcastsInDim S1x32x18x256x512 (![0, 1, 2, 3, 4] : Fin 5 → Fin S1x32x18x256x512.rank)
  slices_S18x256x512x4_S18x256x512x1_0_0_0_1 : S18x256x512x4.Slices ![0, 0, 0, 1] S18x256x512x1
  slices_S18x256x512x4_S18x256x512x1_0_0_0_2 : S18x256x512x4.Slices ![0, 0, 0, 2] S18x256x512x1
  slices_S18x256x512x4_S18x256x512x1_0_0_0_3 : S18x256x512x4.Slices ![0, 0, 0, 3] S18x256x512x1
  reducesTo_S1x32x18x256x512_S1x32x256x512_d2 : S1x32x18x256x512.ReducesTo [2] S1x32x256x512
  gather_S1x32x224x224x18_S18x256x512x3_S1x32x18x256x512_01_234_n_n_234_3_132111_wf : GatherDims.WF S1x32x224x224x18 S18x256x512x3 S1x32x18x256x512 [0, 1] [2, 3, 4] [] [2, 3, 4] [] 3 ![1, 32, 1, 1, 1]

variable [Facts₀]

def gather_S1x32x224x224x18_S18x256x512x3_S1x32x18x256x512_01_234_n_n_234_3_132111 : GatherDims S1x32x224x224x18 S18x256x512x3 S1x32x18x256x512 where
  offsetDims := [0, 1]
  collapsedSliceDims := [2, 3, 4]
  operandBatchingDims := []
  startIndicesBatchingDims := []
  startIndexMap := [2, 3, 4]
  indexVectorDim := 3
  sliceSizes := ![1, 32, 1, 1, 1]
  wf := gather_S1x32x224x224x18_S18x256x512x3_S1x32x18x256x512_01_234_n_n_234_3_132111_wf

class Facts : Prop extends Facts₀ where

variable [Facts]
-- ==== Proof.KGrid.lean ====
import proofs.«427269_j59785944760704_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The grid's arithmetic: point t is (tile t / 18, patch t mod 18); which block of its array each window stages there. -/

namespace Cert.P2E
open Cert.KernelIdeal Cert.KernelIdeal.Gen

variable {F : FTy → Type} [FloatOps F]

/-- Point t of the 342 × 18 grid, tile-major: its tile is t / 18 and its patch t mod 18. -/
theorem coords_facts : ∀ t : Fin cfg0.N, ((grid0.coords t) 0).val = t.val / 18 ∧ ((grid0.coords t) 1).val = t.val % 18 :=
  (by decide +kernel : ∀ t : Fin grid0.N, ((grid0.coords t) 0).val = t.val / 18 ∧ ((grid0.coords t) 1).val = t.val % 18)

theorem N_eq : cfg0.N = 6156 := N_0

/-- The row of the tables the body loads at point t is the patch's. -/
theorem off1_eq (t : Fin cfg0.N) : k0_off1 (grid0.coords t) 0 = t.val % 18 := by
  have h := (coords_facts t).2
  have hlt : t.val % 18 < 2 ^ 32 := by omega
  show (Scalar.indexCast (BitVec.ofNat 32 ((grid0.coords t) 1).val)).toNat = _
  rw [h]
  simp [Scalar.indexCast, BitVec.toNat_ofNat]
  omega

end Cert.P2E
end
-- ==== Proof.KPieces.lean ====
import proofs.«427269_j59785944760704_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What one grid point leaves in the accumulator and in the output block, as pure functions of the point's input blocks.

At a point with patch number p = i 1 the body reads row p of each of the eight [18, 384] tables and the whole image
block, and leaves in the accumulator `step`: the accumulator it found plus the first half's weighted pick, plus the
second half's. At the first patch the accumulator it finds is the zero block; at the last patch the output block is
the transpose of what the accumulator then holds. -/

namespace Cert.P2E
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after stores the LAST of which covered the whole buffer reads that store's payload. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨(⟨Rect.unit (fun _ => 0) S.size inb, w⟩ : View.Piece Val S e), by simp, by
    show y ∈ (Rect.whole S).set; rw [Rect.set_whole]; exact Finset.mem_univ y⟩), View.canon_cons_unit_zero rfl, View.ld_unit_zero rfl]

/-- Row `i 1` of a table block: what the body loads of it. -/
abbrev rowOfBlk {e : EltTy} (i : grid0.Coords) (x : Vec F S18x384 e) : Vec F S1x384 e :=
  View.ld x (Rect.unit (s := S18x384) (k0_off1 i) S1x384.size (k0_off1_inb i))

/-- The accumulator after a point that found `acc` in it. -/
def step (i : grid0.Coords) (x0 : Vec F S1x224x8192 .bf16) (x1 : Vec F S18x384 .i32) (x2 : Vec F S18x384 .i32) (x3 : Vec F S18x384 .i32) (x4 : Vec F S18x384 .i32) (x5 : Vec F S18x384 .f32) (x6 : Vec F S18x384 .f32) (x7 : Vec F S18x384 .f32) (x8 : Vec F S18x384 .f32) (acc : Vec F S384x32 .f32) : Vec F S384x32 .f32 :=
  k0_pay1
    (k0_pay14 (k0_pay5 (rowOfBlk i x3)) (k0_pay6 x0) (iota .tc S384x224 32 [1] iota_S384x224_d1_w32) (iota .tc S384x256 32 [1] iota_S384x256_d1_w32)
      (k0_pay7 (rowOfBlk i x2)) (k0_pay8 (rowOfBlk i x4)) (k0_pay9 (rowOfBlk i x6)) (k0_pay11 (rowOfBlk i x8)))
    (k0_pay13 (k0_pay4 (rowOfBlk i x1)) (k0_pay6 x0) (iota .tc S384x224 32 [1] iota_S384x224_d1_w32) (iota .tc S384x256 32 [1] iota_S384x256_d1_w32)
      (k0_pay8 (rowOfBlk i x4)) (k0_pay10 (rowOfBlk i x7)) (k0_pay12 (rowOfBlk i x2) (rowOfBlk i x5)) acc)

/-- A middle patch: the accumulator found, stepped. -/
theorem sout_B (c : Dev nD) (i : grid0.Coords) (arg2 : Memref sig .tc .vmem S1x224x8192 .bf16) (harg2 : arg2.IsWhole) (arg3 : Memref sig .tc .vmem S18x384 .i32) (harg3 : arg3.IsWhole) (arg4 : Memref sig .tc .vmem S18x384 .i32) (harg4 : arg4.IsWhole) (arg5 : Memref sig .tc .vmem S18x384 .i32) (harg5 : arg5.IsWhole) (arg6 : Memref sig .tc .vmem S18x384 .i32) (harg6 : arg6.IsWhole) (arg7 : Memref sig .tc .vmem S18x384 .f32) (harg7 : arg7.IsWhole) (arg8 : Memref sig .tc .vmem S18x384 .f32) (harg8 : arg8.IsWhole) (arg9 : Memref sig .tc .vmem S18x384 .f32) (harg9 : arg9.IsWhole) (arg10 : Memref sig .tc .vmem S18x384 .f32) (harg10 : arg10.IsWhole) (arg11 : Memref sig .tc .vmem S32x384 .f32) (harg11 : arg11.IsWhole) (arg12 : Memref sig .tc .vmem S384x32 .f32) (harg12 : arg12.IsWhole) (hc0 : ¬cond0_0 i) (hc1 : ¬cond0_1 i) (x0 : Vec F S1x224x8192 .bf16) (x1 : Vec F S18x384 .i32) (x2 : Vec F S18x384 .i32) (x3 : Vec F S18x384 .i32) (x4 : Vec F S18x384 .i32) (x5 : Vec F S18x384 .f32) (x6 : Vec F S18x384 .f32) (x7 : Vec F S18x384 .f32) (x8 : Vec F S18x384 .f32) (xs0 : Vec F S384x32 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = step i x0 x1 x2 x3 x4 x5 x6 x7 x8 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_cons_unit_zero (S := S384x32) hz2, View.readCov_unit_zero (S := S384x32) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x224x8192) hz3, View.ld_unit_zero (S := S384x32) hz2]
  rfl

/-- The last patch: the same step. -/
theorem sout_C (c : Dev nD) (i : grid0.Coords) (arg2 : Memref sig .tc .vmem S1x224x8192 .bf16) (harg2 : arg2.IsWhole) (arg3 : Memref sig .tc .vmem S18x384 .i32) (harg3 : arg3.IsWhole) (arg4 : Memref sig .tc .vmem S18x384 .i32) (harg4 : arg4.IsWhole) (arg5 : Memref sig .tc .vmem S18x384 .i32) (harg5 : arg5.IsWhole) (arg6 : Memref sig .tc .vmem S18x384 .i32) (harg6 : arg6.IsWhole) (arg7 : Memref sig .tc .vmem S18x384 .f32) (harg7 : arg7.IsWhole) (arg8 : Memref sig .tc .vmem S18x384 .f32) (harg8 : arg8.IsWhole) (arg9 : Memref sig .tc .vmem S18x384 .f32) (harg9 : arg9.IsWhole) (arg10 : Memref sig .tc .vmem S18x384 .f32) (harg10 : arg10.IsWhole) (arg11 : Memref sig .tc .vmem S32x384 .f32) (harg11 : arg11.IsWhole) (arg12 : Memref sig .tc .vmem S384x32 .f32) (harg12 : arg12.IsWhole) (hc0 : ¬cond0_0 i) (hc1 : cond0_1 i) (x0 : Vec F S1x224x8192 .bf16) (x1 : Vec F S18x384 .i32) (x2 : Vec F S18x384 .i32) (x3 : Vec F S18x384 .i32) (x4 : Vec F S18x384 .i32) (x5 : Vec F S18x384 .f32) (x6 : Vec F S18x384 .f32) (x7 : Vec F S18x384 .f32) (x8 : Vec F S18x384 .f32) (xs0 : Vec F S384x32 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = step i x0 x1 x2 x3 x4 x5 x6 x7 x8 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_cons_unit_zero (S := S384x32) hz2, View.readCov_unit_zero (S := S384x32) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x224x8192) hz3, View.ld_unit_zero (S := S384x32) hz2]
  rfl

/-- The last patch's output block: the stepped accumulator, transposed. -/
theorem out_C (c : Dev nD) (i : grid0.Coords) (arg2 : Memref sig .tc .vmem S1x224x8192 .bf16) (harg2 : arg2.IsWhole) (arg3 : Memref sig .tc .vmem S18x384 .i32) (harg3 : arg3.IsWhole) (arg4 : Memref sig .tc .vmem S18x384 .i32) (harg4 : arg4.IsWhole) (arg5 : Memref sig .tc .vmem S18x384 .i32) (harg5 : arg5.IsWhole) (arg6 : Memref sig .tc .vmem S18x384 .i32) (harg6 : arg6.IsWhole) (arg7 : Memref sig .tc .vmem S18x384 .f32) (harg7 : arg7.IsWhole) (arg8 : Memref sig .tc .vmem S18x384 .f32) (harg8 : arg8.IsWhole) (arg9 : Memref sig .tc .vmem S18x384 .f32) (harg9 : arg9.IsWhole) (arg10 : Memref sig .tc .vmem S18x384 .f32) (harg10 : arg10.IsWhole) (arg11 : Memref sig .tc .vmem S32x384 .f32) (harg11 : arg11.IsWhole) (arg12 : Memref sig .tc .vmem S384x32 .f32) (harg12 : arg12.IsWhole) (hc0 : ¬cond0_0 i) (hc1 : cond0_1 i) (x0 : Vec F S1x224x8192 .bf16) (x1 : Vec F S18x384 .i32) (x2 : Vec F S18x384 .i32) (x3 : Vec F S18x384 .i32) (x4 : Vec F S18x384 .i32) (x5 : Vec F S18x384 .f32) (x6 : Vec F S18x384 .f32) (x7 : Vec F S18x384 .f32) (x8 : Vec F S18x384 .f32) (xs0 : Vec F S384x32 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay2 (step i x0 x1 x2 x3 x4 x5 x6 x7 x8 xs0) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz2, readCov_cons_whole (S := S384x32) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x224x8192) hz3, View.ld_unit_zero (S := S384x32) hz2, View.readCov_unit_zero (S := S384x32) _ hz2]
  rfl

/-- The first patch: the step from the zero block. -/
theorem sout_A (c : Dev nD) (i : grid0.Coords) (arg2 : Memref sig .tc .vmem S1x224x8192 .bf16) (harg2 : arg2.IsWhole) (arg3 : Memref sig .tc .vmem S18x384 .i32) (harg3 : arg3.IsWhole) (arg4 : Memref sig .tc .vmem S18x384 .i32) (harg4 : arg4.IsWhole) (arg5 : Memref sig .tc .vmem S18x384 .i32) (harg5 : arg5.IsWhole) (arg6 : Memref sig .tc .vmem S18x384 .i32) (harg6 : arg6.IsWhole) (arg7 : Memref sig .tc .vmem S18x384 .f32) (harg7 : arg7.IsWhole) (arg8 : Memref sig .tc .vmem S18x384 .f32) (harg8 : arg8.IsWhole) (arg9 : Memref sig .tc .vmem S18x384 .f32) (harg9 : arg9.IsWhole) (arg10 : Memref sig .tc .vmem S18x384 .f32) (harg10 : arg10.IsWhole) (arg11 : Memref sig .tc .vmem S32x384 .f32) (harg11 : arg11.IsWhole) (arg12 : Memref sig .tc .vmem S384x32 .f32) (harg12 : arg12.IsWhole) (hc0 : cond0_0 i) (hc1 : ¬cond0_1 i) (x0 : Vec F S1x224x8192 .bf16) (x1 : Vec F S18x384 .i32) (x2 : Vec F S18x384 .i32) (x3 : Vec F S18x384 .i32) (x4 : Vec F S18x384 .i32) (x5 : Vec F S18x384 .f32) (x6 : Vec F S18x384 .f32) (x7 : Vec F S18x384 .f32) (x8 : Vec F S18x384 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = step i x0 x1 x2 x3 x4 x5 x6 x7 x8 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S384x32) hz2]
  repeat rw [readCov_cons_whole (S := S384x32) _ hz2]
  simp only [View.readAt_eq_ld, harg2.read_unread, harg3.read_unread, harg4.read_unread, harg5.read_unread, harg6.read_unread, harg7.read_unread, harg8.read_unread, harg9.read_unread, harg10.read_unread, harg12.read_unread, View.ld_unit_zero (S := S1x224x8192) hz3, View.ld_unit_zero (S := S384x32) hz2, View.readCov_unit_zero (S := S384x32) _ hz2]
  rfl

end Cert.P2E
end
-- ==== Proof.KIdx.lean ====
import proofs.«427269_j59785944760704_3_alg».proof.Proof.Gen.KernelIdeal.Frame
import proofs.«427269_j59785944760704_3_alg».proof.Proof.KGrid
import proofs.«427269_j59785944760704_3_alg».proof.Proof.KPieces
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

/-! Which block of its array each window stages at grid point t: the image window patch (t mod 18); each table window
    and the output window the 384 columns of tile (t / 18). And the table row the body loads there: the patch's. -/

namespace Cert.P2E
open Cert.KernelIdeal Cert.KernelIdeal.Gen

variable {F : FTy → Type} [FloatOps F]

variable (m : (ℓ : Loc nD τ sig) → Buf (Elt F) ℓ) (c : Dev nD)

theorem tile_lt (t : Fin cfg0.N) : t.val / 18 < 342 := by have := t.isLt; have := N_eq; omega

/-- The image window's block index at point t: (patch, 0, 0). -/
theorem idx0 (t : Fin cfg0.N) : win0_0.index t 0 = t.val % 18 ∧ win0_0.index t 1 = 0 ∧ win0_0.index t 2 = 0 := by
  have h := (coords_facts t).2
  have hlt : t.val % 18 < 2 ^ 32 := by omega
  refine ⟨?_, rfl, rfl⟩
  show (BitVec.ofNat 32 ((grid0.coords t) 1).val).toNat = _
  rw [h, BitVec.toNat_ofNat, Nat.mod_eq_of_lt hlt]

/-- Window 1's block index at point t: (0, tile). -/
theorem idx1 (t : Fin cfg0.N) : win0_1.index t 0 = 0 ∧ win0_1.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 2's block index at point t: (0, tile). -/
theorem idx2 (t : Fin cfg0.N) : win0_2.index t 0 = 0 ∧ win0_2.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 3's block index at point t: (0, tile). -/
theorem idx3 (t : Fin cfg0.N) : win0_3.index t 0 = 0 ∧ win0_3.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 4's block index at point t: (0, tile). -/
theorem idx4 (t : Fin cfg0.N) : win0_4.index t 0 = 0 ∧ win0_4.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 5's block index at point t: (0, tile). -/
theorem idx5 (t : Fin cfg0.N) : win0_5.index t 0 = 0 ∧ win0_5.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 6's block index at point t: (0, tile). -/
theorem idx6 (t : Fin cfg0.N) : win0_6.index t 0 = 0 ∧ win0_6.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 7's block index at point t: (0, tile). -/
theorem idx7 (t : Fin cfg0.N) : win0_7.index t 0 = 0 ∧ win0_7.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 8's block index at point t: (0, tile). -/
theorem idx8 (t : Fin cfg0.N) : win0_8.index t 0 = 0 ∧ win0_8.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- Window 9's block index at point t: (0, tile). -/
theorem idx9 (t : Fin cfg0.N) : win0_9.index t 0 = 0 ∧ win0_9.index t 1 = t.val / 18 := by
  have h := (coords_facts t).1
  have hlt : t.val / 18 < 2 ^ 32 := by have := tile_lt t; omega
  refine ⟨rfl, ?_⟩
  show (BitVec.ofNat 32 ((grid0.coords t) 0).val).toNat = _
  rw [h, BitVec.toNat_ofNat, Nat.mod_eq_of_lt hlt]

/-- The row the body loads of a table block at point t, at column n: the block at (patch, n). -/
theorem rowOfBlk_apply {e : EltTy} (t : Fin cfg0.N) (x : Vec F S18x384 e) (n : Fin 384) :
    rowOfBlk (grid0.coords t) x (ValueIdx.ix2 0 n) = x (ValueIdx.ix2 ⟨t.val % 18, Nat.mod_lt _ (by decide)⟩ n) := by
  show x _ = x _
  refine congrArg x ?_
  funext a
  apply Fin.ext
  match a with
  | ⟨0, _⟩ => show k0_off1 (grid0.coords t) 0 + 1 * 0 = t.val % 18; rw [off1_eq t]; omega
  | ⟨1, _⟩ => show 0 + 1 * n.val = n.val; omega

end Cert.P2E
end
-- ==== Proof.KBlocks.lean ====
import proofs.«427269_j59785944760704_3_alg».proof.Proof.Gen.KernelIdeal.Frame
import proofs.«427269_j59785944760704_3_alg».proof.Proof.KIdx
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-! The input blocks a grid point sees, read at an index: the image block of point t is patch (t mod 18) of the re-laid
    image; each table block is the 384 columns of tile (t / 18), all 18 rows. Each fact is first proved for arbitrary array
    contents (only the window's geometry matters), then read at the array the region finds. -/

namespace Cert.P2E
open Cert.KernelIdeal Cert.KernelIdeal.Gen

variable {F : FTy → Type} [FloatOps F]
variable (m : (ℓ : Loc nD τ sig) → Buf (Elt F) ℓ) (c : Dev nD)

/-- The image window's block at point t of ANY array contents, at (0, h, q): the array at (patch, h, q). -/
theorem blk0_read (A : Buf (Elt F) ((c : Thread nD τ).loc main_v31)) (t : Fin cfg0.N) (h : Fin 224) (q : Fin 8192) :
    (((cfg0.win 0).blk t).view.read (Elt F) A : Vec F S1x224x8192 .bf16) (ix3 0 h q)
      = A (ix3 ⟨t.val % 18, Nat.mod_lt _ (by decide)⟩ h q) := by
  rw [View.read_apply]
  show A (((cfg0.win 0).blk t).view.emb (ix3 0 h q)) = A _
  refine congrArg A ?_
  funext a
  apply Fin.ext
  match a with
  | ⟨0, _⟩ => show win0_0.index t 0 * 1 + 1 * 0 = t.val % 18; rw [(idx0 t).1]; omega
  | ⟨1, _⟩ => show win0_0.index t 1 * 224 + 1 * h.val = h.val; rw [(idx0 t).2.1]; omega
  | ⟨2, _⟩ => show win0_0.index t 2 * 8192 + 1 * q.val = q.val; rw [(idx0 t).2.2]; omega

/-- The image block at point t, at (0, h, q): the re-laid image at (patch, h, q). -/
theorem iblk0_apply (t : Fin cfg0.N) (h : Fin 224) (q : Fin 8192) :
    (iblk m c 0 t : Vec F S1x224x8192 .bf16) (ix3 0 h q) = V m c main_v31 (ix3 ⟨t.val % 18, Nat.mod_lt _ (by decide)⟩ h q) :=
  blk0_read c (V m c main_v31) t h q

/-- Table window 1's block at point t of ANY array contents, at (r, n): the array at (r, tile · 384 + n). -/
theorem blk1_read (A : Buf (Elt F) ((c : Thread nD τ).loc main_v32)) (t : Fin cfg0.N) (r : Fin 18) (n : Fin 384) :
    (((cfg0.win 1).blk t).view.read (Elt F) A : Vec F S18x384 .i32) (ix2 r n)
      = A (ix2 r ⟨t.val / 18 * 384 + n.val, by have := tile_lt t; omega⟩) := by
  rw [View.read_apply]
  show A (((cfg0.win 1).blk t).view.emb (ix2 r n)) = A _
  refine congrArg A ?_
  funext a
  apply Fin.ext
  match a with
  | ⟨0, _⟩ => show win0_1.index t 0 * 18 + 1 * r.val = r.val; rw [(idx1 t).1]; omega
  | ⟨1, _⟩ => show win0_1.index t 1 * 384 + 1 * n.val = t.val / 18 * 384 + n.val; rw [(idx1 t).2]; omega

/-- Table window 1's block at point t, at (r, n): the table the region finds, at (r, tile · 384 + n). -/
theorem iblk1_apply (t : Fin cfg0.N) (r : Fin 18) (n : Fin 384) :
    (iblk m c 1 t : Vec F S18x384 .i32) (ix2 r n) = V m c main_v32 (ix2 r ⟨t.val / 18 * 384 + n.val, by have := tile_lt t; omega⟩) :=
  blk1_read c (V m c main_v32) t r n

/-- Table window 2's block at point t of ANY array contents, at (r, n): the array at (r, tile · 384 + n). -/
theorem blk2_read (A : Buf (Elt F) ((c : Thread nD τ).loc main_v33)) (t : Fin cfg0.N) (r : Fin 18) (n : Fin 384) :
    (((cfg0.win 2).blk t).view.read (Elt F) A : Vec F S18x384 .i32) (ix2 r n)
      = A (ix2 r ⟨t.val / 18 * 384 + n.val, by have := tile_lt t; omega⟩) := by
  rw [View.read_apply]
  show A (((cfg0.win 2).blk t).view.emb (ix2 r n)) = A _
  refine congrArg A ?_
  funext a
  apply Fin.ext
  match a with
  | ⟨0, _⟩ => show win0_2.index t 0 * 18 + 1 * r.val = r.val; rw [(idx2 t).1]; omega
  | ⟨1, _⟩ => show win0_2.index t 1 * 384 + 1 * n.val = t.val / 18 * 384 + n.val; rw [(idx2 t).2]; omega

/-- Table window 2's block at point t, at (r, n): the table the region finds, at (r, tile · 384 + n). -/
theorem iblk2_apply (t : Fin cfg0.N) (r : Fin 18) (n : Fin 384) :
    (iblk m c 2 t : Vec F S18x384 .i32) (ix2 r n) = V m c main_v33 (ix2 r ⟨t.val / 18 * 384 + n.val, by have := tile_lt t; omega⟩) :=
  blk2_read c (V m c main_v33) t r n

/-- Table window 3's block at point t of ANY array contents, at (r, n): the array at (r, tile · 384 + n). -/
theorem blk3_read (A : Buf (Elt F) ((c : Thread nD τ).loc main_v34)) (t : Fin cfg0.N) (r : Fin 18) (n : Fin 384) :
    (((cfg0.win 3).blk t).view.read (Elt F) A : Vec F S18x384 .i32) (ix2 r n)
      = A (ix2 r ⟨t.val / 18 * 384 + n.val, by have := tile_lt t; omega⟩) := by
  rw [View.read_apply]
  show A (((cfg0.win 3).blk t).view.emb (ix2 r n)) = A _
  refine congrArg A ?_
  funext a
  apply Fin.ext
  match a with
  | ⟨0, _⟩ => show win0_3.index t 0 * 18 + 1 * r.val = r.val; rw [(idx3 t).1]; omega
  | ⟨1, _⟩ => show win0_3.index t 1 * 384 + 1 * n.val = t.val / 18 * 384 + n.val; rw [(idx3 t).2]; omega

/-- Table window 3's block at point t, at (r, n): the table the region finds, at (r, tile · 384 + n). -/
theorem iblk3_apply (t : Fin cfg0.N) (r : Fin 18) (n : Fin 384) :
    (iblk m c 3 t : Vec F S18x384 .i32) (ix2 r n) = V m c main_v34 (ix2 r ⟨t.val / 18 * 384 + n.val, by have := tile_lt t; omega⟩) :=
  blk3_read c (V m c main_v34) t r n

/-- Table window 4's block at point t of ANY array contents, at (r, n): the array at (r, tile · 384 + n). -/
theorem blk4_read (A : Buf (Elt F) ((c : Thread nD τ).loc main_v35)) (t : Fin cfg0.N) (r : Fin 18) (n : Fin 384) :
    (((cfg0.win 4).blk t).view.read (Elt F) A : Vec F S18x384 .i32) (ix2 r n)
      = A (ix2 r ⟨t.val / 18 * 384 + n.val, by have := tile_lt t; omega⟩) := by
  rw [View.read_apply]
  show A (((cfg0.win 4).blk t).view.emb (ix2 r n)) = A _
  refine congrArg A ?_
  funext a
  apply Fin.ext
  match a with
  | ⟨0, _⟩ => show win0_4.index t 0 * 18 + 1 * r.val = r.val; rw [(idx4 t).1]; omega
  | ⟨1, _⟩ => show win0_4.index t 1 * 384 + 1 * n.val = t.val / 18 * 384 + n.val; rw [(idx4 t).2]; omega

/-- Table window 4's block at point t, at (r, n): the table the region finds, at (r, tile · 384 + n). -/
theorem iblk4_apply (t : Fin cfg0.N) (r : Fin 18) (n : Fin 384) :
    (iblk m c 4 t : Vec F S18x384 .i32) (ix2 r n) = V m c main_v35 (ix2 r ⟨t.val / 18 * 384 + n.val, by have := tile_lt t; omega⟩) :=
  blk4_read c (V m c main_v35) t r n

/-- Table window 5's block at point t of ANY array contents, at (r, n): the array at (r, tile · 384 + n). -/
theorem blk5_read (A : Buf (Elt F) ((c : Thread nD τ).loc main_v36)) (t : Fin cfg0.N) (r : Fin 18) (n : Fin 384) :
    (((cfg0.win 5).blk t).view.read (Elt F) A : Vec F S18x384 .f32) (ix2 r n)
      = A (ix2 r ⟨t.val / 18 * 384 + n.val, by have := tile_lt t; omega⟩) := by
  rw [View.read_apply]
  show A (((cfg0.win 5).blk t).view.emb (ix2 r n)) = A _
  refine congrArg A ?_
  funext a
  apply Fin.ext
  match a with
  | ⟨0, _⟩ => show win0_5.index t 0 * 18 + 1 * r.val = r.val; rw [(idx5 t).1]; omega
  | ⟨1, _⟩ => show win0_5.index t 1 * 384 + 1 * n.val = t.val / 18 * 384 + n.val; rw [(idx5 t).2]; omega

/-- Table window 5's block at point t, at (r, n): the table the region finds, at (r, tile · 384 + n). -/
theorem iblk5_apply (t : Fin cfg0.N) (r : Fin 18) (n : Fin 384) :
    (iblk m c 5 t : Vec F S18x384 .f32) (ix2 r n) = V m c main_v36 (ix2 r ⟨t.val / 18 * 384 + n.val, by have := tile_lt t; omega⟩) :=
  blk5_read c (V m c main_v36) t r n

/-- Table window 6's block at point t of ANY array contents, at (r, n): the array at (r, tile · 384 + n). -/
theorem blk6_read (A : Buf (Elt F) ((c : Thread nD τ).loc main_v37)) (t : Fin cfg0.N) (r : Fin 18) (n : Fin 384) :
    (((cfg0.win 6).blk t).view.read (Elt F) A : Vec F S18x384 .f32) (ix2 r n)
      = A (ix2 r ⟨t.val / 18 * 384 + n.val, by have := tile_lt t; omega⟩) := by
  rw [View.read_apply]
  show A (((cfg0.win 6).blk t).view.emb (ix2 r n)) = A _
  refine congrArg A ?_
  funext a
  apply Fin.ext
  match a with
  | ⟨0, _⟩ => show win0_6.index t 0 * 18 + 1 * r.val = r.val; rw [(idx6 t).1]; omega
  | ⟨1, _⟩ => show win0_6.index t 1 * 384 + 1 * n.val = t.val / 18 * 384 + n.val; rw [(idx6 t).2]; omega

/-- Table window 6's block at point t, at (r, n): the table the region finds, at (r, tile · 384 + n). -/
theorem iblk6_apply (t : Fin cfg0.N) (r : Fin 18) (n : Fin 384) :
    (iblk m c 6 t : Vec F S18x384 .f32) (ix2 r n) = V m c main_v37 (ix2 r ⟨t.val / 18 * 384 + n.val, by have := tile_lt t; omega⟩) :=
  blk6_read c (V m c main_v37) t r n

/-- Table window 7's block at point t of ANY array contents, at (r, n): the array at (r, tile · 384 + n). -/
theorem blk7_read (A : Buf (Elt F) ((c : Thread nD τ).loc main_v38)) (t : Fin cfg0.N) (r : Fin 18) (n : Fin 384) :
    (((cfg0.win 7).blk t).view.read (Elt F) A : Vec F S18x384 .f32) (ix2 r n)
      = A (ix2 r ⟨t.val / 18 * 384 + n.val, by have := tile_lt t; omega⟩) := by
  rw [View.read_apply]
  show A (((cfg0.win 7).blk t).view.emb (ix2 r n)) = A _
  refine congrArg A ?_
  funext a
  apply Fin.ext
  match a with
  | ⟨0, _⟩ => show win0_7.index t 0 * 18 + 1 * r.val = r.val; rw [(idx7 t).1]; omega
  | ⟨1, _⟩ => show win0_7.index t 1 * 384 + 1 * n.val = t.val / 18 * 384 + n.val; rw [(idx7 t).2]; omega

/-- Table window 7's block at point t, at (r, n): the table the region finds, at (r, tile · 384 + n). -/
theorem iblk7_apply (t : Fin cfg0.N) (r : Fin 18) (n : Fin 384) :
    (iblk m c 7 t : Vec F S18x384 .f32) (ix2 r n) = V m c main_v38 (ix2 r ⟨t.val / 18 * 384 + n.val, by have := tile_lt t; omega⟩) :=
  blk7_read c (V m c main_v38) t r n

/-- Table window 8's block at point t of ANY array contents, at (r, n): the array at (r, tile · 384 + n). -/
theorem blk8_read (A : Buf (Elt F) ((c : Thread nD τ).loc main_v39)) (t : Fin cfg0.N) (r : Fin 18) (n : Fin 384) :
    (((cfg0.win 8).blk t).view.read (Elt F) A : Vec F S18x384 .f32) (ix2 r n)
      = A (ix2 r ⟨t.val / 18 * 384 + n.val, by have := tile_lt t; omega⟩) := by
  rw [View.read_apply]
  show A (((cfg0.win 8).blk t).view.emb (ix2 r n)) = A _
  refine congrArg A ?_
  funext a
  apply Fin.ext
  match a with
  | ⟨0, _⟩ => show win0_8.index t 0 * 18 + 1 * r.val = r.val; rw [(idx8 t).1]; omega
  | ⟨1, _⟩ => show win0_8.index t 1 * 384 + 1 * n.val = t.val / 18 * 384 + n.val; rw [(idx8 t).2]; omega

/-- Table window 8's block at point t, at (r, n): the table the region finds, at (r, tile · 384 + n). -/
theorem iblk8_apply (t : Fin cfg0.N) (r : Fin 18) (n : Fin 384) :
    (iblk m c 8 t : Vec F S18x384 .f32) (ix2 r n) = V m c main_v39 (ix2 r ⟨t.val / 18 * 384 + n.val, by have := tile_lt t; omega⟩) :=
  blk8_read c (V m c main_v39) t r n

end Cert.P2E
end
-- ==== Proof.Spec.lean ====
/-
  The mathematics both programs compute, stated once over the argument arrays at the exact (extended real) instance.

  For an output pixel (channel c, row e1, column e2) the result is the sum over the 18 patches p of the four bilinear
  corners: the image read at (c, y, x, p) for y ∈ {y0, y1}, x ∈ {x0, x1} (the index tables at (p, e1, e2)), each times its
  normalized, masked weight W (p, e1, e2, k).  The kernel reaches the same number differently: per patch it selects the
  row y by a one-hot product over the 224 image rows, and the columns x0, x1 by a two-term weighted selector over the 256
  (zero padded) lanes, and adds the two row results into a running accumulator.
-/
import Idealize.ShloMosaic.PureOps.Ideal
import Idealize.ShloMosaic.Lib.ValueIdx

noncomputable section

namespace Cert.P2E

open Idealize.ShloMosaic Idealize.ShloMosaic.ValueIdx

abbrev SImg : Shape := ⟨5, ![1, 32, 224, 224, 18]⟩
abbrev SW4 : Shape := ⟨4, ![18, 256, 512, 4]⟩
abbrev SIdx3 : Shape := ⟨3, ![18, 256, 512]⟩
abbrev SOut : Shape := ⟨4, ![1, 32, 256, 512]⟩

/-- An index word as a row (or column) of the 224-wide image; words in range denote themselves. -/
def rowOf (b : BitVec 32) : Fin 224 := ⟨min b.toNat 223, by omega⟩

theorem rowOf_val_of_lt {b : BitVec 32} (h : b.toNat < 224) : (rowOf b).val = b.toNat := by
  unfold rowOf; simp only; omega

/-- One bilinear corner of patch p at output pixel (e1, e2), channel c: the image at the corner's row and column,
    times weight number k. -/
def corner (img : SImg.Idx → EReal) (W : SW4.Idx → EReal) (ya xa : SIdx3.Idx → BitVec 32) (k : Fin 4)
    (c : Fin 32) (e1 : Fin 256) (e2 : Fin 512) (p : Fin 18) : EReal :=
  img (ix5 0 c (rowOf (ya (ix3 p e1 e2))) (rowOf (xa (ix3 p e1 e2))) p) * W (ix4 p e1 e2 k)

/-- The result: per output pixel, zero plus the sum over the patches of the four corners, added in the reference's order. -/
def G (img : SImg.Idx → EReal) (W : SW4.Idx → EReal) (y0 x0 y1 x1 : SIdx3.Idx → BitVec 32) : SOut.Idx → EReal :=
  fun i => 0 + ∑ p : Fin 18,
    (((corner img W y0 x0 0 (i 1) (i 2) (i 3) p + corner img W y1 x0 1 (i 1) (i 2) (i 3) p)
      + corner img W y0 x1 2 (i 1) (i 2) (i 3) p) + corner img W y1 x1 3 (i 1) (i 2) (i 3) p)

/-- What one half of the kernel's body adds at (row n, channel c) of a tile: over the 256 lanes w, the one-hot pick of image
    row `yv` (a sum over the 224 rows h of indicator × value) times the lane selector, which carries weight `wa` on lane
    `xa` plus weight `wc` on lane `xb`. `val h w` is the channel's value at image row h, lane w. -/
def partSum (val : Fin 224 → Fin 256 → EReal) (yv xa xb : BitVec 32) (wa wc : EReal) : EReal :=
  ∑ w : Fin 256, (∑ h : Fin 224, (if BitVec.ofNat 32 h.val = yv then (1 : EReal) else 0) * val h w)
    * ((if BitVec.ofNat 32 w.val = xa then wa else 0) + (if BitVec.ofNat 32 w.val = xb then wc else 0))

/-- The kernel's running accumulator over the patches: it starts from zero, and each patch adds its first half `f` and then
    its second half `g`. -/
def accK (f g : ℕ → EReal) : ℕ → EReal
  | 0 => (0 + f 0) + g 0
  | k + 1 => (accK f g k + f (k + 1)) + g (k + 1)

end Cert.P2E

end
-- ==== Proof.KPay.lean ====
/-
  The arithmetic of one grid point of the kernel's body, read at one element, at the exact (extended real) instance.

  Per grid point the body holds one row of each index table and weight table (384 output pixels of a tile, for one
  patch) and the patch's image block, 224 rows by 32 channels × 256 lanes. For each of its two halves (the image row
  y0 with weights wa, wc; then the row y1 with wb, wd) it forms

    * a one-hot selector S (n, h) = 1 if h is pixel n's row word, else 0, and the product S · block, which at
      (n, q) is the sum over the 224 rows h of S (n, h) · block (h, q);
    * the split of the 8192 columns into 32 channels of 256 lanes: (n, c, w) reads (n, c · 256 + w);
    * a lane selector g (n, w) = (wa_n if w is pixel n's first lane word, else 0) + (wc_n if w is its second, else 0);
    * the sum over the 256 lanes w of product (n, c, w) · g (n, w), added into the running accumulator.

  Read at (n, c) this is the accumulator plus `partSum` of the channel's slab of the block and pixel n's five words:
  the two theorems `pay13_apply` (first half) and `pay1_pay14_apply` (second half). The accumulator's first value is the
  zero block (`pay3_apply`) and the stored result is its transpose (`pay2_apply`).

  Why each step is true: a shape cast preserves the row-major position; a broadcast of a column repeats it along the
  new axis; an iota along axis 1 reads the coordinate as a word; a comparison bit widened and converted is 1 or 0 as an
  extended real; a product into the zero accumulator is the bare sum over the contracted axis (0 + x = x); a sum
  reduction over the last axis from the zero word is the sum over that axis's coordinates.
-/
import proofs.«427269_j59785944760704_3_alg».proof.Proof.Gen.KernelIdeal.Skeleton
import proofs.«427269_j59785944760704_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

set_option synthInstance.maxSize 4096

noncomputable section

namespace Cert.P2E

open Idealize.ShloMosaic Idealize.ShloMosaic.ValueIdx
open Cert.KernelIdeal Cert.KernelIdeal.Gen
open scoped BigOperators

/-! ## Layout operations at explicit coordinates

A shape cast reads the operand at the index with the same row-major position; a broadcast of a unit axis reads the
operand at coordinate 0 on it. Each lemma below is one of these two facts at the literal shapes the body uses. -/

section Layout
variable {α : Type}

/-- A [1, 384] row viewed as a [384] vector: element n is element (0, n). -/
theorem row_apply (r : S1x384.Idx → α) (h : S1x384.ShapeCasts S384) (n : Fin 384) :
    shapeCast S384 r h (ix1 n) = r (ix2 0 n) :=
  shapeCast_1a_a_apply r h n

/-- A [384] vector viewed as a [384, 1] column: element (n, 0) is element n (position n · 1 + 0 = n). -/
theorem colcast_apply (v : S384.Idx → α) (h : S384.ShapeCasts S384x1) (n : Fin 384) (u : Fin 1) :
    shapeCast S384x1 v h (ix2 n u) = v (ix1 n) :=
  shapeCast_apply v h _ _ (by
    have hu : u.val = 0 := by omega
    rw [Shape.rowMajor_val_two, Shape.rowMajor_val_one]
    show n.val = n.val * 1 + u.val
    rw [hu]; omega)

/-- A [384, 1] column repeated along 256 lanes: element (n, w) is the column's element n. -/
theorem bcast256_apply (v : S384x1.Idx → α) (h : S384x1.Broadcasts S384x256) (n : Fin 384) (w : Fin 256) :
    broadcastTo S384x256 v h (ix2 n w) = v (ix2 n 0) := by
  refine broadcastTo_apply v h (ix2 n w) (ix2 n 0) fun ax => ?_
  match ax with
  | ⟨0, _⟩ => rfl
  | ⟨1, _⟩ => rfl

/-- A [384, 1] column repeated along the 224 image rows: element (n, h) is the column's element n. -/
theorem bcast224_apply (v : S384x1.Idx → α) (h : S384x1.Broadcasts S384x224) (n : Fin 384) (w : Fin 224) :
    broadcastTo S384x224 v h (ix2 n w) = v (ix2 n 0) := by
  refine broadcastTo_apply v h (ix2 n w) (ix2 n 0) fun ax => ?_
  match ax with
  | ⟨0, _⟩ => rfl
  | ⟨1, _⟩ => rfl

/-- The [1, 224, 8192] image block viewed as [224, 8192]: element (r, q) is element (0, r, q). -/
theorem blk_apply (x : S1x224x8192.Idx → α) (h : S1x224x8192.ShapeCasts S224x8192) (r : Fin 224) (q : Fin 8192) :
    shapeCast S224x8192 x h (ix2 r q) = x (ix3 0 r q) :=
  shapeCast_1ab_ab_apply x h r q

/-- The 8192 columns split into 32 channels of 256 lanes: element (n, c, w) is element (n, c · 256 + w), since
    n · 8192 + (c · 256 + w) = (n · 32 + c) · 256 + w. -/
theorem split_apply (x : S384x8192.Idx → α) (h : S384x8192.ShapeCasts S384x32x256) (n : Fin 384) (c : Fin 32) (w : Fin 256) :
    shapeCast S384x32x256 x h (ix3 n c w) = x (ix2 n ⟨c.val * 256 + w.val, by omega⟩) :=
  shapeCast_apply x h _ _ (by
    rw [Shape.rowMajor_val_three, Shape.rowMajor_val_two]
    show n.val * 8192 + (c.val * 256 + w.val) = (n.val * 32 + c.val) * 256 + w.val
    omega)

/-- A [384, 256] array given a unit channel axis and repeated over the 32 channels: element (n, c, w) is element (n, w). -/
theorem lane_apply (g : S384x256.Idx → α) (h1 : S384x256.ShapeCasts S384x1x256) (h2 : S384x1x256.Broadcasts S384x32x256)
    (n : Fin 384) (c : Fin 32) (w : Fin 256) :
    broadcastTo S384x32x256 (shapeCast S384x1x256 g h1) h2 (ix3 n c w) = g (ix2 n w) := by
  refine (broadcastTo_apply _ h2 (ix3 n c w) (ix3 n 0 w) fun ax => ?_).trans ?_
  · match ax with
    | ⟨0, _⟩ => rfl
    | ⟨1, _⟩ => rfl
    | ⟨2, _⟩ => rfl
  · exact shapeCast_apply g h1 _ _ (by
      rw [Shape.rowMajor_val_three, Shape.rowMajor_val_two]
      show n.val * 256 + w.val = (n.val * 1 + 0) * 256 + w.val
      omega)

/-- The index over (n, c) with lane coordinate w inserted on the reduced (last) axis is (n, c, w). -/
theorem lift_eq (h : S384x32x256.Reduces [2] S384x32) (n : Fin 384) (c : Fin 32) (w : Fin 256) :
    h.lift (ix2 n c) w = ix3 n c w := by
  funext a
  match a with
  | ⟨0, _⟩ => rfl
  | ⟨1, _⟩ => rfl
  | ⟨2, _⟩ => rfl

end Layout

/-! ## Words: a comparison bit as a number, and as a choice -/

section Words

/-- The bit of "a = b", widened to a word and read as a signed integer, is the number 1 or 0. -/
theorem bit_real (a b : BitVec 32) :
    ((((IntOp.cmpi .eq a b).setWidth 32).toInt : ℝ) : EReal) = if a = b then 1 else 0 := by
  by_cases h : a = b
  · rw [if_pos h, StableHlo.Predicate.cmpi_eq_iff.2 h]
    show (((1 : Int) : ℝ) : EReal) = 1
    simp
  · rw [if_neg h, eq_zero_of_ne_one (fun e => h (StableHlo.Predicate.cmpi_eq_iff.1 e))]
    show (((0 : Int) : ℝ) : EReal) = 0
    simp

/-- A select on the bit of "a = b" between x and the zero word's value is x or 0. -/
theorem sel_real (a b : BitVec 32) (x : EReal) :
    Scalar.select (IntOp.cmpi .eq a b) x (Ideal.ofBits .f32 0x00000000#32) = if a = b then x else 0 := by
  by_cases h : a = b
  · rw [if_pos h, StableHlo.Predicate.cmpi_eq_iff.2 h, select_one]
  · rw [if_neg h, eq_zero_of_ne_one (fun e => h (StableHlo.Predicate.cmpi_eq_iff.1 e)), select_zero, Ideal.ofBits_zero_f32]

end Words

/-! ## The product with the image block: a sum over the 224 rows

The dimension numbers contract axis 1 of the [384, 224] selector with axis 0 of the [224, 8192] block; the result's
axes are the selector's axis 0 and the block's axis 1. So at result index (n, q) and contraction coordinate h the
operands are read at (n, h) and (h, q): the four axis lemmas. -/

section Matmul

/-- The product's dimension numbers. -/
abbrev D : DotDims S384x224 S224x8192 S384x8192 := Cert.KernelIdeal.dot_S384x224_S224x8192_S384x8192_1_0_0_1_n_n

theorem lhs_D_0 (j : S384x8192.Idx) (k : D.contr.Idx) :
    (Cert.KernelIdeal.dot_S384x224_S224x8192_S384x8192_1_0_0_1_n_n.lhsIdx j k 0 : ℕ) = j 0 := by
  simp [DotDims.lhsIdx, Cert.KernelIdeal.dot_S384x224_S224x8192_S384x8192_1_0_0_1_n_n]; rfl
theorem lhs_D_1 (j : S384x8192.Idx) (k : D.contr.Idx) :
    (Cert.KernelIdeal.dot_S384x224_S224x8192_S384x8192_1_0_0_1_n_n.lhsIdx j k 1 : ℕ) = k ⟨0, by decide⟩ := by
  simp [DotDims.lhsIdx, Cert.KernelIdeal.dot_S384x224_S224x8192_S384x8192_1_0_0_1_n_n]; rfl
theorem rhs_D_0 (j : S384x8192.Idx) (k : D.contr.Idx) :
    (Cert.KernelIdeal.dot_S384x224_S224x8192_S384x8192_1_0_0_1_n_n.rhsIdx j k 0 : ℕ) = k ⟨0, by decide⟩ := by
  simp [DotDims.rhsIdx, Cert.KernelIdeal.dot_S384x224_S224x8192_S384x8192_1_0_0_1_n_n]; rfl
theorem rhs_D_1 (j : S384x8192.Idx) (k : D.contr.Idx) :
    (Cert.KernelIdeal.dot_S384x224_S224x8192_S384x8192_1_0_0_1_n_n.rhsIdx j k 1 : ℕ) = j 1 := by
  simp [DotDims.rhsIdx, Cert.KernelIdeal.dot_S384x224_S224x8192_S384x8192_1_0_0_1_n_n]; rfl

/-- One axis is contracted … -/
theorem D_rank : D.contr.rank = 1 := by
  rw [DotDims.rank_contr]; rfl

/-- … of extent 224, the image rows. -/
theorem D_size : D.contr.size ⟨0, by rw [D_rank]; exact Nat.one_pos⟩ = 224 := by
  rw [DotDims.size_contr D 0 (by show 0 < [(1 : Fin 2)].length; decide)]; rfl

/-- The product into the zero accumulator, at (n, q): the sum over the rows h of selector (n, h) · block (h, q)
    (0 + x = x removes the accumulator; the contraction index is its one coordinate). -/
theorem matmul_at (oh : FVec Ideal S384x224 .bf16) (v : FVec Ideal S224x8192 .bf16) (n : Fin 384) (q : Fin 8192) :
    matmul Cert.KernelIdeal.dot_S384x224_S224x8192_S384x8192_1_0_0_1_n_n none oh v (constant (F := Ideal) S384x8192 .f32 0x00000000#32) (ix2 n q)
      = ∑ h : Fin 224, oh (ix2 n h) * v (ix2 h q) := by
  refine (Ideal.matmul_constant_zero_apply D none oh v (ix2 n q)).trans ?_
  rw [← Equiv.sum_comp (contrEquiv1 D 224 D_rank D_size).symm]
  refine Finset.sum_congr rfl fun h _ => ?_
  have e1 : D.lhsIdx (ix2 n q) ((contrEquiv1 D 224 D_rank D_size).symm h) = ix2 n h :=
    Shape.idx_ext₂ (lhs_D_0 _ _) ((lhs_D_1 _ _).trans (contrEquiv1_symm_val D 224 D_rank D_size h))
  have e2 : D.rhsIdx (ix2 n q) ((contrEquiv1 D 224 D_rank D_size).symm h) = ix2 h q :=
    Shape.idx_ext₂ ((rhs_D_0 _ _).trans (contrEquiv1_symm_val D 224 D_rank D_size h)) (rhs_D_1 _ _)
  rw [e1, e2]

end Matmul

/-! ## The two selectors -/

section Selectors

/-- The one-hot row selector: at (n, h) the indicator that row word n of y names image row h. -/
abbrev oneHot (y : IVec S384 32) : FVec Ideal S384x224 .bf16 :=
  truncf .bf16 (sitofp (F := Ideal) .f32 (extui 32 (cmpi .eq (iota .tc S384x224 32 [1] iota_S384x224_d1_w32)
    (broadcastTo S384x224 (shapeCast S384x1 y shapeCasts_S384_S384x1) broadcasts_S384x1_S384x224)) natLt_1_32)) bitsLt_bf16_f32

/-- One term of the lane selector: at (n, w) the weight of row n where lane w is the row's lane word, else zero. -/
abbrev laneSel (x : IVec S384x1 32) (wt : FVec Ideal S384x1 .f32) : FVec Ideal S384x256 .f32 :=
  select (cmpi .eq (iota .tc S384x256 32 [1] iota_S384x256_d1_w32) (broadcastTo S384x256 x broadcasts_S384x1_S384x256))
    (broadcastTo S384x256 (shapeCast S384x1 wt shapeCasts_S384x1_S384x1) broadcasts_S384x1_S384x256)
    (broadcast S384x256 (Scalar.ofBits (F := Ideal) .f32 0x00000000#32))

/-- The iota along axis 1 at (n, h) is the word of h, the broadcast row column at (n, h) is y's word n, and the widened
    comparison bit converted is 1 or 0. -/
theorem oneHot_apply (y : IVec S384 32) (n : Fin 384) (h : Fin 224) :
    oneHot y (ix2 n h) = if BitVec.ofNat 32 h.val = y (ix1 n) then (1 : EReal) else 0 := by
  show ((((IntOp.cmpi .eq (iota .tc S384x224 32 [1] iota_S384x224_d1_w32 (ix2 n h))
        (broadcastTo S384x224 (shapeCast S384x1 y shapeCasts_S384_S384x1) broadcasts_S384x1_S384x224 (ix2 n h))).setWidth 32).toInt : ℝ) : EReal) = _
  rw [iota_single_apply, bcast224_apply, colcast_apply]
  exact bit_real _ _

/-- The iota at (n, w) is the word of w; both broadcast columns read row n; the select on the comparison bit is the weight or 0. -/
theorem laneSel_apply (x : IVec S384x1 32) (wt : FVec Ideal S384x1 .f32) (n : Fin 384) (w : Fin 256) :
    laneSel x wt (ix2 n w) = if BitVec.ofNat 32 w.val = x (ix2 n 0) then wt (ix2 n 0) else 0 := by
  show Scalar.select (IntOp.cmpi .eq (iota .tc S384x256 32 [1] iota_S384x256_d1_w32 (ix2 n w)) (broadcastTo S384x256 x broadcasts_S384x1_S384x256 (ix2 n w)))
      (broadcastTo S384x256 (shapeCast S384x1 wt shapeCasts_S384x1_S384x1) broadcasts_S384x1_S384x256 (ix2 n w))
      (Ideal.ofBits .f32 0x00000000#32) = _
  rw [iota_single_apply, bcast256_apply, bcast256_apply, shapeCast_self]
  exact sel_real _ _ _

end Selectors

/-! ## One half: the reshaped product times the lane selector, summed over the lanes -/

section Half

/-- The product a half of the body reduces: the matmul of the one-hot selector with the image block, split into
    channels and lanes, times the lane selector broadcast over the channels. -/
abbrev prod (y : IVec S384 32) (v : FVec Ideal S224x8192 .bf16) (g : FVec Ideal S384x256 .f32) : FVec Ideal S384x32x256 .f32 :=
  mulf (shapeCast S384x32x256 (matmul dot_S384x224_S224x8192_S384x8192_1_0_0_1_n_n none (oneHot y) v
      (constant (F := Ideal) S384x8192 .f32 0x00000000#32)) shapeCasts_S384x8192_S384x32x256)
    (broadcastTo S384x32x256 (shapeCast S384x1x256 g shapeCasts_S384x256_S384x1x256) broadcasts_S384x1x256_S384x32x256)

/-- At (n, ch, w): the row sum at column ch · 256 + w, times the lane selector at (n, w). -/
theorem prod_apply (y : IVec S384 32) (v : FVec Ideal S224x8192 .bf16) (g : FVec Ideal S384x256 .f32)
    (n : Fin 384) (ch : Fin 32) (w : Fin 256) :
    prod y v g (ix3 n ch w)
      = (∑ h : Fin 224, (if BitVec.ofNat 32 h.val = y (ix1 n) then (1 : EReal) else 0) * v (ix2 h ⟨ch.val * 256 + w.val, by omega⟩))
        * g (ix2 n w) := by
  show shapeCast S384x32x256 (matmul dot_S384x224_S224x8192_S384x8192_1_0_0_1_n_n none (oneHot y) v
      (constant (F := Ideal) S384x8192 .f32 0x00000000#32)) shapeCasts_S384x8192_S384x32x256 (ix3 n ch w)
    * broadcastTo S384x32x256 (shapeCast S384x1x256 g shapeCasts_S384x256_S384x1x256) broadcasts_S384x1x256_S384x32x256 (ix3 n ch w) = _
  rw [split_apply, lane_apply, matmul_at]
  refine congrArg (· * g (ix2 n w)) (Finset.sum_congr rfl fun h _ => ?_)
  rw [oneHot_apply]

/-- The sum reduction over the lanes from the zero word, added to the accumulator, at (n, ch): the accumulator there plus
    the sum over the 256 lanes. -/
theorem reduce_apply (p : FVec Ideal S384x32x256 .f32) (acc : FVec Ideal S384x32 .f32) (n : Fin 384) (ch : Fin 32) :
    shapeCast S384x32 (addf acc (multiReduction .add [2] S384x32 p 0x00000000#32 reduces_S384x32x256_S384x32 (.inl rfl) rfl))
      shapeCasts_S384x32_S384x32 (ix2 n ch) = acc (ix2 n ch) + ∑ w : Fin 256, p (ix3 n ch w) := by
  rw [shapeCast_self]
  show acc (ix2 n ch) + multiReduction .add [2] S384x32 p 0x00000000#32 reduces_S384x32x256_S384x32 (.inl rfl) rfl (ix2 n ch) = _
  refine congrArg (acc (ix2 n ch) + ·) ?_
  refine (Ideal.multiReduction_add_single p _ reduces_S384x32x256_S384x32 (.inl rfl) rfl (ix2 n ch)).trans ?_
  refine Finset.sum_congr rfl fun w _ => ?_
  exact congrArg p (lift_eq _ n ch w)

end Half

/-! ## The loaded rows and block behind their shape casts

A loaded [1, 384] row is used as a [384] vector or a [384, 1] column, the [1, 224, 8192] block as [224, 8192]; each
reads the loaded value at the matching coordinates. -/

section Loaded

/-- A [1, 384] row viewed [384] then [384, 1]: element (n, 0) is the row's element (0, n). -/
theorem colrow_apply {α : Type} (r : S1x384.Idx → α) (n : Fin 384) (u : Fin 1) :
    shapeCast S384x1 (shapeCast S384 r shapeCasts_S1x384_S384) shapeCasts_S384_S384x1 (ix2 n u) = r (ix2 0 n) :=
  (colcast_apply _ _ n u).trans (row_apply r _ n)

theorem pay4_apply (r : Vec Ideal S1x384 .i32) (n : Fin 384) : k0_pay4 (F := Ideal) r (ix1 n) = r (ix2 0 n) :=
  row_apply r _ n
theorem pay5_apply (r : Vec Ideal S1x384 .i32) (n : Fin 384) : k0_pay5 (F := Ideal) r (ix1 n) = r (ix2 0 n) :=
  row_apply r _ n
theorem pay6_apply (blk : Vec Ideal S1x224x8192 .bf16) (h : Fin 224) (q : Fin 8192) :
    k0_pay6 blk (ix2 h q) = blk (ix3 0 h q) :=
  blk_apply blk _ h q
theorem pay7_apply (r : Vec Ideal S1x384 .i32) (n : Fin 384) : k0_pay7 (F := Ideal) r (ix2 n 0) = r (ix2 0 n) :=
  colrow_apply r n 0
theorem pay8_apply (r : Vec Ideal S1x384 .i32) (n : Fin 384) : k0_pay8 (F := Ideal) r (ix2 n 0) = r (ix2 0 n) :=
  colrow_apply r n 0
theorem pay9_apply (r : Vec Ideal S1x384 .f32) (n : Fin 384) : k0_pay9 r (ix2 n 0) = r (ix2 0 n) :=
  colrow_apply r n 0
theorem pay10_apply (r : Vec Ideal S1x384 .f32) (n : Fin 384) : k0_pay10 r (ix2 n 0) = r (ix2 0 n) :=
  colrow_apply r n 0
theorem pay11_apply (r : Vec Ideal S1x384 .f32) (n : Fin 384) : k0_pay11 r (ix2 n 0) = r (ix2 0 n) :=
  colrow_apply r n 0

/-- The first lane-selector term, built from the loaded first-lane and first-weight rows. -/
theorem pay12_apply (rX : Vec Ideal S1x384 .i32) (rW : Vec Ideal S1x384 .f32) (n : Fin 384) (w : Fin 256) :
    k0_pay12 rX rW (ix2 n w) = if BitVec.ofNat 32 w.val = rX (ix2 0 n) then rW (ix2 0 n) else 0 := by
  have e : k0_pay12 rX rW = laneSel (k0_pay7 (F := Ideal) rX) (k0_pay9 rW) := rfl
  rw [e, laneSel_apply, pay7_apply, pay9_apply]

end Loaded

/-! ## The body's four values at an element -/

section Body

/-- The sum a half of the body adds at (n, ch), read off the loaded rows: `partSum` of the channel's slab of the image block. -/
theorem half_sum (blk : Vec Ideal S1x224x8192 .bf16) (y : IVec S384 32) (g : FVec Ideal S384x256 .f32)
    (yv xa xb : BitVec 32) (wa wc : EReal) (n : Fin 384) (ch : Fin 32)
    (hy : y (ix1 n) = yv)
    (hg : ∀ w : Fin 256, g (ix2 n w)
      = (if BitVec.ofNat 32 w.val = xa then wa else 0) + (if BitVec.ofNat 32 w.val = xb then wc else 0)) :
    ∑ w : Fin 256, prod y (k0_pay6 blk) g (ix3 n ch w)
      = partSum (fun h w => blk (ix3 0 h ⟨ch.val * 256 + w.val, by omega⟩)) yv xa xb wa wc := by
  unfold partSum
  refine Finset.sum_congr rfl fun w _ => ?_
  rw [prod_apply, hg w, hy]
  refine congrArg (· * _) (Finset.sum_congr rfl fun h _ => ?_)
  rw [pay6_apply]

/-- The first half of the body at (n, ch): the accumulator plus the part sum of channel ch's slab of the image block
    under pixel n's row word, two lane words and two weights. -/
theorem pay13_apply (blk : Vec Ideal S1x224x8192 .bf16) (rY rXa rXb : Vec Ideal S1x384 .i32) (rWa rWc : Vec Ideal S1x384 .f32)
    (acc : Vec Ideal S384x32 .f32) (n : Fin 384) (ch : Fin 32) :
    k0_pay13 (k0_pay4 (F := Ideal) rY) (k0_pay6 blk) (iota .tc S384x224 32 [1] iota_S384x224_d1_w32)
        (iota .tc S384x256 32 [1] iota_S384x256_d1_w32) (k0_pay8 (F := Ideal) rXb) (k0_pay10 rWc) (k0_pay12 rXa rWa) acc (ix2 n ch)
      = acc (ix2 n ch) + partSum (fun h w => blk (ix3 0 h ⟨ch.val * 256 + w.val, by omega⟩))
          (rY (ix2 0 n)) (rXa (ix2 0 n)) (rXb (ix2 0 n)) (rWa (ix2 0 n)) (rWc (ix2 0 n)) := by
  have e : k0_pay13 (k0_pay4 (F := Ideal) rY) (k0_pay6 blk) (iota .tc S384x224 32 [1] iota_S384x224_d1_w32)
        (iota .tc S384x256 32 [1] iota_S384x256_d1_w32) (k0_pay8 (F := Ideal) rXb) (k0_pay10 rWc) (k0_pay12 rXa rWa) acc
      = shapeCast S384x32 (addf acc (multiReduction .add [2] S384x32
          (prod (k0_pay4 (F := Ideal) rY) (k0_pay6 blk) (addf (k0_pay12 rXa rWa) (laneSel (k0_pay8 (F := Ideal) rXb) (k0_pay10 rWc))))
          0x00000000#32 reduces_S384x32x256_S384x32 (.inl rfl) rfl)) shapeCasts_S384x32_S384x32 := rfl
  rw [e, reduce_apply]
  refine congrArg (acc (ix2 n ch) + ·) ?_
  refine half_sum blk _ _ _ _ _ _ _ n ch (pay4_apply rY n) fun w => ?_
  show k0_pay12 rXa rWa (ix2 n w) + laneSel (k0_pay8 (F := Ideal) rXb) (k0_pay10 rWc) (ix2 n w) = _
  rw [pay12_apply, laneSel_apply, pay8_apply, pay10_apply]

/-- The second half of the body at (n, ch): the same form over the second row table and the second pair of weights. -/
theorem pay1_pay14_apply (blk : Vec Ideal S1x224x8192 .bf16) (rY rXa rXb : Vec Ideal S1x384 .i32) (rWa rWc : Vec Ideal S1x384 .f32)
    (acc : Vec Ideal S384x32 .f32) (n : Fin 384) (ch : Fin 32) :
    k0_pay1 (k0_pay14 (k0_pay5 (F := Ideal) rY) (k0_pay6 blk) (iota .tc S384x224 32 [1] iota_S384x224_d1_w32)
        (iota .tc S384x256 32 [1] iota_S384x256_d1_w32) (k0_pay7 (F := Ideal) rXa) (k0_pay8 (F := Ideal) rXb) (k0_pay9 rWa) (k0_pay11 rWc)) acc (ix2 n ch)
      = acc (ix2 n ch) + partSum (fun h w => blk (ix3 0 h ⟨ch.val * 256 + w.val, by omega⟩))
          (rY (ix2 0 n)) (rXa (ix2 0 n)) (rXb (ix2 0 n)) (rWa (ix2 0 n)) (rWc (ix2 0 n)) := by
  have e : k0_pay1 (k0_pay14 (k0_pay5 (F := Ideal) rY) (k0_pay6 blk) (iota .tc S384x224 32 [1] iota_S384x224_d1_w32)
        (iota .tc S384x256 32 [1] iota_S384x256_d1_w32) (k0_pay7 (F := Ideal) rXa) (k0_pay8 (F := Ideal) rXb) (k0_pay9 rWa) (k0_pay11 rWc)) acc
      = shapeCast S384x32 (addf acc (multiReduction .add [2] S384x32
          (prod (k0_pay5 (F := Ideal) rY) (k0_pay6 blk)
            (addf (laneSel (k0_pay7 (F := Ideal) rXa) (k0_pay9 rWa)) (laneSel (k0_pay8 (F := Ideal) rXb) (k0_pay11 rWc))))
          0x00000000#32 reduces_S384x32x256_S384x32 (.inl rfl) rfl)) shapeCasts_S384x32_S384x32 := rfl
  rw [e, reduce_apply]
  refine congrArg (acc (ix2 n ch) + ·) ?_
  refine half_sum blk _ _ _ _ _ _ _ n ch (pay5_apply rY n) fun w => ?_
  show laneSel (k0_pay7 (F := Ideal) rXa) (k0_pay9 rWa) (ix2 n w) + laneSel (k0_pay8 (F := Ideal) rXb) (k0_pay11 rWc) (ix2 n w) = _
  rw [laneSel_apply, laneSel_apply, pay7_apply, pay9_apply, pay8_apply, pay11_apply]

/-- The transpose the body stores at the last patch. -/
theorem pay2_apply (v : Vec Ideal S384x32 .f32) (ch : Fin 32) (n : Fin 384) : k0_pay2 v (ix2 ch n) = v (ix2 n ch) :=
  transpose_ix2_apply v _ ch n

/-- The zero block the body stores at the first patch. -/
theorem pay3_apply (n : Fin 384) (ch : Fin 32) : k0_pay3 (F := Ideal) (ix2 n ch) = 0 := by
  have e : k0_pay3 (F := Ideal) = shapeCast S384x32 (broadcast S384x32 (Scalar.ofBits (F := Ideal) .f32 0x00000000#32)) shapeCasts_S384x32_S384x32 := rfl
  rw [e, shapeCast_self]
  exact Ideal.ofBits_zero_f32

end Body

end Cert.P2E
end
-- ==== Proof.Laws.lean ====
/-
  Two identities of extended-real arithmetic about the quantities of the specification.

  partSum_eq: a one-hot product over the image rows followed by a two-term weighted selector over the lanes leaves the
  two selected values, each times its weight.  The only place where the extended reals differ from a ring is the lane on
  which both selectors fire (equal column words): there the value is multiplied by a sum of two weights, and distributing
  needs all three numbers finite.

  accK_eq_sum: adding, patch after patch, first one half and then the other into a running accumulator that starts from
  zero is zero plus the sum over the patches of the four corners in the order of the reference; only associativity and
  commutativity of addition are used.
-/
import proofs.«427269_j59785944760704_3_alg».proof.Proof.Spec
import Mathlib.Data.EReal.Operations
import Mathlib.Algebra.BigOperators.Fin

noncomputable section

namespace Cert.P2E

/-- A 32-bit word made from a number below 2^32 is a given word exactly when the number is that word's value. -/
theorem ofNat_eq_iff {n : ℕ} (hn : n < 2 ^ 32) (b : BitVec 32) : BitVec.ofNat 32 n = b ↔ n = b.toNat := by
  constructor
  · intro h
    rw [← h, BitVec.toNat_ofNat, Nat.mod_eq_of_lt hn]
  · intro h
    apply BitVec.eq_of_toNat_eq
    rw [BitVec.toNat_ofNat, Nat.mod_eq_of_lt hn, h]

/-- The one-hot product over the 224 rows picks the row of the word: every other row is multiplied by zero, and zero times
    any extended real is zero. -/
theorem rowPick (val : Fin 224 → Fin 256 → EReal) (yv : BitVec 32) (hy : yv.toNat < 224) (w : Fin 256) :
    (∑ h : Fin 224, (if BitVec.ofNat 32 h.val = yv then (1 : EReal) else 0) * val h w) = val ⟨yv.toNat, hy⟩ w := by
  rw [Finset.sum_eq_single (⟨yv.toNat, hy⟩ : Fin 224)]
  · rw [if_pos ((ofNat_eq_iff (by omega) yv).2 rfl), one_mul]
  · intro h _ hne
    rw [if_neg, zero_mul]
    intro heq
    apply hne
    apply Fin.ext
    exact (ofNat_eq_iff (by have := h.isLt; omega) yv).1 heq
  · intro hn
    exact absurd (Finset.mem_univ _) hn

/-- A sum over the lanes of a term present on one lane only is that lane's term. -/
theorem lanePick (f : Fin 256 → EReal) (x : BitVec 32) (hx : x.toNat < 256) :
    (∑ w : Fin 256, (if w.val = x.toNat then f w else 0)) = f ⟨x.toNat, hx⟩ := by
  rw [Finset.sum_eq_single (⟨x.toNat, hx⟩ : Fin 256)]
  · rw [if_pos rfl]
  · intro w _ hne
    rw [if_neg]
    intro heq
    exact hne (Fin.ext heq)
  · intro hn
    exact absurd (Finset.mem_univ _) hn

/-- the one-hot pick of row yv and the two-lane selector leave the two selected values times their weights -/
theorem partSum_eq (val : Fin 224 → Fin 256 → EReal) (yv xa xb : BitVec 32) (wa wc : EReal)
    (hy : yv.toNat < 224) (ha : xa.toNat < 224) (hb : xb.toNat < 224)
    (hv : ∀ h w, ∃ r : ℝ, val h w = (r : EReal)) (hwa : ∃ r : ℝ, wa = (r : EReal)) (hwc : ∃ r : ℝ, wc = (r : EReal)) :
    partSum val yv xa xb wa wc
      = val ⟨yv.toNat, hy⟩ ⟨xa.toNat, by omega⟩ * wa + val ⟨yv.toNat, hy⟩ ⟨xb.toNat, by omega⟩ * wc := by
  obtain ⟨ra, rfl⟩ := hwa
  obtain ⟨rc, rfl⟩ := hwc
  unfold partSum
  -- lane by lane: the product with the two-term selector is the sum of the two singly selected products
  have hsummand : ∀ w : Fin 256,
      (∑ h : Fin 224, (if BitVec.ofNat 32 h.val = yv then (1 : EReal) else 0) * val h w)
        * ((if BitVec.ofNat 32 w.val = xa then (ra : EReal) else 0) + (if BitVec.ofNat 32 w.val = xb then (rc : EReal) else 0))
      = (if w.val = xa.toNat then val ⟨yv.toNat, hy⟩ w * (ra : EReal) else 0)
        + (if w.val = xb.toNat then val ⟨yv.toNat, hy⟩ w * (rc : EReal) else 0) := by
    intro w
    rw [rowPick val yv hy w]
    obtain ⟨r, hr⟩ := hv ⟨yv.toNat, hy⟩ w
    rw [hr]
    have hwlt : w.val < 2 ^ 32 := by have := w.isLt; omega
    by_cases h1 : w.val = xa.toNat <;> by_cases h2 : w.val = xb.toNat
    · -- both selectors fire: distributivity, valid because the three numbers are real
      rw [if_pos ((ofNat_eq_iff hwlt xa).2 h1), if_pos ((ofNat_eq_iff hwlt xb).2 h2), if_pos h1, if_pos h2]
      rw [← EReal.coe_add, ← EReal.coe_mul, ← EReal.coe_mul, ← EReal.coe_mul, ← EReal.coe_add, mul_add]
    · rw [if_pos ((ofNat_eq_iff hwlt xa).2 h1), if_neg (fun h => h2 ((ofNat_eq_iff hwlt xb).1 h)), if_pos h1, if_neg h2,
        add_zero, add_zero]
    · rw [if_neg (fun h => h1 ((ofNat_eq_iff hwlt xa).1 h)), if_pos ((ofNat_eq_iff hwlt xb).2 h2), if_neg h1, if_pos h2,
        zero_add, zero_add]
    · rw [if_neg (fun h => h1 ((ofNat_eq_iff hwlt xa).1 h)), if_neg (fun h => h2 ((ofNat_eq_iff hwlt xb).1 h)), if_neg h1,
        if_neg h2, add_zero, mul_zero]
  rw [Finset.sum_congr rfl (fun w _ => hsummand w), Finset.sum_add_distrib]
  rw [lanePick (fun w => val ⟨yv.toNat, hy⟩ w * (ra : EReal)) xa (by omega),
    lanePick (fun w => val ⟨yv.toNat, hy⟩ w * (rc : EReal)) xb (by omega)]

/-- After patch k the accumulator holds zero plus the sum over the patches up to k of the four corners. -/
theorem accK_eq_range (a b c d : ℕ → EReal) (k : ℕ) :
    accK (fun p => a p + c p) (fun p => b p + d p) k
      = 0 + ∑ p ∈ Finset.range (k + 1), (((a p + b p) + c p) + d p) := by
  induction k with
  | zero =>
    rw [accK, Finset.sum_range_one]
    simp only [add_assoc, add_left_comm (c 0) (b 0)]
  | succ k ih =>
    rw [accK, ih, Finset.sum_range_succ _ (k + 1)]
    simp only [add_assoc, add_left_comm (c (k + 1)) (b (k + 1))]

/-- the kernel's patch-by-patch accumulation is zero plus the sum over the 18 patches of the four corners in the reference's order -/
theorem accK_eq_sum (a b c d : ℕ → EReal) :
    accK (fun p => a p + c p) (fun p => b p + d p) 17 = 0 + ∑ p : Fin 18, (((a p.val + b p.val) + c p.val) + d p.val) := by
  rw [accK_eq_range a b c d 17, Fin.sum_univ_eq_sum_range (fun p => ((a p + b p) + c p) + d p) 18]

end Cert.P2E

end
-- ==== Proof.KInduct.lean ====
import proofs.«427269_j59785944760704_3_alg».proof.Proof.KBlocks
import proofs.«427269_j59785944760704_3_alg».proof.Proof.KPieces
import proofs.«427269_j59785944760704_3_alg».proof.Proof.KPay
import proofs.«427269_j59785944760704_3_alg».proof.Proof.Laws
import proofs.«427269_j59785944760704_3_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-! The accumulator after every grid point, and the output block at a tile's last patch, as explicit sums over the
    arrays the region finds. -/

namespace Cert.P2E
open Cert.KernelIdeal Cert.KernelIdeal.Gen

variable (m : (ℓ : Loc nD τ sig) → Buf (Elt Ideal) ℓ) (c : Dev nD)

/-- Channel ch of patch p of the re-laid image, as (image row, lane) ↦ value. -/
def valK (p : Fin 18) (ch : Fin 32) : Fin 224 → Fin 256 → EReal :=
  fun h w => V m c main_v31 (ix3 p h ⟨ch.val * 256 + w.val, by omega⟩)

/-- Column n of tile `tile` in the padded, flattened tables. -/
def colK (tile : Fin 342) (n : Fin 384) : Fin 131328 := ⟨tile.val * 384 + n.val, by omega⟩

/-- The first half of patch p at (tile, n, ch): the pick of row y0, lanes x0 and x1, weights wa and wc. -/
def fK (tile : Fin 342) (n : Fin 384) (ch : Fin 32) (p : ℕ) : EReal :=
  if hp : p < 18 then
    partSum (valK m c ⟨p, hp⟩ ch) (V m c main_v32 (ix2 ⟨p, hp⟩ (colK tile n))) (V m c main_v33 (ix2 ⟨p, hp⟩ (colK tile n)))
      (V m c main_v35 (ix2 ⟨p, hp⟩ (colK tile n))) (V m c main_v36 (ix2 ⟨p, hp⟩ (colK tile n))) (V m c main_v38 (ix2 ⟨p, hp⟩ (colK tile n)))
  else 0

/-- The second half: row y1, the same lanes, weights wb and wd. -/
def gK (tile : Fin 342) (n : Fin 384) (ch : Fin 32) (p : ℕ) : EReal :=
  if hp : p < 18 then
    partSum (valK m c ⟨p, hp⟩ ch) (V m c main_v34 (ix2 ⟨p, hp⟩ (colK tile n))) (V m c main_v33 (ix2 ⟨p, hp⟩ (colK tile n)))
      (V m c main_v35 (ix2 ⟨p, hp⟩ (colK tile n))) (V m c main_v37 (ix2 ⟨p, hp⟩ (colK tile n))) (V m c main_v39 (ix2 ⟨p, hp⟩ (colK tile n)))
  else 0

/-- One grid point's step at (n, ch): the accumulator found plus the patch's two halves. -/
theorem step_apply (t : Fin cfg0.N) (tile : Fin 342) (hτ : tile.val = t.val / 18) (p : ℕ) (hp : p = t.val % 18)
    (acc : Vec Ideal S384x32 .f32) (n : Fin 384) (ch : Fin 32) :
    step (grid0.coords t) (iblk m c 0 t) (iblk m c 1 t) (iblk m c 2 t) (iblk m c 3 t) (iblk m c 4 t) (iblk m c 5 t)
        (iblk m c 6 t) (iblk m c 7 t) (iblk m c 8 t) acc (ix2 n ch)
      = (acc (ix2 n ch) + fK m c tile n ch p) + gK m c tile n ch p := by
  have hp18 : p < 18 := by omega
  have hpe : (⟨t.val % 18, Nat.mod_lt _ (by decide)⟩ : Fin 18) = ⟨p, hp18⟩ := Fin.ext hp.symm
  have hcol : ∀ hb, (⟨t.val / 18 * 384 + n.val, hb⟩ : Fin 131328) = colK tile n := fun hb => Fin.ext (by show _ = tile.val * 384 + n.val; rw [hτ])
  unfold step
  refine (pay1_pay14_apply _ _ _ _ _ _ _ n ch).trans ?_
  refine congrArg₂ (· + ·) ((pay13_apply _ _ _ _ _ _ _ n ch).trans ?_) ?_
  · refine congrArg (acc (ix2 n ch) + ·) ?_
    unfold fK; rw [dif_pos hp18]
    rw [rowOfBlk_apply, rowOfBlk_apply, rowOfBlk_apply, rowOfBlk_apply, rowOfBlk_apply,
      iblk1_apply, iblk2_apply, iblk4_apply, iblk5_apply, iblk7_apply, hpe, hcol]
    refine congrArg (fun v => partSum v _ _ _ _ _) ?_
    funext h w
    unfold valK
    rw [iblk0_apply, hpe]
  · unfold gK; rw [dif_pos hp18]
    rw [rowOfBlk_apply, rowOfBlk_apply, rowOfBlk_apply, rowOfBlk_apply, rowOfBlk_apply,
      iblk3_apply, iblk2_apply, iblk4_apply, iblk6_apply, iblk8_apply, hpe, hcol]
    refine congrArg (fun v => partSum v _ _ _ _ _) ?_
    funext h w
    unfold valK
    rw [iblk0_apply, hpe]

/-- THE INVARIANT: after grid point t the accumulator holds, at (n, ch), the running sum of tile (t / 18) over the
    patches 0 … t mod 18 — by induction on the point, the first patch of a tile restarting from zero. -/
theorem acc_eq : ∀ (t : ℕ) (ht : t < cfg0.N) (tile : Fin 342) (hτ : tile.val = t / 18) (n : Fin 384) (ch : Fin 32),
    (outsAt0 m c t ht).2 (ix2 n ch) = accK (fK m c tile n ch) (gK m c tile n ch) (t % 18) := by
  intro t
  induction t with
  | zero =>
    intro ht tile hτ n ch
    have h0 : (⟨0, ht⟩ : Fin cfg0.N).val % 18 = 0 := rfl
    have h1 : ¬(⟨0, ht⟩ : Fin cfg0.N).val % 18 = 17 := by show ¬(0 : ℕ) % 18 = 17; decide
    rw [outsAt0_A m c ⟨0, ht⟩ h0 h1]
    dsimp only
    rw [sout_A]
    refine (step_apply m c ⟨0, ht⟩ tile hτ 0 rfl _ n ch).trans ?_
    rw [pay3_apply]
    rfl
  | succ k ih =>
    intro ht tile hτ n ch
    have hN : k + 1 < 6156 := lt_of_lt_of_eq ht N_eq
    by_cases h0 : (k + 1) % 18 = 0
    · have h1 : ¬(k + 1) % 18 = 17 := by omega
      rw [outsAt0_A m c ⟨k + 1, ht⟩ h0 h1]
      dsimp only
      rw [sout_A]
      refine (step_apply m c ⟨k + 1, ht⟩ tile hτ 0 h0.symm _ n ch).trans ?_
      rw [pay3_apply, h0]
      rfl
    · have hq : (k + 1) % 18 = k % 18 + 1 := by omega
      have hτ' : tile.val = k / 18 := by omega
      have hprev : ∀ (j : ℕ) (hj : j < cfg0.N), j = k →
          (outsAt0 m c j hj).2 (ix2 n ch) = accK (fK m c tile n ch) (gK m c tile n ch) (k % 18) := by
        intro j hj e; subst e; exact ih hj tile hτ' n ch
      by_cases h1 : (k + 1) % 18 = 17
      · rw [outsAt0_C m c ⟨k + 1, ht⟩ h0 h1]
        dsimp only
        rw [sout_C]
        refine (step_apply m c ⟨k + 1, ht⟩ tile hτ (k % 18 + 1) hq.symm _ n ch).trans ?_
        rw [hprev _ _ (Nat.add_sub_cancel k 1), hq]
        rfl
      · rw [outsAt0_B m c ⟨k + 1, ht⟩ h0 h1]
        dsimp only
        rw [sout_B]
        refine (step_apply m c ⟨k + 1, ht⟩ tile hτ (k % 18 + 1) hq.symm _ n ch).trans ?_
        rw [hprev _ _ (Nat.add_sub_cancel k 1), hq]
        rfl

/-- At the last patch of a tile the output block is the accumulator transposed: entry (ch, n) is the tile's full sum. -/
theorem out_eq (t : Fin cfg0.N) (h17 : t.val % 18 = 17) (tile : Fin 342) (hτ : tile.val = t.val / 18) (ch : Fin 32) (n : Fin 384) :
    (outsAt0 m c t.val t.isLt).1 (ix2 ch n) = accK (fK m c tile n ch) (gK m c tile n ch) 17 := by
  have h0 : ¬t.val % 18 = 0 := by omega
  have e2 := acc_eq m c t.val t.isLt tile hτ n ch
  rw [outsAt0_C m c t h0 h17] at e2 ⊢
  dsimp only at e2 ⊢
  rw [out_C, pay2_apply]
  rw [sout_C] at e2
  rw [e2, h17]

end Cert.P2E
end
-- ==== Proof.KFinal.lean ====
import proofs.«427269_j59785944760704_3_alg».proof.Proof.KInduct
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-! The pallas_call's result array after the run: entry (ch, j) is the full patch sum of tile (j / 384) at column (j mod 384).
    Only a tile's last patch writes its block back, and those 342 blocks tile the array. -/

namespace Cert.P2E
open Cert.KernelIdeal Cert.KernelIdeal.Gen

variable (m : (ℓ : Loc nD τ sig) → Buf (Elt Ideal) ℓ) (c : Dev nD)

/-- The result array of the pallas_call. -/
def out40 : S32x131328.Idx → EReal := fun i =>
  accK (fK m c ⟨(i 1).val / 384, by have := idx2_lt1 i; omega⟩ ⟨(i 1).val % 384, Nat.mod_lt _ (by decide)⟩ ⟨(i 0).val, idx2_lt0 i⟩)
    (gK m c ⟨(i 1).val / 384, by have := idx2_lt1 i; omega⟩ ⟨(i 1).val % 384, Nat.mod_lt _ (by decide)⟩ ⟨(i 0).val, idx2_lt0 i⟩) 17

/-- The output window's block at point t of ANY array contents, at (ch, n): the array at (ch, tile · 384 + n). -/
theorem blk9_read (A : Buf (Elt Ideal) ((c : Thread nD τ).loc main_v40)) (t : Fin cfg0.N) (ch : Fin 32) (n : Fin 384) :
    (((cfg0.win 9).blk t).view.read (Elt Ideal) A : Vec Ideal S32x384 .f32) (ix2 ch n)
      = A (ix2 ch ⟨t.val / 18 * 384 + n.val, by have := tile_lt t; omega⟩) := by
  rw [View.read_apply]
  show A (((cfg0.win 9).blk t).view.emb (ix2 ch n)) = A _
  refine congrArg A ?_
  funext a
  apply Fin.ext
  match a with
  | ⟨0, _⟩ => show win0_9.index t 0 * 32 + 1 * ch.val = ch.val; rw [(idx9 t).1]; omega
  | ⟨1, _⟩ => show win0_9.index t 1 * 384 + 1 * n.val = t.val / 18 * 384 + n.val; rw [(idx9 t).2]; omega

/-- What a tile's last patch writes back is that tile's block of the result array. -/
theorem flushed9_eq (t : Fin cfg0.N) (hf : (cfg0.win 9).flush t = true) :
    (dats m 0 c).flushed 9 t = ((cfg0.win 9).blk t).view.read (Elt Ideal) (out40 m c) := by
  have h17 : t.val % 18 = 17 := (flush0_9 t).mp hf
  show (cfg0.win 9).cut (grid0.coords t) ((dats m 0 c).after 9 t) = _
  rw [after0_9]
  funext y
  obtain ⟨ch, n, rfl⟩ : ∃ (ch : Fin 32) (n : Fin 384), y = ix2 ch n := ⟨y 0, y 1, eq_ix2 y⟩
  refine Eq.trans ?_ (blk9_read c (out40 m c) t ch n).symm
  show (outsAt0 m c t.val t.isLt).1 (ix2 ch n) = _
  rw [out_eq m c t h17 ⟨t.val / 18, tile_lt t⟩ rfl ch n]
  unfold out40
  have e1 : (t.val / 18 * 384 + n.val) / 384 = t.val / 18 := by have := n.isLt; omega
  have e2 : (t.val / 18 * 384 + n.val) % 384 = n.val := by have := n.isLt; omega
  have hA : (⟨(t.val / 18 * 384 + n.val) / 384, by have := tile_lt t; have := n.isLt; omega⟩ : Fin 342) = ⟨t.val / 18, tile_lt t⟩ := Fin.ext e1
  have hB : (⟨(t.val / 18 * 384 + n.val) % 384, Nat.mod_lt _ (by decide)⟩ : Fin 384) = n := Fin.ext e2
  show _ = accK (fK m c ⟨(t.val / 18 * 384 + n.val) / 384, _⟩ ⟨(t.val / 18 * 384 + n.val) % 384, _⟩ ⟨ch.val, _⟩) (gK m c ⟨(t.val / 18 * 384 + n.val) / 384, _⟩ ⟨(t.val / 18 * 384 + n.val) % 384, _⟩ ⟨ch.val, _⟩) 17
  rw [hA, hB]

/-- An index of the result array is in point t's block iff each coordinate is in the block's range on its axis. -/
theorem mem_blk9 (t : Fin cfg0.N) (i : S32x131328.Idx) :
    i ∈ ((cfg0.win 9).blk t).view.set ↔ ∀ a : Fin 2, win0_9.index t a * S32x384.size a ≤ (i a).val ∧ (i a).val < win0_9.index t a * S32x384.size a + S32x384.size a := by
  show i ∈ ((View.whole main_v40).slice (win0_9.rect t)).set ↔ _
  rw [View.set_slice_whole, Rect.mem_set_unit]
  exact Iff.rfl

/-- THE RESULT ARRAY after the run. -/
theorem final40 : (dats m 0 c).arrAt 9 cfg0.N = out40 m c :=
  (dats m 0 c).arrAt_eq_of_cover 9 (out40 m c) (flushed9_eq m c) fun i => by
    have hi0 : (i 0).val < 32 := idx2_lt0 i
    have hi1 : (i 1).val < 131328 := idx2_lt1 i
    have hN := N_eq
    let t : Fin cfg0.N := ⟨(i 1).val / 384 * 18 + 17, by omega⟩
    have ht17 : t.val % 18 = 17 := by show ((i 1).val / 384 * 18 + 17) % 18 = 17; omega
    have htd : t.val / 18 = (i 1).val / 384 := by show ((i 1).val / 384 * 18 + 17) / 18 = _; omega
    refine ⟨t, (flush0_9 t).mpr ht17, ?_⟩
    rw [mem_blk9]
    intro a
    match a with
    | ⟨0, _⟩ => show win0_9.index t 0 * 32 ≤ (i 0).val ∧ (i 0).val < win0_9.index t 0 * 32 + 32; rw [(idx9 t).1]; omega
    | ⟨1, _⟩ => show win0_9.index t 1 * 384 ≤ (i 1).val ∧ (i 1).val < win0_9.index t 1 * 384 + 384; rw [(idx9 t).2, htd]; omega

end Cert.P2E
end
-- ==== Proof.KArrays.lean ====
/-
  The nine arrays the kernel program builds before its grid starts, each read at an index as a function of the launch
  arguments, at the exact (extended real) instance.

  * The image [1, 32, 224, 224, 18] (batch, channel, row, column, patch) is laid out as [18, 224, 8192]: patch, row, and
    a lane axis of 8192 = 32 · 256 in which lane q is channel q / 256 at column q % 256; the columns 224 … 255 of every
    channel hold zero.
  * Each of the four index tables [18, 256, 512] is laid out as [18, 131328]: column j < 131072 = 256 · 512 is entry
    (j / 512, j % 512) of the table, and the last 256 columns hold the zero word.
  * The weight array W [18, 256, 512, 4] (thresholded, normalized by the bounded absolute row sum, masked: the same
    fourteen operations as in the reference program, so it is the reference's array) is split along its last axis into four
    arrays [18, 131328] laid out like the index tables, the last 256 columns holding zero.

  Every one of these is a chain of layout operations — flattening or splitting axes (row-major), a permutation of
  axes, a cut of one column, a padding at the high end of the last axis — and a layout operation read at an index is its
  operand read at one index; the change to the shorter float format is the identity on extended reals, and the integer
  zero converted to a float is zero.
-/
import proofs.«427269_j59785944760704_3_alg».proof.Proof.Gen.KernelIdeal.Frame.Runs
import proofs.«427269_j59785944760704_3_alg».proof.Proof.Gen.ReferenceIdeal.Read
import Idealize.ShloMosaic.Lib.ValueIdx
import Idealize.ShloMosaic.Lib.Pipeline.Value
import Idealize.ShloMosaic.Lib.KernelVsHost
import Idealize.ShloMosaic.Lib.StableHlo.Run
import Idealize.ShloMosaic.PureOps.Ideal.Laws

noncomputable section

namespace Cert.P2E

open Idealize.ShloMosaic Idealize.ShloMosaic.TcCoe Idealize.ShloMosaic.StableHlo Idealize.ShloMosaic.ValueIdx
open Idealize.SL.Sem
open Cert.KernelIdeal Cert.KernelIdeal.Gen

/-- The integer zero word converted to a float is the extended real zero. -/
theorem sitofp_zero_scalar (φ : FTy) : (sitofp (F := Ideal) φ (constantI S_ 32 0#32) : S_.Idx → EReal) ix0 = 0 := by
  show (((0#32 : BitVec 32).toInt : ℝ) : EReal) = 0
  rw [BitVec.toInt_zero, Int.cast_zero, EReal.coe_zero]

/-- Two case distinctions on one condition with the same first branch agree when their second branches do. -/
theorem dite_else_congr {α : Type} {P : Prop} [Decidable P] (f : P → α) {a b : α} (h : a = b) :
    (if hp : P then f hp else a) = (if hp : P then f hp else b) := by rw [h]

/-! ## The three layout chains, read at an index, over an arbitrary source array -/

/-- The scalar shape's indices are all its one index. -/
theorem scalar_first {α : Type} (z : S_.Idx → α) (h3 : 0 < S_.numel) : z (Shape.Idx.first h3) = z ix0 :=
  congrArg z (eq_ix0 _)

/-- An array [18, 256, 512] flattened to [18, 131072] (row-major: column j is row j / 512, column j % 512 of the source)
    and padded with 256 further columns holding the scalar z: inside the first 131072 columns the source, z after. -/
theorem flatPad_at {α : Type} (X : S18x256x512.Idx → α) (z : S_.Idx → α)
    (h1 : S18x256x512.ShapeCasts S18x131072)
    (h2 : S18x131072.Pads (![0, 0] : Fin 2 → Nat) ![0, 256] ![0, 0] S18x131328) (h3 : 0 < S_.numel)
    (p : Fin 18) (j : Fin 131328) :
    pad S18x131328 ![0, 0] ![0, 256] ![0, 0] (shapeCast S18x131072 X h1) z h2 h3 (ix2 p j)
      = if hj : j.val < 131072 then
          X (ix3 p ⟨j.val / 512, by omega⟩ ⟨j.val % 512, Nat.mod_lt _ (by norm_num)⟩)
        else z ix0 := by
  by_cases hj : j.val < 131072
  · rw [dif_pos hj]
    refine (pad_apply_of_inside _ _ _ _ z h2 h3 (ix2 p j) (ix2 p (⟨j.val, hj⟩ : Fin 131072)) (fun a => match a with
      | ⟨0, _⟩ => by show p.val = 0 + p.val * (0 + 1); omega
      | ⟨1, _⟩ => by show j.val = 0 + j.val * (0 + 1); omega)).trans ?_
    exact shapeCast_apply X h1 _ _ (by
      rw [Shape.rowMajor_val_three, Shape.rowMajor_val_two]
      show (p.val * 256 + j.val / 512) * 512 + j.val % 512 = p.val * 131072 + j.val
      omega)
  · rw [dif_neg hj]
    refine (pad_apply_of_not_inside _ _ _ _ z h2 h3 (ix2 p j) (1 : Fin 2) (fun hin => hj ?_)).trans (scalar_first z h3)
    have h := hin.2.2
    have h' : (j.val - 0) / (0 + 1) < 131072 := h
    omega

/-- An array [18, 256, 512, 4] flattened to [18, 131072, 4], its column k of the last axis cut out, flattened to
    [18, 131072] and padded with 256 further columns holding the scalar z: inside the first 131072 columns the source at
    (p, j / 512, j % 512, k), z after. -/
theorem flatSlicePad_at {α : Type} (X : S18x256x512x4.Idx → α) (z : S_.Idx → α) (k : Fin 4)
    (h0 : S18x256x512x4.ShapeCasts S18x131072x4)
    (hs : S18x131072x4.Slices ![0, 0, k.val] S18x131072x1)
    (h1 : S18x131072x1.ShapeCasts S18x131072)
    (h2 : S18x131072.Pads (![0, 0] : Fin 2 → Nat) ![0, 256] ![0, 0] S18x131328) (h3 : 0 < S_.numel)
    (p : Fin 18) (j : Fin 131328) :
    pad S18x131328 ![0, 0] ![0, 256] ![0, 0]
        (shapeCast S18x131072 (extractStridedSlice S18x131072x1 ![0, 0, k.val] (shapeCast S18x131072x4 X h0) hs) h1)
        z h2 h3 (ix2 p j)
      = if hj : j.val < 131072 then
          X (ix4 p ⟨j.val / 512, by omega⟩ ⟨j.val % 512, Nat.mod_lt _ (by norm_num)⟩ k)
        else z ix0 := by
  by_cases hj : j.val < 131072
  · rw [dif_pos hj]
    have hk : k.val < 4 := k.isLt
    refine (pad_apply_of_inside _ _ _ _ z h2 h3 (ix2 p j) (ix2 p (⟨j.val, hj⟩ : Fin 131072)) (fun a => match a with
      | ⟨0, _⟩ => by show p.val = 0 + p.val * (0 + 1); omega
      | ⟨1, _⟩ => by show j.val = 0 + j.val * (0 + 1); omega)).trans ?_
    refine (shapeCast_apply _ h1 _ (ix3 p (⟨j.val, hj⟩ : Fin 131072) (0 : Fin 1)) (by
      rw [Shape.rowMajor_val_three, Shape.rowMajor_val_two]
      show (p.val * 131072 + j.val) * 1 + 0 = p.val * 131072 + j.val
      omega)).trans ?_
    refine (extractStridedSlice_apply _ _ hs _ (ix3 p (⟨j.val, hj⟩ : Fin 131072) k) (fun a => match a with
      | ⟨0, _⟩ => by show p.val = 0 + p.val; omega
      | ⟨1, _⟩ => by show j.val = 0 + j.val; omega
      | ⟨2, _⟩ => by show k.val = k.val + 0; omega)).trans ?_
    exact shapeCast_apply X h0 _ _ (by
      rw [Shape.rowMajor_val_four, Shape.rowMajor_val_three]
      show ((p.val * 256 + j.val / 512) * 512 + j.val % 512) * 4 + k.val = (p.val * 131072 + j.val) * 4 + k.val
      omega)
  · rw [dif_neg hj]
    refine (pad_apply_of_not_inside _ _ _ _ z h2 h3 (ix2 p j) (1 : Fin 2) (fun hin => hj ?_)).trans (scalar_first z h3)
    have h := hin.2.2
    have h' : (j.val - 0) / (0 + 1) < 131072 := h
    omega

/-- The image [1, 32, 224, 224, 18] (batch, channel, row, column, patch) with the batch axis dropped, narrowed to the
    shorter float format (no change to an extended real), its axes permuted to (patch, row, channel, column), the column
    axis padded from 224 to 256 with the scalar z, and channel and column flattened into one axis of 8192 = 32 · 256:
    lane q of row h of patch p is channel q / 256 at column q % 256 when that is a column of the image, z otherwise. -/
theorem imgLayout_at (X : S1x32x224x224x18.Idx → EReal) (z : S_.Idx → EReal)
    (h0 : S1x32x224x224x18.ShapeCasts S32x224x224x18) (hb : FTy.bits .bf16 < FTy.bits .f32)
    (ht : S32x224x224x18.Transposes [3, 1, 0, 2] S18x224x32x224)
    (hp : S18x224x32x224.Pads (![0, 0, 0, 0] : Fin 4 → Nat) ![0, 0, 0, 32] ![0, 0, 0, 0] S18x224x32x256)
    (h3 : 0 < S_.numel) (hc : S18x224x32x256.ShapeCasts S18x224x8192)
    (p : Fin 18) (h : Fin 224) (q : Fin 8192) :
    shapeCast S18x224x8192
        (pad S18x224x32x256 ![0, 0, 0, 0] ![0, 0, 0, 32] ![0, 0, 0, 0]
          (transpose S18x224x32x224 [3, 1, 0, 2]
            (truncf (F := Ideal) .bf16 (shapeCast S32x224x224x18 X h0 : FVec Ideal S32x224x224x18 .f32) hb) ht)
          z hp h3) hc (ix3 p h q)
      = if hq : q.val % 256 < 224 then X (ix5 (0 : Fin 1) (⟨q.val / 256, by omega⟩ : Fin 32) h ⟨q.val % 256, hq⟩ p)
        else z ix0 := by
  have hq32 : q.val / 256 < 32 := by omega
  have hq256 : q.val % 256 < 256 := Nat.mod_lt _ (by norm_num)
  refine (shapeCast_apply _ hc _ (ix4 p h (⟨q.val / 256, hq32⟩ : Fin 32) (⟨q.val % 256, hq256⟩ : Fin 256)) (by
    rw [Shape.rowMajor_val_four, Shape.rowMajor_val_three]
    show ((p.val * 224 + h.val) * 32 + q.val / 256) * 256 + q.val % 256 = (p.val * 224 + h.val) * 8192 + q.val
    omega)).trans ?_
  by_cases hq : q.val % 256 < 224
  · rw [dif_pos hq]
    refine (pad_apply_of_inside _ _ _ _ z hp h3 _ (ix4 p h (⟨q.val / 256, hq32⟩ : Fin 32) (⟨q.val % 256, hq⟩ : Fin 224))
      (fun a => match a with
        | ⟨0, _⟩ => by show p.val = 0 + p.val * (0 + 1); omega
        | ⟨1, _⟩ => by show h.val = 0 + h.val * (0 + 1); omega
        | ⟨2, _⟩ => by show q.val / 256 = 0 + q.val / 256 * (0 + 1); omega
        | ⟨3, _⟩ => by show q.val % 256 = 0 + q.val % 256 * (0 + 1); omega)).trans ?_
    refine (transpose_apply _ _ ht _ (ix4 (⟨q.val / 256, hq32⟩ : Fin 32) h (⟨q.val % 256, hq⟩ : Fin 224) p)
      (fun b => match b with | ⟨0, _⟩ => rfl | ⟨1, _⟩ => rfl | ⟨2, _⟩ => rfl | ⟨3, _⟩ => rfl)).trans ?_
    refine (truncf_apply _ hb _).trans ?_
    exact shapeCast_apply X h0 _ _ (by
      rw [Shape.rowMajor_val_five, Shape.rowMajor_val_four]
      show (((0 * 32 + q.val / 256) * 224 + h.val) * 224 + q.val % 256) * 18 + p.val
        = ((q.val / 256 * 224 + h.val) * 224 + q.val % 256) * 18 + p.val
      omega)
  · rw [dif_neg hq]
    refine (pad_apply_of_not_inside _ _ _ _ z hp h3 _ (3 : Fin 4) (fun hin => hq ?_)).trans (scalar_first z h3)
    have h := hin.2.2
    have h' : (q.val % 256 - 0) / (0 + 1) < 224 := h
    omega

/-! ## The module-local pad functions' operations, over the buffers themselves

Each inlined call is two operations: the padding scalar converted (or copied), and the pad.  Read over the buffers'
own types, without the transport of contents along the (reflexive) type equations of the typed references. -/

theorem hostOps0_1_eq : (hostOps0_1 : List (HloOp τ sig (Elt Ideal))) =
    [ StableHlo.unary main_c main_call0_v0 ((fun x => sitofp (F := Ideal) .bf16 x) : (⟨S_, .i32⟩ : BufTy).Contents (Elt Ideal) → (⟨S_, .bf16⟩ : BufTy).Contents (Elt Ideal)),
      StableHlo.binary main_v29 main_call0_v0 main_v30 ((fun x v => pad S18x224x32x256 ![0, 0, 0, 0] ![0, 0, 0, 32] ![0, 0, 0, 0] x v Facts₀.pads_S18x224x32x224_S18x224x32x256_000_000_000_0320 Facts₀.h_S_) : (⟨S18x224x32x224, .bf16⟩ : BufTy).Contents (Elt Ideal) → (⟨S_, .bf16⟩ : BufTy).Contents (Elt Ideal) → (⟨S18x224x32x256, .bf16⟩ : BufTy).Contents (Elt Ideal)) ] := rfl

theorem hostOps0_3_eq : (hostOps0_3 : List (HloOp τ sig (Elt Ideal))) =
    [ StableHlo.unary main_c_2 main_call1_v0 (id : (⟨S_, .i32⟩ : BufTy).Contents (Elt Ideal) → (⟨S_, .i32⟩ : BufTy).Contents (Elt Ideal)),
      StableHlo.binary main_v23 main_call1_v0 main_v32 ((fun x v => pad S18x131328 ![0, 0] ![0, 256] ![0, 0] x v Facts₀.pads_S18x131072_S18x131328_000_02560 Facts₀.h_S_) : (⟨S18x131072, .i32⟩ : BufTy).Contents (Elt Ideal) → (⟨S_, .i32⟩ : BufTy).Contents (Elt Ideal) → (⟨S18x131328, .i32⟩ : BufTy).Contents (Elt Ideal)) ] := rfl

theorem hostOps0_5_eq : (hostOps0_5 : List (HloOp τ sig (Elt Ideal))) =
    [ StableHlo.unary main_c_3 main_call2_v0 (id : (⟨S_, .i32⟩ : BufTy).Contents (Elt Ideal) → (⟨S_, .i32⟩ : BufTy).Contents (Elt Ideal)),
      StableHlo.binary main_v24 main_call2_v0 main_v33 ((fun x v => pad S18x131328 ![0, 0] ![0, 256] ![0, 0] x v Facts₀.pads_S18x131072_S18x131328_000_02560 Facts₀.h_S_) : (⟨S18x131072, .i32⟩ : BufTy).Contents (Elt Ideal) → (⟨S_, .i32⟩ : BufTy).Contents (Elt Ideal) → (⟨S18x131328, .i32⟩ : BufTy).Contents (Elt Ideal)) ] := rfl

theorem hostOps0_7_eq : (hostOps0_7 : List (HloOp τ sig (Elt Ideal))) =
    [ StableHlo.unary main_c_4 main_call3_v0 (id : (⟨S_, .i32⟩ : BufTy).Contents (Elt Ideal) → (⟨S_, .i32⟩ : BufTy).Contents (Elt Ideal)),
      StableHlo.binary main_v25 main_call3_v0 main_v34 ((fun x v => pad S18x131328 ![0, 0] ![0, 256] ![0, 0] x v Facts₀.pads_S18x131072_S18x131328_000_02560 Facts₀.h_S_) : (⟨S18x131072, .i32⟩ : BufTy).Contents (Elt Ideal) → (⟨S_, .i32⟩ : BufTy).Contents (Elt Ideal) → (⟨S18x131328, .i32⟩ : BufTy).Contents (Elt Ideal)) ] := rfl

theorem hostOps0_9_eq : (hostOps0_9 : List (HloOp τ sig (Elt Ideal))) =
    [ StableHlo.unary main_c_5 main_call4_v0 (id : (⟨S_, .i32⟩ : BufTy).Contents (Elt Ideal) → (⟨S_, .i32⟩ : BufTy).Contents (Elt Ideal)),
      StableHlo.binary main_v26 main_call4_v0 main_v35 ((fun x v => pad S18x131328 ![0, 0] ![0, 256] ![0, 0] x v Facts₀.pads_S18x131072_S18x131328_000_02560 Facts₀.h_S_) : (⟨S18x131072, .i32⟩ : BufTy).Contents (Elt Ideal) → (⟨S_, .i32⟩ : BufTy).Contents (Elt Ideal) → (⟨S18x131328, .i32⟩ : BufTy).Contents (Elt Ideal)) ] := rfl

theorem hostOps0_11_eq : (hostOps0_11 : List (HloOp τ sig (Elt Ideal))) =
    [ StableHlo.unary main_c_6 main_call5_v0 ((fun x => sitofp (F := Ideal) .f32 x) : (⟨S_, .i32⟩ : BufTy).Contents (Elt Ideal) → (⟨S_, .f32⟩ : BufTy).Contents (Elt Ideal)),
      StableHlo.binary main_v16 main_call5_v0 main_v36 ((fun x v => pad S18x131328 ![0, 0] ![0, 256] ![0, 0] x v Facts₀.pads_S18x131072_S18x131328_000_02560 Facts₀.h_S_) : (⟨S18x131072, .f32⟩ : BufTy).Contents (Elt Ideal) → (⟨S_, .f32⟩ : BufTy).Contents (Elt Ideal) → (⟨S18x131328, .f32⟩ : BufTy).Contents (Elt Ideal)) ] := rfl

theorem hostOps0_13_eq : (hostOps0_13 : List (HloOp τ sig (Elt Ideal))) =
    [ StableHlo.unary main_c_7 main_call6_v0 ((fun x => sitofp (F := Ideal) .f32 x) : (⟨S_, .i32⟩ : BufTy).Contents (Elt Ideal) → (⟨S_, .f32⟩ : BufTy).Contents (Elt Ideal)),
      StableHlo.binary main_v18 main_call6_v0 main_v37 ((fun x v => pad S18x131328 ![0, 0] ![0, 256] ![0, 0] x v Facts₀.pads_S18x131072_S18x131328_000_02560 Facts₀.h_S_) : (⟨S18x131072, .f32⟩ : BufTy).Contents (Elt Ideal) → (⟨S_, .f32⟩ : BufTy).Contents (Elt Ideal) → (⟨S18x131328, .f32⟩ : BufTy).Contents (Elt Ideal)) ] := rfl

theorem hostOps0_15_eq : (hostOps0_15 : List (HloOp τ sig (Elt Ideal))) =
    [ StableHlo.unary main_c_8 main_call7_v0 ((fun x => sitofp (F := Ideal) .f32 x) : (⟨S_, .i32⟩ : BufTy).Contents (Elt Ideal) → (⟨S_, .f32⟩ : BufTy).Contents (Elt Ideal)),
      StableHlo.binary main_v20 main_call7_v0 main_v38 ((fun x v => pad S18x131328 ![0, 0] ![0, 256] ![0, 0] x v Facts₀.pads_S18x131072_S18x131328_000_02560 Facts₀.h_S_) : (⟨S18x131072, .f32⟩ : BufTy).Contents (Elt Ideal) → (⟨S_, .f32⟩ : BufTy).Contents (Elt Ideal) → (⟨S18x131328, .f32⟩ : BufTy).Contents (Elt Ideal)) ] := rfl

theorem hostOps0_17_eq : (hostOps0_17 : List (HloOp τ sig (Elt Ideal))) =
    [ StableHlo.unary main_c_9 main_call8_v0 ((fun x => sitofp (F := Ideal) .f32 x) : (⟨S_, .i32⟩ : BufTy).Contents (Elt Ideal) → (⟨S_, .f32⟩ : BufTy).Contents (Elt Ideal)),
      StableHlo.binary main_v22 main_call8_v0 main_v39 ((fun x v => pad S18x131328 ![0, 0] ![0, 256] ![0, 0] x v Facts₀.pads_S18x131072_S18x131328_000_02560 Facts₀.h_S_) : (⟨S18x131072, .f32⟩ : BufTy).Contents (Elt Ideal) → (⟨S_, .f32⟩ : BufTy).Contents (Elt Ideal) → (⟨S18x131328, .f32⟩ : BufTy).Contents (Elt Ideal)) ] := rfl

/-- The kernel program's own text of the weight chain (threshold, absolute row sums over patches and corners, bounded
    denominator, quotient, mask) is operation for operation the reference program's, so the two name one array. -/
theorem wChain_eq (x1 : S18x256x512x4.Idx → EReal) (x2 : S18x256x512.Idx → EReal) :
    (mulf (F := Ideal)
      (Host.divf
        (mulf (x1 : FVec Ideal S18x256x512x4 .f32)
          (uitofp .f32 (cmpf .ogt (x1 : FVec Ideal S18x256x512x4 .f32)
            (broadcastInDim S18x256x512x4 ![] Facts₀.bcast_S_S18x256x512x4 (constant (F := Ideal) S_ .f32 0x3727C5AC#32)))))
        (broadcastInDim S18x256x512x4 ![0, 1, 2, 3] Facts₀.bcast_S1x256x512x1_S18x256x512x4_0_1_2_3
          (maximumf
            (broadcastInDim S1x256x512x1 ![1, 2] Facts₀.bcast_S256x512_S1x256x512x1_1_2
              (Host.reduceAdd
                (Host.absf
                  (mulf (x1 : FVec Ideal S18x256x512x4 .f32)
                    (uitofp .f32 (cmpf .ogt (x1 : FVec Ideal S18x256x512x4 .f32)
                      (broadcastInDim S18x256x512x4 ![] Facts₀.bcast_S_S18x256x512x4 (constant (F := Ideal) S_ .f32 0x3727C5AC#32))))))
                (constant (F := Ideal) S_ .f32 0x00000000#32) Facts₀.reducesTo_S18x256x512x4_S256x512_d0_3 Facts₀.h_S_))
            (broadcastInDim S1x256x512x1 ![] Facts₀.bcast_S_S1x256x512x1 (constant (F := Ideal) S_ .f32 0x2B8CBCCC#32)))))
      (broadcastInDim S18x256x512x4 ![0, 1, 2, 3] Facts₀.bcast_S18x256x512x1_S18x256x512x4_0_1_2_3
        (broadcastInDim S18x256x512x1 ![0, 1, 2] Facts₀.bcast_S18x256x512_S18x256x512x1_0_1_2
          (x2 : FVec Ideal S18x256x512 .f32))) : S18x256x512x4.Idx → EReal)
      = Cert.ReferenceIdeal.Read.val_main_v13 (F := Ideal) x1 x2 := rfl

/-! ## What each of the nine buffers holds when the grid starts, as one term over the launch arguments

Each equation unfolds the run of the operations before the grid at one result buffer: every operation rewrites its own
result buffer to its function of its operands' contents and leaves every other buffer alone. -/

variable (m : (ℓ : Loc nD τ sig) → Buf (Elt Ideal) ℓ) (c : Dev nD)

set_option maxHeartbeats 1000000 in
theorem v31_eq : (V m c main_v31 : S18x224x8192.Idx → EReal) = shapeCast S18x224x8192
      (pad S18x224x32x256 ![0, 0, 0, 0] ![0, 0, 0, 32] ![0, 0, 0, 0]
        (transpose S18x224x32x224 [3, 1, 0, 2]
          (truncf (F := Ideal) .bf16
            (shapeCast S32x224x224x18 ((m ((c.tc : Thread nD τ).loc main_arg0)) : S1x32x224x224x18.Idx → EReal) Facts₀.shapeCasts_S1x32x224x224x18_S32x224x224x18 : FVec Ideal S32x224x224x18 .f32)
            Facts₀.bitsLt_bf16_f32)
          Facts₀.transposes_S32x224x224x18_S18x224x32x224_3_1_0_2)
        (sitofp (F := Ideal) .bf16 (constantI S_ 32 0#32)) Facts₀.pads_S18x224x32x224_S18x224x32x256_000_000_000_0320 Facts₀.h_S_)
      Facts₀.shapeCasts_S18x224x32x256_S18x224x8192 := by
  dsimp only [Gen.V, Gen.V0]
  rw [hostOps0_1_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rfl

set_option maxHeartbeats 1000000 in
theorem v32_eq : (V m c main_v32 : S18x131328.Idx → BitVec 32) = pad S18x131328 ![0, 0] ![0, 256] ![0, 0]
      (shapeCast S18x131072 ((m ((c.tc : Thread nD τ).loc main_arg3)) : S18x256x512.Idx → BitVec 32) Facts₀.shapeCasts_S18x256x512_S18x131072)
      (constantI S_ 32 0#32) Facts₀.pads_S18x131072_S18x131328_000_02560 Facts₀.h_S_ := by
  dsimp only [Gen.V, Gen.V0]
  rw [hostOps0_3_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rfl

set_option maxHeartbeats 1000000 in
theorem v33_eq : (V m c main_v33 : S18x131328.Idx → BitVec 32) = pad S18x131328 ![0, 0] ![0, 256] ![0, 0]
      (shapeCast S18x131072 ((m ((c.tc : Thread nD τ).loc main_arg4)) : S18x256x512.Idx → BitVec 32) Facts₀.shapeCasts_S18x256x512_S18x131072)
      (constantI S_ 32 0#32) Facts₀.pads_S18x131072_S18x131328_000_02560 Facts₀.h_S_ := by
  dsimp only [Gen.V, Gen.V0]
  rw [hostOps0_5_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rfl

set_option maxHeartbeats 1000000 in
theorem v34_eq : (V m c main_v34 : S18x131328.Idx → BitVec 32) = pad S18x131328 ![0, 0] ![0, 256] ![0, 0]
      (shapeCast S18x131072 ((m ((c.tc : Thread nD τ).loc main_arg5)) : S18x256x512.Idx → BitVec 32) Facts₀.shapeCasts_S18x256x512_S18x131072)
      (constantI S_ 32 0#32) Facts₀.pads_S18x131072_S18x131328_000_02560 Facts₀.h_S_ := by
  dsimp only [Gen.V, Gen.V0]
  rw [hostOps0_7_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rfl

set_option maxHeartbeats 1000000 in
theorem v35_eq : (V m c main_v35 : S18x131328.Idx → BitVec 32) = pad S18x131328 ![0, 0] ![0, 256] ![0, 0]
      (shapeCast S18x131072 ((m ((c.tc : Thread nD τ).loc main_arg6)) : S18x256x512.Idx → BitVec 32) Facts₀.shapeCasts_S18x256x512_S18x131072)
      (constantI S_ 32 0#32) Facts₀.pads_S18x131072_S18x131328_000_02560 Facts₀.h_S_ := by
  dsimp only [Gen.V, Gen.V0]
  rw [hostOps0_9_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rfl

set_option maxHeartbeats 1000000 in
theorem v36_eq : (V m c main_v36 : S18x131328.Idx → EReal) = pad S18x131328 ![0, 0] ![0, 256] ![0, 0]
      (shapeCast S18x131072 (extractStridedSlice S18x131072x1 ![0, 0, 0]
        (shapeCast S18x131072x4 (Cert.ReferenceIdeal.Read.val_main_v13 (F := Ideal) (m ((c.tc : Thread nD τ).loc main_arg1)) (m ((c.tc : Thread nD τ).loc main_arg2)) : S18x256x512x4.Idx → EReal) Facts₀.shapeCasts_S18x256x512x4_S18x131072x4)
        Facts₀.slices_S18x131072x4_S18x131072x1_0_0_0) Facts₀.shapeCasts_S18x131072x1_S18x131072)
      (sitofp (F := Ideal) .f32 (constantI S_ 32 0#32)) Facts₀.pads_S18x131072_S18x131328_000_02560 Facts₀.h_S_ := by
  dsimp only [Gen.V, Gen.V0]
  rw [hostOps0_11_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rw [← wChain_eq]
  rfl

set_option maxHeartbeats 1000000 in
theorem v37_eq : (V m c main_v37 : S18x131328.Idx → EReal) = pad S18x131328 ![0, 0] ![0, 256] ![0, 0]
      (shapeCast S18x131072 (extractStridedSlice S18x131072x1 ![0, 0, 1]
        (shapeCast S18x131072x4 (Cert.ReferenceIdeal.Read.val_main_v13 (F := Ideal) (m ((c.tc : Thread nD τ).loc main_arg1)) (m ((c.tc : Thread nD τ).loc main_arg2)) : S18x256x512x4.Idx → EReal) Facts₀.shapeCasts_S18x256x512x4_S18x131072x4)
        Facts₀.slices_S18x131072x4_S18x131072x1_0_0_1) Facts₀.shapeCasts_S18x131072x1_S18x131072)
      (sitofp (F := Ideal) .f32 (constantI S_ 32 0#32)) Facts₀.pads_S18x131072_S18x131328_000_02560 Facts₀.h_S_ := by
  dsimp only [Gen.V, Gen.V0]
  rw [hostOps0_13_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rw [← wChain_eq]
  rfl

set_option maxHeartbeats 1000000 in
theorem v38_eq : (V m c main_v38 : S18x131328.Idx → EReal) = pad S18x131328 ![0, 0] ![0, 256] ![0, 0]
      (shapeCast S18x131072 (extractStridedSlice S18x131072x1 ![0, 0, 2]
        (shapeCast S18x131072x4 (Cert.ReferenceIdeal.Read.val_main_v13 (F := Ideal) (m ((c.tc : Thread nD τ).loc main_arg1)) (m ((c.tc : Thread nD τ).loc main_arg2)) : S18x256x512x4.Idx → EReal) Facts₀.shapeCasts_S18x256x512x4_S18x131072x4)
        Facts₀.slices_S18x131072x4_S18x131072x1_0_0_2) Facts₀.shapeCasts_S18x131072x1_S18x131072)
      (sitofp (F := Ideal) .f32 (constantI S_ 32 0#32)) Facts₀.pads_S18x131072_S18x131328_000_02560 Facts₀.h_S_ := by
  dsimp only [Gen.V, Gen.V0]
  rw [hostOps0_15_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rw [← wChain_eq]
  rfl

set_option maxHeartbeats 1000000 in
theorem v39_eq : (V m c main_v39 : S18x131328.Idx → EReal) = pad S18x131328 ![0, 0] ![0, 256] ![0, 0]
      (shapeCast S18x131072 (extractStridedSlice S18x131072x1 ![0, 0, 3]
        (shapeCast S18x131072x4 (Cert.ReferenceIdeal.Read.val_main_v13 (F := Ideal) (m ((c.tc : Thread nD τ).loc main_arg1)) (m ((c.tc : Thread nD τ).loc main_arg2)) : S18x256x512x4.Idx → EReal) Facts₀.shapeCasts_S18x256x512x4_S18x131072x4)
        Facts₀.slices_S18x131072x4_S18x131072x1_0_0_3) Facts₀.shapeCasts_S18x131072x1_S18x131072)
      (sitofp (F := Ideal) .f32 (constantI S_ 32 0#32)) Facts₀.pads_S18x131072_S18x131328_000_02560 Facts₀.h_S_ := by
  dsimp only [Gen.V, Gen.V0]
  rw [hostOps0_17_eq]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, List.flatten_cons, List.flatten_nil, List.append_nil, List.cons_append, List.nil_append]
  after_results_simp
  rw [← wChain_eq]
  rfl

/-! ## The nine arrays at an index -/

/-- The image operand: patch p, image row h, lane q holds channel q / 256 at column q % 256 of the image when that is one
    of its 224 columns, and zero on the 32 padding lanes of each channel. -/
theorem img_at (p : Fin 18) (h : Fin 224) (q : Fin 8192) :
    (V m c main_v31 : S18x224x8192.Idx → EReal) (ix3 p h q)
      = if hq : q.val % 256 < 224 then
          ((m ((c.tc : Thread nD τ).loc main_arg0)) : S1x32x224x224x18.Idx → EReal)
            (ix5 (0 : Fin 1) (⟨q.val / 256, by omega⟩ : Fin 32) h ⟨q.val % 256, hq⟩ p)
        else (0 : EReal) := by
  rw [v31_eq]
  exact (imgLayout_at _ _ _ _ _ _ _ _ p h q).trans (dite_else_congr _ (sitofp_zero_scalar .bf16))

/-- The first row table, flattened: column j is its entry (j / 512, j % 512), the 256 padding columns the zero word. -/
theorem y0_at (p : Fin 18) (j : Fin 131328) :
    (V m c main_v32 : S18x131328.Idx → BitVec 32) (ix2 p j)
      = if hj : j.val < 131072 then
          ((m ((c.tc : Thread nD τ).loc main_arg3)) : S18x256x512.Idx → BitVec 32)
            (ix3 p ⟨j.val / 512, by omega⟩ ⟨j.val % 512, Nat.mod_lt _ (by norm_num)⟩)
        else 0#32 := by
  rw [v32_eq]
  exact flatPad_at _ _ _ _ _ p j

/-- The first column table, likewise. -/
theorem x0_at (p : Fin 18) (j : Fin 131328) :
    (V m c main_v33 : S18x131328.Idx → BitVec 32) (ix2 p j)
      = if hj : j.val < 131072 then
          ((m ((c.tc : Thread nD τ).loc main_arg4)) : S18x256x512.Idx → BitVec 32)
            (ix3 p ⟨j.val / 512, by omega⟩ ⟨j.val % 512, Nat.mod_lt _ (by norm_num)⟩)
        else 0#32 := by
  rw [v33_eq]
  exact flatPad_at _ _ _ _ _ p j

/-- The second row table, likewise. -/
theorem y1_at (p : Fin 18) (j : Fin 131328) :
    (V m c main_v34 : S18x131328.Idx → BitVec 32) (ix2 p j)
      = if hj : j.val < 131072 then
          ((m ((c.tc : Thread nD τ).loc main_arg5)) : S18x256x512.Idx → BitVec 32)
            (ix3 p ⟨j.val / 512, by omega⟩ ⟨j.val % 512, Nat.mod_lt _ (by norm_num)⟩)
        else 0#32 := by
  rw [v34_eq]
  exact flatPad_at _ _ _ _ _ p j

/-- The second column table, likewise. -/
theorem x1_at (p : Fin 18) (j : Fin 131328) :
    (V m c main_v35 : S18x131328.Idx → BitVec 32) (ix2 p j)
      = if hj : j.val < 131072 then
          ((m ((c.tc : Thread nD τ).loc main_arg6)) : S18x256x512.Idx → BitVec 32)
            (ix3 p ⟨j.val / 512, by omega⟩ ⟨j.val % 512, Nat.mod_lt _ (by norm_num)⟩)
        else 0#32 := by
  rw [v35_eq]
  exact flatPad_at _ _ _ _ _ p j

/-- The weights of corner 0, flattened: column j is W at (p, j / 512, j % 512, 0), the 256 padding columns zero. -/
theorem wa_at (p : Fin 18) (j : Fin 131328) :
    (V m c main_v36 : S18x131328.Idx → EReal) (ix2 p j)
      = if hj : j.val < 131072 then
          (Cert.ReferenceIdeal.Read.val_main_v13 (F := Ideal) (m ((c.tc : Thread nD τ).loc main_arg1)) (m ((c.tc : Thread nD τ).loc main_arg2)) : S18x256x512x4.Idx → EReal)
            (ix4 p ⟨j.val / 512, by omega⟩ ⟨j.val % 512, Nat.mod_lt _ (by norm_num)⟩ 0)
        else (0 : EReal) := by
  rw [v36_eq]
  exact (flatSlicePad_at _ _ (0 : Fin 4) _ _ _ _ _ p j).trans (dite_else_congr _ (sitofp_zero_scalar .f32))

/-- The weights of corner 1, likewise. -/
theorem wb_at (p : Fin 18) (j : Fin 131328) :
    (V m c main_v37 : S18x131328.Idx → EReal) (ix2 p j)
      = if hj : j.val < 131072 then
          (Cert.ReferenceIdeal.Read.val_main_v13 (F := Ideal) (m ((c.tc : Thread nD τ).loc main_arg1)) (m ((c.tc : Thread nD τ).loc main_arg2)) : S18x256x512x4.Idx → EReal)
            (ix4 p ⟨j.val / 512, by omega⟩ ⟨j.val % 512, Nat.mod_lt _ (by norm_num)⟩ 1)
        else (0 : EReal) := by
  rw [v37_eq]
  exact (flatSlicePad_at _ _ (1 : Fin 4) _ _ _ _ _ p j).trans (dite_else_congr _ (sitofp_zero_scalar .f32))

/-- The weights of corner 2, likewise. -/
theorem wc_at (p : Fin 18) (j : Fin 131328) :
    (V m c main_v38 : S18x131328.Idx → EReal) (ix2 p j)
      = if hj : j.val < 131072 then
          (Cert.ReferenceIdeal.Read.val_main_v13 (F := Ideal) (m ((c.tc : Thread nD τ).loc main_arg1)) (m ((c.tc : Thread nD τ).loc main_arg2)) : S18x256x512x4.Idx → EReal)
            (ix4 p ⟨j.val / 512, by omega⟩ ⟨j.val % 512, Nat.mod_lt _ (by norm_num)⟩ 2)
        else (0 : EReal) := by
  rw [v38_eq]
  exact (flatSlicePad_at _ _ (2 : Fin 4) _ _ _ _ _ p j).trans (dite_else_congr _ (sitofp_zero_scalar .f32))

/-- The weights of corner 3, likewise. -/
theorem wd_at (p : Fin 18) (j : Fin 131328) :
    (V m c main_v39 : S18x131328.Idx → EReal) (ix2 p j)
      = if hj : j.val < 131072 then
          (Cert.ReferenceIdeal.Read.val_main_v13 (F := Ideal) (m ((c.tc : Thread nD τ).loc main_arg1)) (m ((c.tc : Thread nD τ).loc main_arg2)) : S18x256x512x4.Idx → EReal)
            (ix4 p ⟨j.val / 512, by omega⟩ ⟨j.val % 512, Nat.mod_lt _ (by norm_num)⟩ 3)
        else (0 : EReal) := by
  rw [v39_eq]
  exact (flatSlicePad_at _ _ (3 : Fin 4) _ _ _ _ _ p j).trans (dite_else_congr _ (sitofp_zero_scalar .f32))

end Cert.P2E

end
-- ==== Proof.KValue.lean ====
import proofs.«427269_j59785944760704_3_alg».proof.Proof.KFinal
import proofs.«427269_j59785944760704_3_alg».proof.Proof.KArrays
import proofs.«427269_j59785944760704_3_alg».proof.Proof.Laws
import proofs.«427269_j59785944760704_3_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

/-! The result array of the pallas_call, entry by entry, is the specification: on in-range index tables and real-valued
    image and weights the two halves of a patch are the four bilinear corners, and the running sum over the patches is
    the reference's sum. -/

namespace Cert.P2E
open Cert.KernelIdeal Cert.KernelIdeal.Gen

variable (m : (ℓ : Loc nD τ sig) → Buf (Elt Ideal) ℓ) (c : Dev nD)

/-- The image argument. -/
abbrev IMG : S1x32x224x224x18.Idx → EReal := m ((c.tc : Thread nD τ).loc main_arg0)
/-- The normalized, masked weights (the reference's own stage of the weight and mask arguments). -/
abbrev WGT : S18x256x512x4.Idx → EReal :=
  Cert.ReferenceIdeal.Read.val_main_v13 (F := Ideal) (m ((c.tc : Thread nD τ).loc main_arg1)) (m ((c.tc : Thread nD τ).loc main_arg2))
abbrev Y0 : S18x256x512.Idx → BitVec 32 := m ((c.tc : Thread nD τ).loc main_arg3)
abbrev X0 : S18x256x512.Idx → BitVec 32 := m ((c.tc : Thread nD τ).loc main_arg4)
abbrev Y1 : S18x256x512.Idx → BitVec 32 := m ((c.tc : Thread nD τ).loc main_arg5)
abbrev X1 : S18x256x512.Idx → BitVec 32 := m ((c.tc : Thread nD τ).loc main_arg6)

/-- A corner as a function of the patch number (zero past the last patch). -/
def cornerN (ya xa : S18x256x512.Idx → BitVec 32) (k : Fin 4) (ch : Fin 32) (e1 : Fin 256) (e2 : Fin 512) (p : ℕ) : EReal :=
  if hp : p < 18 then corner (IMG m c) (WGT m c) ya xa k ch e1 e2 ⟨p, hp⟩ else 0

/-- Every entry of the re-laid image is a real number when the image's are: it is an image entry or the padding zero. -/
theorem valK_real (hImg : ∀ i, ∃ r : ℝ, IMG m c i = (r : EReal)) (p : Fin 18) (ch : Fin 32) (h : Fin 224) (w : Fin 256) :
    ∃ r : ℝ, valK m c p ch h w = (r : EReal) := by
  unfold valK
  rw [img_at]
  split
  · exact hImg _
  · exact ⟨0, by simp⟩

/-- At an in-range row y and lane a < 224 the re-laid image is the image at (ch, y, a, p). -/
theorem valK_at (p : Fin 18) (ch : Fin 32) (y : Fin 224) (a : ℕ) (ha : a < 224) (yw aw : BitVec 32) (hy : (rowOf yw).val = y.val) (haw : (rowOf aw).val = a) :
    valK m c p ch y ⟨a, by omega⟩ = IMG m c (ix5 0 ch (rowOf yw) (rowOf aw) p) := by
  unfold valK
  rw [img_at]
  have hq : (ch.val * 256 + a) % 256 = a := by omega
  have hd : (ch.val * 256 + a) / 256 = ch.val := by omega
  rw [dif_pos (show (ch.val * 256 + a) % 256 < 224 by omega)]
  refine congrArg (IMG m c) ?_
  funext d
  apply Fin.ext
  match d with
  | ⟨0, _⟩ => rfl
  | ⟨1, _⟩ => exact hd
  | ⟨2, _⟩ => exact hy.symm
  | ⟨3, _⟩ => exact hq.trans haw.symm
  | ⟨4, _⟩ => rfl

section
variable (hImg : ∀ i, ∃ r : ℝ, IMG m c i = (r : EReal)) (hW : ∀ i, ∃ r : ℝ, WGT m c i = (r : EReal))
  (h3 : ∀ i, (Y0 m c i).toNat < 224) (h4 : ∀ i, (X0 m c i).toNat < 224) (h5 : ∀ i, (Y1 m c i).toNat < 224) (h6 : ∀ i, (X1 m c i).toNat < 224)
include hImg hW h3 h4 h5 h6

/-- One half of a patch is two corners: the row pick and the two-lane selector leave the two selected image entries times their weights. -/
theorem half_eq (ya : S18x256x512.Idx → BitVec 32) (hya : ∀ i, (ya i).toNat < 224) (ka kc : Fin 4)
    (ch : Fin 32) (e1 : Fin 256) (e2 : Fin 512) (p : Fin 18) :
    partSum (valK m c p ch) (ya (ix3 p e1 e2)) (X0 m c (ix3 p e1 e2)) (X1 m c (ix3 p e1 e2)) (WGT m c (ix4 p e1 e2 ka)) (WGT m c (ix4 p e1 e2 kc))
      = corner (IMG m c) (WGT m c) ya (X0 m c) ka ch e1 e2 p + corner (IMG m c) (WGT m c) ya (X1 m c) kc ch e1 e2 p := by
  rw [partSum_eq _ _ _ _ _ _ (hya _) (h4 _) (h6 _) (valK_real m c hImg p ch) (hW _) (hW _)]
  unfold corner
  rw [valK_at m c p ch ⟨(ya (ix3 p e1 e2)).toNat, hya _⟩ (X0 m c (ix3 p e1 e2)).toNat (h4 _) (ya (ix3 p e1 e2)) (X0 m c (ix3 p e1 e2))
      (rowOf_val_of_lt (hya _)) (rowOf_val_of_lt (h4 _)),
    valK_at m c p ch ⟨(ya (ix3 p e1 e2)).toNat, hya _⟩ (X1 m c (ix3 p e1 e2)).toNat (h6 _) (ya (ix3 p e1 e2)) (X1 m c (ix3 p e1 e2))
      (rowOf_val_of_lt (hya _)) (rowOf_val_of_lt (h6 _))]

/-- THE RESULT ARRAY IS THE SPECIFICATION: entry (ch, e1 · 512 + e2) of the pallas_call's result is G at (0, ch, e1, e2). -/
theorem out40_eq (ch : Fin 32) (e1 : Fin 256) (e2 : Fin 512) :
    out40 m c (ix2 ch ⟨e1.val * 512 + e2.val, by omega⟩) = G (IMG m c) (WGT m c) (Y0 m c) (X0 m c) (Y1 m c) (X1 m c) (ix4 0 ch e1 e2) := by
  have hj : e1.val * 512 + e2.val < 131072 := by omega
  have hd : (e1.val * 512 + e2.val) / 512 = e1.val := by omega
  have hm : (e1.val * 512 + e2.val) % 512 = e2.val := by omega
  have hcol : ∀ hA hB, colK ⟨(e1.val * 512 + e2.val) / 384, hA⟩ ⟨(e1.val * 512 + e2.val) % 384, hB⟩ = ⟨e1.val * 512 + e2.val, by omega⟩ :=
    fun hA hB => Fin.ext (by show (e1.val * 512 + e2.val) / 384 * 384 + (e1.val * 512 + e2.val) % 384 = e1.val * 512 + e2.val; omega)
  unfold out40
  show accK (fK m c ⟨(e1.val * 512 + e2.val) / 384, _⟩ ⟨(e1.val * 512 + e2.val) % 384, _⟩ ⟨ch.val, _⟩)
      (gK m c ⟨(e1.val * 512 + e2.val) / 384, _⟩ ⟨(e1.val * 512 + e2.val) % 384, _⟩ ⟨ch.val, _⟩) 17 = _
  have hf : fK m c ⟨(e1.val * 512 + e2.val) / 384, by omega⟩ ⟨(e1.val * 512 + e2.val) % 384, Nat.mod_lt _ (by decide)⟩ ⟨ch.val, ch.isLt⟩
      = fun p => cornerN m c (Y0 m c) (X0 m c) 0 ch e1 e2 p + cornerN m c (Y0 m c) (X1 m c) 2 ch e1 e2 p := by
    funext p
    unfold fK cornerN
    by_cases hp : p < 18
    · rw [dif_pos hp, dif_pos hp, dif_pos hp, hcol, y0_at, x0_at, x1_at, wa_at, wc_at, dif_pos hj, dif_pos hj, dif_pos hj, dif_pos hj, dif_pos hj]
      have e3 : (⟨(e1.val * 512 + e2.val) / 512, by omega⟩ : Fin 256) = e1 := Fin.ext hd
      have e4 : (⟨(e1.val * 512 + e2.val) % 512, Nat.mod_lt _ (by decide)⟩ : Fin 512) = e2 := Fin.ext hm
      rw [e3, e4]
      exact half_eq m c hImg hW h3 h4 h5 h6 (Y0 m c) h3 0 2 ch e1 e2 ⟨p, hp⟩
    · rw [dif_neg hp, dif_neg hp, dif_neg hp]; simp
  have hg : gK m c ⟨(e1.val * 512 + e2.val) / 384, by omega⟩ ⟨(e1.val * 512 + e2.val) % 384, Nat.mod_lt _ (by decide)⟩ ⟨ch.val, ch.isLt⟩
      = fun p => cornerN m c (Y1 m c) (X0 m c) 1 ch e1 e2 p + cornerN m c (Y1 m c) (X1 m c) 3 ch e1 e2 p := by
    funext p
    unfold gK cornerN
    by_cases hp : p < 18
    · rw [dif_pos hp, dif_pos hp, dif_pos hp, hcol, y1_at, x0_at, x1_at, wb_at, wd_at, dif_pos hj, dif_pos hj, dif_pos hj, dif_pos hj, dif_pos hj]
      have e3 : (⟨(e1.val * 512 + e2.val) / 512, by omega⟩ : Fin 256) = e1 := Fin.ext hd
      have e4 : (⟨(e1.val * 512 + e2.val) % 512, Nat.mod_lt _ (by decide)⟩ : Fin 512) = e2 := Fin.ext hm
      rw [e3, e4]
      exact half_eq m c hImg hW h3 h4 h5 h6 (Y1 m c) h5 1 3 ch e1 e2 ⟨p, hp⟩
    · rw [dif_neg hp, dif_neg hp, dif_neg hp]; simp
  rw [hf, hg, accK_eq_sum]
  unfold G
  refine congrArg (0 + ·) (Finset.sum_congr rfl fun p _ => ?_)
  unfold cornerN
  simp only [dif_pos p.isLt, Fin.eta]
end

end Cert.P2E
end
-- ==== Proof.KRun.lean ====
import proofs.«427269_j59785944760704_3_alg».proof.Proof.KValue
import Idealize.ShloMosaic.Lib.Pipeline.Value
import Idealize.ShloMosaic.Lib.ValueIdx
import Idealize.ShloMosaic.Lib.Tactic
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

/-! The kernel program's run, read: after the two host lines behind the pallas_call (drop the padded columns, reshape to
    [1, 32, 256, 512]) the result buffer holds the specification, and the arguments are unchanged. -/

namespace Cert.P2E
open Cert.KernelIdeal Cert.KernelIdeal.Gen

variable (m : (ℓ : Loc nD τ sig) → Buf (Elt Ideal) ℓ) (c : Dev nD)
open Idealize.ShloMosaic.StableHlo

/-- The two host lines after the region, applied to the region's result array. -/
theorem tail_eq : (Pipeline.afterTail₀ cfgs (dats m) 0 (V0 m) [hostOps1] c main_v42 : S1x32x256x512.Idx → EReal)
    = shapeCast S1x32x256x512 (extractStridedSlice S32x131072 ![0, 0] (out40 m c) Facts₀.slices_S32x131328_S32x131072_0_0)
        Facts₀.shapeCasts_S32x131072_S1x32x256x512 := by
  unfold Pipeline.afterTail₀
  show StableHlo.after hostOps1 _ (Proc.devRef .tc main_v42) = _
  after_results
  have e := (Pipeline.withArrays_arr spec0 launch0.win.arr_inj c (V0 m c) (fun w => (dats m 0 c).arrAt w (cfgs 0).N) 9).trans (final40 m c)
  rw [show Pipeline.withArrays (cfgs 0).spec c (V0 m c) (fun w => (dats m 0 c).arrAt w (cfgs 0).N) (Proc.devRef .tc main_v40) = out40 m c from e]
  rfl

/-- Entry (0, ch, e1, e2) of the program's result is entry (ch, e1 · 512 + e2) of the region's result array. -/
theorem result_apply (ch : Fin 32) (e1 : Fin 256) (e2 : Fin 512) :
    (Pipeline.afterTail₀ cfgs (dats m) 0 (V0 m) [hostOps1] c main_v42 : S1x32x256x512.Idx → EReal) (ix4 0 ch e1 e2)
      = out40 m c (ix2 ch ⟨e1.val * 512 + e2.val, by omega⟩) := by
  rw [tail_eq]
  refine (shapeCast_apply _ _ (ix4 0 ch e1 e2) (ix2 ch ⟨e1.val * 512 + e2.val, by omega⟩ : S32x131072.Idx) ?_).trans ?_
  · rw [Shape.rowMajor_val_two, Shape.rowMajor_val_four]
    show ch.val * 131072 + (e1.val * 512 + e2.val) = ((0 * 32 + ch.val) * 256 + e1.val) * 512 + e2.val
    omega
  · refine extractStridedSlice_apply _ _ _ _ (ix2 ch ⟨e1.val * 512 + e2.val, by omega⟩ : S32x131328.Idx) (fun a => ?_)
    match a with
    | ⟨0, _⟩ => show ch.val = 0 + ch.val; omega
    | ⟨1, _⟩ => show e1.val * 512 + e2.val = 0 + (e1.val * 512 + e2.val); omega

/-- The kernel program's result as a function of its arguments: the specification. -/
def resK : S1x32x256x512.Idx → EReal := G (IMG m c) (WGT m c) (Y0 m c) (X0 m c) (Y1 m c) (X1 m c)

theorem result_eq (hImg : ∀ i, ∃ r : ℝ, IMG m c i = (r : EReal)) (hW : ∀ i, ∃ r : ℝ, WGT m c i = (r : EReal))
    (h3 : ∀ i, (Y0 m c i).toNat < 224) (h4 : ∀ i, (X0 m c i).toNat < 224) (h5 : ∀ i, (Y1 m c i).toNat < 224) (h6 : ∀ i, (X1 m c i).toNat < 224) :
    (Pipeline.afterTail₀ cfgs (dats m) 0 (V0 m) [hostOps1] c main_v42 : S1x32x256x512.Idx → EReal) = resK m c := by
  funext i
  obtain ⟨ch, e1, e2, rfl⟩ : ∃ (ch : Fin 32) (e1 : Fin 256) (e2 : Fin 512), i = ix4 0 ch e1 e2 := by
    refine ⟨i 1, i 2, i 3, (eq_ix4 i).trans ?_⟩
    have h0 : (i 0).val < 1 := (i 0).isLt
    exact congrArg (fun z => ix4 z (i 1) (i 2) (i 3)) (Fin.ext (by show (i 0).val = 0; omega))
  rw [result_apply, out40_eq m c hImg hW h3 h4 h5 h6]
  rfl

/-- THE KERNEL PROGRAM'S RUN: every weakly fair execution terminates with the result at the specification of the arguments, the
    arguments unchanged. -/
theorem kernel_run (ρ : Dev nD → PrngReg)
    (H : ∀ c : Dev nD, (∀ i, ∃ r : ℝ, IMG m c i = (r : EReal)) ∧ (∀ i, ∃ r : ℝ, WGT m c i = (r : EReal))
      ∧ (∀ i, (Y0 m c i).toNat < 224) ∧ (∀ i, (X0 m c i).toNat < 224) ∧ (∀ i, (Y1 m c i).toNat < 224) ∧ (∀ i, (X1 m c i).toNat < 224)) :
    θ_run defs (onTc (τ := τ) (main (F := Ideal))) ⟨m, fun _ => 0, ρ⟩ (fun r => ∀ c : Dev nD,
      r.2.mem ((c.tc : Thread nD τ).loc main_v42) = (resK m c : Buf (Elt Ideal) ((c.tc : Thread nD τ).loc main_v42))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v42 (Pipeline.mem_restRefs_of main_v42 (by decide) (by decide))).trans
        (result_eq m c (H c).1 (H c).2.1 (H c).2.2.1 (H c).2.2.2.1 (H c).2.2.2.2.1 (H c).2.2.2.2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.P2E
end
-- ==== Proof.LibImgGather.lean ====
/-
  GENERAL LEMMAS — an image indexed by three integer arrays at once, read at an index.

  `x[:, :, ya, xa, p]` of a rank-5 array `x : [B, C, H, Wd, P]` at three integer arrays `ya, xa, p : [R, E1, E2]` lowers to
  one `stablehlo.gather` whose start indices are the three arrays joined along a new last axis, `[R, E1, E2, 3]`: the
  result `[B, C, R, E1, E2]` keeps the two leading axes whole (offset axes `0, 1`, slice sizes `B, C`) and collapses the
  three indexed ones (slice size 1 each), each reading its start from one column of the joined table.

  * `gather_img_apply`: the gather at `(b, c, r, e1, e2)` is the operand at `(b, c, y, x, p)` with `y`, `x`, `p` the three
    columns of the table at `(r, e1, e2)`, each read as a signed integer and clamped into its axis.
  * `concat3_col0/1/2` (and `concat3_col`): column `k` of the three-piece join at `(r, e1, e2)` is piece `k` at
    `(r, e1, e2, 0)`.
-/
import Idealize.ShloMosaic.PureOps
import Idealize.ShloMosaic.Lib.ValueIdx
import Idealize.ShloMosaic.Lib.Pipeline.Value

namespace Cert.P2E

open Idealize.ShloMosaic Idealize.ShloMosaic.ValueIdx

section Gather
variable {α : Type}

/-- The dimension numbers of `x[:, :, ya, xa, p]`: operand `[B, C, H, Wd, P]`, start indices `[R, E1, E2, 3]`, result
    `[B, C, R, E1, E2]`; the result's axes `0, 1` are the operand's (whole: slice sizes `B`, `C`), the operand's axes
    `2, 3, 4` are collapsed and take their starts from components `0, 1, 2` of the index vector, which lies along the
    start indices' last axis. The conditions `wf` are decided on a program's literal shapes. -/
abbrev imgDims (B C H Wd P R E1 E2 : Nat)
    (wf : GatherDims.WF ⟨5, ![B, C, H, Wd, P]⟩ ⟨4, ![R, E1, E2, 3]⟩ ⟨5, ![B, C, R, E1, E2]⟩ [0, 1] [2, 3, 4] [] [2, 3, 4] [] 3
      ![B, C, 1, 1, 1]) :
    GatherDims ⟨5, ![B, C, H, Wd, P]⟩ ⟨4, ![R, E1, E2, 3]⟩ ⟨5, ![B, C, R, E1, E2]⟩ where
  offsetDims := [0, 1]
  collapsedSliceDims := [2, 3, 4]
  operandBatchingDims := []
  startIndicesBatchingDims := []
  startIndexMap := [2, 3, 4]
  indexVectorDim := 3
  sliceSizes := ![B, C, 1, 1, 1]
  wf := wf

/-- THE GATHER READ AT `(b, c, r, e1, e2)`: the operand at `(b, c, y, x, p)`, where `y`, `x`, `p` are the start
    indices' components `0, 1, 2` at `(r, e1, e2)`, each read signed and clamped into `[0, extent − 1]`. -/
theorem gather_img_apply {B C H Wd P R E1 E2 w : Nat} (hH : 0 < H) (hW : 0 < Wd) (hP : 0 < P)
    (wf : GatherDims.WF ⟨5, ![B, C, H, Wd, P]⟩ ⟨4, ![R, E1, E2, 3]⟩ ⟨5, ![B, C, R, E1, E2]⟩ [0, 1] [2, 3, 4] [] [2, 3, 4] [] 3
      ![B, C, 1, 1, 1])
    (x : (⟨5, ![B, C, H, Wd, P]⟩ : Shape).Idx → α) (idx : IVec ⟨4, ![R, E1, E2, 3]⟩ w)
    (b : Fin B) (c : Fin C) (r : Fin R) (e1 : Fin E1) (e2 : Fin E2) :
    Host.gather (imgDims B C H Wd P R E1 E2 wf) x idx (ix5 b c r e1 e2)
      = x (ix5 b c ⟨min (idx (ix4 r e1 e2 (0 : Fin 3))).toInt.toNat (H - 1), by omega⟩
            ⟨min (idx (ix4 r e1 e2 (1 : Fin 3))).toInt.toNat (Wd - 1), by omega⟩
            ⟨min (idx (ix4 r e1 e2 (2 : Fin 3))).toInt.toNat (P - 1), by omega⟩) := by
  unfold Host.gather
  congr 1
  funext a
  refine Fin.ext ?_
  show (imgDims B C H Wd P R E1 E2 wf).start (ix5 b c r e1 e2) idx a
      + (imgDims B C H Wd P R E1 E2 wf).batchCoord (ix5 b c r e1 e2) a
      + (imgDims B C H Wd P R E1 E2 wf).offCoord (ix5 b c r e1 e2) a = _
  rw [GatherDims.batchCoord_eq_zero _ _ _ List.not_mem_nil, Nat.add_zero]
  -- the index-vector component read for each collapsed axis sits at `(r, e1, e2, k)` of the start indices
  have hsi : ∀ (k : Nat) (hk : k < 3),
      (imgDims B C H Wd P R E1 E2 wf).siIdx (ix5 b c r e1 e2) ⟨k, hk⟩ = ix4 r e1 e2 (⟨k, hk⟩ : Fin 3) := by
    intro k hk
    funext b'; refine Fin.ext ?_
    match b' with
    | ⟨0, _⟩ => rfl
    | ⟨1, _⟩ => rfl
    | ⟨2, _⟩ => rfl
    | ⟨3, _⟩ => rfl
  match a with
  | ⟨0, h0⟩ =>
    -- an offset axis: no start index names it, and its coordinate is the result's
    have hn : (⟨0, h0⟩ : Fin 5) ∉ (imgDims B C H Wd P R E1 E2 wf).startIndexMap := by
      show (0 : Fin 5) ∉ ([2, 3, 4] : List (Fin 5)); decide
    have hk : (⟨0, h0⟩ : Fin 5) ∈ (imgDims B C H Wd P R E1 E2 wf).sKept :=
      (GatherDims.mem_sKept _ _).2 ⟨hn, List.not_mem_nil⟩
    unfold GatherDims.start GatherDims.offCoord
    rw [dif_neg hn, dif_pos hk, Nat.zero_add]
    rfl
  | ⟨1, h1⟩ =>
    have hn : (⟨1, h1⟩ : Fin 5) ∉ (imgDims B C H Wd P R E1 E2 wf).startIndexMap := by
      show (1 : Fin 5) ∉ ([2, 3, 4] : List (Fin 5)); decide
    have hk : (⟨1, h1⟩ : Fin 5) ∈ (imgDims B C H Wd P R E1 E2 wf).sKept :=
      (GatherDims.mem_sKept _ _).2 ⟨hn, List.not_mem_nil⟩
    unfold GatherDims.start GatherDims.offCoord
    rw [dif_neg hn, dif_pos hk, Nat.zero_add]
    rfl
  | ⟨2, h2⟩ =>
    -- a collapsed axis: offset 0, start the first component of the index vector, clamped
    have hm : (⟨2, h2⟩ : Fin 5) ∈ (imgDims B C H Wd P R E1 E2 wf).startIndexMap := by
      show (2 : Fin 5) ∈ ([2, 3, 4] : List (Fin 5)); decide
    rw [GatherDims.offCoord_eq_zero _ _ _ (fun h => ((GatherDims.mem_sKept _ _).mp h).1 hm), Nat.add_zero]
    unfold GatherDims.start
    rw [dif_pos hm]
    exact congrArg (fun i => min (idx i).toInt.toNat (H - 1)) (hsi 0 (by decide))
  | ⟨3, h3⟩ =>
    have hm : (⟨3, h3⟩ : Fin 5) ∈ (imgDims B C H Wd P R E1 E2 wf).startIndexMap := by
      show (3 : Fin 5) ∈ ([2, 3, 4] : List (Fin 5)); decide
    rw [GatherDims.offCoord_eq_zero _ _ _ (fun h => ((GatherDims.mem_sKept _ _).mp h).1 hm), Nat.add_zero]
    unfold GatherDims.start
    rw [dif_pos hm]
    exact congrArg (fun i => min (idx i).toInt.toNat (Wd - 1)) (hsi 1 (by decide))
  | ⟨4, h4⟩ =>
    have hm : (⟨4, h4⟩ : Fin 5) ∈ (imgDims B C H Wd P R E1 E2 wf).startIndexMap := by
      show (4 : Fin 5) ∈ ([2, 3, 4] : List (Fin 5)); decide
    rw [GatherDims.offCoord_eq_zero _ _ _ (fun h => ((GatherDims.mem_sKept _ _).mp h).1 hm), Nat.add_zero]
    unfold GatherDims.start
    rw [dif_pos hm]
    exact congrArg (fun i => min (idx i).toInt.toNat (P - 1)) (hsi 2 (by decide))

end Gather

section Table
variable {α : Type}

/-- Column `k` of a three-piece join of `[R, E1, E2, 1]` pieces along the last axis, whatever the piece: the pieces
    before it fill the columns `0 … k − 1`, so the coordinate `k` falls in piece `k` at offset 0. -/
private theorem concat3_piece {R E1 E2 : Nat} (c0 c1 c2 : (⟨4, ![R, E1, E2, 1]⟩ : Shape).Idx → α)
    (h : Shape.Concatenates [(⟨4, ![R, E1, E2, 1]⟩ : Shape), ⟨4, ![R, E1, E2, 1]⟩, ⟨4, ![R, E1, E2, 1]⟩] ⟨4, ![R, E1, E2, 3]⟩ 3)
    (r : Fin R) (e1 : Fin E1) (e2 : Fin E2) (k : Nat) (hk : k < 3) (ck : (⟨4, ![R, E1, E2, 1]⟩ : Shape).Idx → α)
    (hck : ([⟨⟨4, ![R, E1, E2, 1]⟩, c0⟩, ⟨⟨4, ![R, E1, E2, 1]⟩, c1⟩, ⟨⟨4, ![R, E1, E2, 1]⟩, c2⟩] :
        List ((s : Shape) × (s.Idx → α)))[k]'hk = ⟨⟨4, ![R, E1, E2, 1]⟩, ck⟩) :
    concatenate ⟨4, ![R, E1, E2, 3]⟩ 3 [⟨⟨4, ![R, E1, E2, 1]⟩, c0⟩, ⟨⟨4, ![R, E1, E2, 1]⟩, c1⟩, ⟨⟨4, ![R, E1, E2, 1]⟩, c2⟩] h
        (ix4 r e1 e2 (⟨k, hk⟩ : Fin 3))
      = ck (ix4 r e1 e2 (0 : Fin 1)) := by
  refine concatenate_apply_piece (t := ⟨4, ![R, E1, E2, 3]⟩) 3
    [⟨⟨4, ![R, E1, E2, 1]⟩, c0⟩, ⟨⟨4, ![R, E1, E2, 1]⟩, c1⟩, ⟨⟨4, ![R, E1, E2, 1]⟩, c2⟩] h _ k hk ⟨4, ![R, E1, E2, 1]⟩ ck hck rfl k ?_ _ ?_ ?_
  · match k, hk with
    | 0, _ => rfl
    | 1, _ => rfl
    | 2, _ => rfl
  · intro b' hb'
    match b' with
    | ⟨0, _⟩ => rfl
    | ⟨1, _⟩ => rfl
    | ⟨2, _⟩ => rfl
    | ⟨3, _⟩ => exact absurd rfl hb'
  · rfl

/-- Column 0 of the three-piece join along the last axis is the first piece. -/
theorem concat3_col0 {R E1 E2 : Nat} (c0 c1 c2 : (⟨4, ![R, E1, E2, 1]⟩ : Shape).Idx → α)
    (h : Shape.Concatenates [(⟨4, ![R, E1, E2, 1]⟩ : Shape), ⟨4, ![R, E1, E2, 1]⟩, ⟨4, ![R, E1, E2, 1]⟩] ⟨4, ![R, E1, E2, 3]⟩ 3)
    (r : Fin R) (e1 : Fin E1) (e2 : Fin E2) :
    concatenate ⟨4, ![R, E1, E2, 3]⟩ 3 [⟨⟨4, ![R, E1, E2, 1]⟩, c0⟩, ⟨⟨4, ![R, E1, E2, 1]⟩, c1⟩, ⟨⟨4, ![R, E1, E2, 1]⟩, c2⟩] h
        (ix4 r e1 e2 (0 : Fin 3))
      = c0 (ix4 r e1 e2 (0 : Fin 1)) :=
  concat3_piece c0 c1 c2 h r e1 e2 0 (by decide) c0 rfl

/-- Column 1 of the three-piece join along the last axis is the second piece. -/
theorem concat3_col1 {R E1 E2 : Nat} (c0 c1 c2 : (⟨4, ![R, E1, E2, 1]⟩ : Shape).Idx → α)
    (h : Shape.Concatenates [(⟨4, ![R, E1, E2, 1]⟩ : Shape), ⟨4, ![R, E1, E2, 1]⟩, ⟨4, ![R, E1, E2, 1]⟩] ⟨4, ![R, E1, E2, 3]⟩ 3)
    (r : Fin R) (e1 : Fin E1) (e2 : Fin E2) :
    concatenate ⟨4, ![R, E1, E2, 3]⟩ 3 [⟨⟨4, ![R, E1, E2, 1]⟩, c0⟩, ⟨⟨4, ![R, E1, E2, 1]⟩, c1⟩, ⟨⟨4, ![R, E1, E2, 1]⟩, c2⟩] h
        (ix4 r e1 e2 (1 : Fin 3))
      = c1 (ix4 r e1 e2 (0 : Fin 1)) :=
  concat3_piece c0 c1 c2 h r e1 e2 1 (by decide) c1 rfl

/-- Column 2 of the three-piece join along the last axis is the third piece. -/
theorem concat3_col2 {R E1 E2 : Nat} (c0 c1 c2 : (⟨4, ![R, E1, E2, 1]⟩ : Shape).Idx → α)
    (h : Shape.Concatenates [(⟨4, ![R, E1, E2, 1]⟩ : Shape), ⟨4, ![R, E1, E2, 1]⟩, ⟨4, ![R, E1, E2, 1]⟩] ⟨4, ![R, E1, E2, 3]⟩ 3)
    (r : Fin R) (e1 : Fin E1) (e2 : Fin E2) :
    concatenate ⟨4, ![R, E1, E2, 3]⟩ 3 [⟨⟨4, ![R, E1, E2, 1]⟩, c0⟩, ⟨⟨4, ![R, E1, E2, 1]⟩, c1⟩, ⟨⟨4, ![R, E1, E2, 1]⟩, c2⟩] h
        (ix4 r e1 e2 (2 : Fin 3))
      = c2 (ix4 r e1 e2 (0 : Fin 1)) :=
  concat3_piece c0 c1 c2 h r e1 e2 2 (by decide) c2 rfl

/-- The three together: column `k` of the join is piece `k`. -/
theorem concat3_col {R E1 E2 : Nat} (c0 c1 c2 : (⟨4, ![R, E1, E2, 1]⟩ : Shape).Idx → α)
    (h : Shape.Concatenates [(⟨4, ![R, E1, E2, 1]⟩ : Shape), ⟨4, ![R, E1, E2, 1]⟩, ⟨4, ![R, E1, E2, 1]⟩] ⟨4, ![R, E1, E2, 3]⟩ 3)
    (r : Fin R) (e1 : Fin E1) (e2 : Fin E2) (k : Fin 3) :
    concatenate ⟨4, ![R, E1, E2, 3]⟩ 3 [⟨⟨4, ![R, E1, E2, 1]⟩, c0⟩, ⟨⟨4, ![R, E1, E2, 1]⟩, c1⟩, ⟨⟨4, ![R, E1, E2, 1]⟩, c2⟩] h
        (ix4 r e1 e2 k)
      = (![c0, c1, c2] k) (ix4 r e1 e2 (0 : Fin 1)) := by
  match k with
  | ⟨0, _⟩ => exact concat3_col0 c0 c1 c2 h r e1 e2
  | ⟨1, _⟩ => exact concat3_col1 c0 c1 c2 h r e1 e2
  | ⟨2, _⟩ => exact concat3_col2 c0 c1 c2 h r e1 e2

end Table

end Cert.P2E
-- ==== Proof.RefValue.lean ====
/-
  The reference program's result, read at an output index, is the specification G.

  The reference gathers the image four times, once per bilinear corner, by a table of start indices whose three columns at
  row (p, e1, e2) are a row word, a column word and the patch number p; before each gather it wraps negative indices around
  (adds the axis length when the word is negative as a signed integer), and the gather clamps each start index into its
  axis. The row and column words are below 224 and the patch numbers below 18, so they are non-negative signed integers
  inside their axes: the wrap-around and the clamp are the identity, and the gathered value at (c, p, e1, e2) is the image
  at (c, y, x, p) for the table's words y, x. Each gathered value is multiplied by one of the four weights (a slice of the
  normalized weight array, broadcast over the channels), the four products are added in the order
  ((a + b) + c) + d, and the patches are summed onto zero: this is G term by term.
-/
import proofs.«427269_j59785944760704_3_alg».proof.Proof.Gen.ReferenceIdeal.Read
import proofs.«427269_j59785944760704_3_alg».proof.Proof.Spec
import proofs.«427269_j59785944760704_3_alg».proof.Proof.LibImgGather

noncomputable section

namespace Cert.P2E

open Idealize.ShloMosaic Idealize.ShloMosaic.ValueIdx Idealize.ShloMosaic.StableHlo
open Cert.ReferenceIdeal Cert.ReferenceIdeal.Gen Cert.ReferenceIdeal.Read

/-! ## Index words -/

/-- A word below 2^31 is non-negative as a signed integer, so the reference's wrap-around of negative indices
    (add the axis length when the index is negative) leaves it alone. -/
theorem wrap_id (w k : BitVec 32) (h : w.toNat < 2 ^ 31) :
    Scalar.select (IntOp.cmpi .slt w 0#32) (IntOp.addi w k) w = w := by
  have hc : IntOp.cmpi .slt w 0#32 = 0#1 := by
    unfold IntOp.cmpi
    have : w.slt 0#32 = false := by
      rw [BitVec.slt, decide_eq_false_iff_not, BitVec.toInt_eq_toNat_of_lt (by omega)]
      simp
    simp [this]
  rw [hc, select_zero]

/-- … and read as a signed integer it is its own value. -/
theorem toInt_toNat_of_lt (w : BitVec 32) (h : w.toNat < 2 ^ 31) : w.toInt.toNat = w.toNat := by
  rw [BitVec.toInt_eq_toNat_of_lt (by omega)]; rfl

/-! ## The index tables

Each of the reference's eight normalized index arrays is its argument: the arguments' words are below 224. -/

theorem val_v20_eq (x : (⟨S18x256x512, .i32⟩ : BufTy).Contents (Elt Ideal)) (h : ∀ i, (x i).toNat < 224) (i : S18x256x512.Idx) :
    val_main_v20 (F := Ideal) x i = x i := by
  rw [val_main_v20_apply, val_main_v17_apply, val_main_v19_apply, val_main_v16_apply, val_main_c_apply,
    val_main_v18_apply, val_main_c_2_apply]
  exact wrap_id _ _ (by have := h i; omega)

theorem val_v25_eq (x : (⟨S18x256x512, .i32⟩ : BufTy).Contents (Elt Ideal)) (h : ∀ i, (x i).toNat < 224) (i : S18x256x512.Idx) :
    val_main_v25 (F := Ideal) x i = x i := by
  rw [val_main_v25_apply, val_main_v22_apply, val_main_v24_apply, val_main_v21_apply, val_main_c_3_apply,
    val_main_v23_apply, val_main_c_4_apply]
  exact wrap_id _ _ (by have := h i; omega)

theorem val_v41_eq (x : (⟨S18x256x512, .i32⟩ : BufTy).Contents (Elt Ideal)) (h : ∀ i, (x i).toNat < 224) (i : S18x256x512.Idx) :
    val_main_v41 (F := Ideal) x i = x i := by
  rw [val_main_v41_apply, val_main_v38_apply, val_main_v40_apply, val_main_v37_apply, val_main_c_7_apply,
    val_main_v39_apply, val_main_c_8_apply]
  exact wrap_id _ _ (by have := h i; omega)

theorem val_v46_eq (x : (⟨S18x256x512, .i32⟩ : BufTy).Contents (Elt Ideal)) (h : ∀ i, (x i).toNat < 224) (i : S18x256x512.Idx) :
    val_main_v46 (F := Ideal) x i = x i := by
  rw [val_main_v46_apply, val_main_v43_apply, val_main_v45_apply, val_main_v42_apply, val_main_c_9_apply,
    val_main_v44_apply, val_main_c_10_apply]
  exact wrap_id _ _ (by have := h i; omega)

theorem val_v62_eq (x : (⟨S18x256x512, .i32⟩ : BufTy).Contents (Elt Ideal)) (h : ∀ i, (x i).toNat < 224) (i : S18x256x512.Idx) :
    val_main_v62 (F := Ideal) x i = x i := by
  rw [val_main_v62_apply, val_main_v59_apply, val_main_v61_apply, val_main_v58_apply, val_main_c_13_apply,
    val_main_v60_apply, val_main_c_14_apply]
  exact wrap_id _ _ (by have := h i; omega)

theorem val_v67_eq (x : (⟨S18x256x512, .i32⟩ : BufTy).Contents (Elt Ideal)) (h : ∀ i, (x i).toNat < 224) (i : S18x256x512.Idx) :
    val_main_v67 (F := Ideal) x i = x i := by
  rw [val_main_v67_apply, val_main_v64_apply, val_main_v66_apply, val_main_v63_apply, val_main_c_15_apply,
    val_main_v65_apply, val_main_c_16_apply]
  exact wrap_id _ _ (by have := h i; omega)

theorem val_v83_eq (x : (⟨S18x256x512, .i32⟩ : BufTy).Contents (Elt Ideal)) (h : ∀ i, (x i).toNat < 224) (i : S18x256x512.Idx) :
    val_main_v83 (F := Ideal) x i = x i := by
  rw [val_main_v83_apply, val_main_v80_apply, val_main_v82_apply, val_main_v79_apply, val_main_c_19_apply,
    val_main_v81_apply, val_main_c_20_apply]
  exact wrap_id _ _ (by have := h i; omega)

theorem val_v88_eq (x : (⟨S18x256x512, .i32⟩ : BufTy).Contents (Elt Ideal)) (h : ∀ i, (x i).toNat < 224) (i : S18x256x512.Idx) :
    val_main_v88 (F := Ideal) x i = x i := by
  rw [val_main_v88_apply, val_main_v85_apply, val_main_v87_apply, val_main_v84_apply, val_main_c_21_apply,
    val_main_v86_apply, val_main_c_22_apply]
  exact wrap_id _ _ (by have := h i; omega)

/-- The patch counter at patch p is the word p. -/
theorem val_v15_eq (i : S18x1x1.Idx) : val_main_v15 (F := Ideal) i = BitVec.ofNat 32 (i 0).val := by
  rw [val_main_v15_apply, val_main_v14_apply]

theorem ofNat_patch_lt (p : Fin 18) : (BitVec.ofNat 32 p.val).toNat < 2 ^ 31 := by
  rw [BitVec.toNat_ofNat]; have := p.isLt; omega

/-- The normalized patch column of a start-index table, at row (p, e1, e2), is the word p. -/
theorem val_v34_eq (p : Fin 18) (e1 : Fin 256) (e2 : Fin 512) :
    val_main_v34 (F := Ideal) (ix4 p e1 e2 (0 : Fin 1)) = BitVec.ofNat 32 p.val := by
  rw [val_main_v34_apply, val_main_v31_apply, val_main_v30_apply, val_main_v27_apply, val_main_v29_apply,
    val_main_v26_apply, val_main_c_5_apply, val_main_v28_apply, val_main_c_6_apply, val_v15_eq]
  exact wrap_id _ _ (ofNat_patch_lt p)

/-- The normalized patch column of a start-index table, at row (p, e1, e2), is the word p. -/
theorem val_v55_eq (p : Fin 18) (e1 : Fin 256) (e2 : Fin 512) :
    val_main_v55 (F := Ideal) (ix4 p e1 e2 (0 : Fin 1)) = BitVec.ofNat 32 p.val := by
  rw [val_main_v55_apply, val_main_v52_apply, val_main_v51_apply, val_main_v48_apply, val_main_v50_apply,
    val_main_v47_apply, val_main_c_11_apply, val_main_v49_apply, val_main_c_12_apply, val_v15_eq]
  exact wrap_id _ _ (ofNat_patch_lt p)

/-- The normalized patch column of a start-index table, at row (p, e1, e2), is the word p. -/
theorem val_v76_eq (p : Fin 18) (e1 : Fin 256) (e2 : Fin 512) :
    val_main_v76 (F := Ideal) (ix4 p e1 e2 (0 : Fin 1)) = BitVec.ofNat 32 p.val := by
  rw [val_main_v76_apply, val_main_v73_apply, val_main_v72_apply, val_main_v69_apply, val_main_v71_apply,
    val_main_v68_apply, val_main_c_17_apply, val_main_v70_apply, val_main_c_18_apply, val_v15_eq]
  exact wrap_id _ _ (ofNat_patch_lt p)

/-- The normalized patch column of a start-index table, at row (p, e1, e2), is the word p. -/
theorem val_v97_eq (p : Fin 18) (e1 : Fin 256) (e2 : Fin 512) :
    val_main_v97 (F := Ideal) (ix4 p e1 e2 (0 : Fin 1)) = BitVec.ofNat 32 p.val := by
  rw [val_main_v97_apply, val_main_v94_apply, val_main_v93_apply, val_main_v90_apply, val_main_v92_apply,
    val_main_v89_apply, val_main_c_23_apply, val_main_v91_apply, val_main_c_24_apply, val_v15_eq]
  exact wrap_id _ _ (ofNat_patch_lt p)

/-! ## The columns of the start-index tables -/

theorem val_v32_eq (x : (⟨S18x256x512, .i32⟩ : BufTy).Contents (Elt Ideal)) (h : ∀ i, (x i).toNat < 224) (p : Fin 18) (e1 : Fin 256) (e2 : Fin 512) :
    val_main_v32 (F := Ideal) x (ix4 p e1 e2 (0 : Fin 1)) = x (ix3 p e1 e2) := by
  rw [val_main_v32_apply, val_v20_eq x h]
  exact congrArg x (funext fun a => by match a with | ⟨0, _⟩ => rfl | ⟨1, _⟩ => rfl | ⟨2, _⟩ => rfl)

theorem val_v33_eq (x : (⟨S18x256x512, .i32⟩ : BufTy).Contents (Elt Ideal)) (h : ∀ i, (x i).toNat < 224) (p : Fin 18) (e1 : Fin 256) (e2 : Fin 512) :
    val_main_v33 (F := Ideal) x (ix4 p e1 e2 (0 : Fin 1)) = x (ix3 p e1 e2) := by
  rw [val_main_v33_apply, val_v25_eq x h]
  exact congrArg x (funext fun a => by match a with | ⟨0, _⟩ => rfl | ⟨1, _⟩ => rfl | ⟨2, _⟩ => rfl)

theorem val_v53_eq (x : (⟨S18x256x512, .i32⟩ : BufTy).Contents (Elt Ideal)) (h : ∀ i, (x i).toNat < 224) (p : Fin 18) (e1 : Fin 256) (e2 : Fin 512) :
    val_main_v53 (F := Ideal) x (ix4 p e1 e2 (0 : Fin 1)) = x (ix3 p e1 e2) := by
  rw [val_main_v53_apply, val_v41_eq x h]
  exact congrArg x (funext fun a => by match a with | ⟨0, _⟩ => rfl | ⟨1, _⟩ => rfl | ⟨2, _⟩ => rfl)

theorem val_v54_eq (x : (⟨S18x256x512, .i32⟩ : BufTy).Contents (Elt Ideal)) (h : ∀ i, (x i).toNat < 224) (p : Fin 18) (e1 : Fin 256) (e2 : Fin 512) :
    val_main_v54 (F := Ideal) x (ix4 p e1 e2 (0 : Fin 1)) = x (ix3 p e1 e2) := by
  rw [val_main_v54_apply, val_v46_eq x h]
  exact congrArg x (funext fun a => by match a with | ⟨0, _⟩ => rfl | ⟨1, _⟩ => rfl | ⟨2, _⟩ => rfl)

theorem val_v74_eq (x : (⟨S18x256x512, .i32⟩ : BufTy).Contents (Elt Ideal)) (h : ∀ i, (x i).toNat < 224) (p : Fin 18) (e1 : Fin 256) (e2 : Fin 512) :
    val_main_v74 (F := Ideal) x (ix4 p e1 e2 (0 : Fin 1)) = x (ix3 p e1 e2) := by
  rw [val_main_v74_apply, val_v62_eq x h]
  exact congrArg x (funext fun a => by match a with | ⟨0, _⟩ => rfl | ⟨1, _⟩ => rfl | ⟨2, _⟩ => rfl)

theorem val_v75_eq (x : (⟨S18x256x512, .i32⟩ : BufTy).Contents (Elt Ideal)) (h : ∀ i, (x i).toNat < 224) (p : Fin 18) (e1 : Fin 256) (e2 : Fin 512) :
    val_main_v75 (F := Ideal) x (ix4 p e1 e2 (0 : Fin 1)) = x (ix3 p e1 e2) := by
  rw [val_main_v75_apply, val_v67_eq x h]
  exact congrArg x (funext fun a => by match a with | ⟨0, _⟩ => rfl | ⟨1, _⟩ => rfl | ⟨2, _⟩ => rfl)

theorem val_v95_eq (x : (⟨S18x256x512, .i32⟩ : BufTy).Contents (Elt Ideal)) (h : ∀ i, (x i).toNat < 224) (p : Fin 18) (e1 : Fin 256) (e2 : Fin 512) :
    val_main_v95 (F := Ideal) x (ix4 p e1 e2 (0 : Fin 1)) = x (ix3 p e1 e2) := by
  rw [val_main_v95_apply, val_v83_eq x h]
  exact congrArg x (funext fun a => by match a with | ⟨0, _⟩ => rfl | ⟨1, _⟩ => rfl | ⟨2, _⟩ => rfl)

theorem val_v96_eq (x : (⟨S18x256x512, .i32⟩ : BufTy).Contents (Elt Ideal)) (h : ∀ i, (x i).toNat < 224) (p : Fin 18) (e1 : Fin 256) (e2 : Fin 512) :
    val_main_v96 (F := Ideal) x (ix4 p e1 e2 (0 : Fin 1)) = x (ix3 p e1 e2) := by
  rw [val_main_v96_apply, val_v88_eq x h]
  exact congrArg x (funext fun a => by match a with | ⟨0, _⟩ => rfl | ⟨1, _⟩ => rfl | ⟨2, _⟩ => rfl)

/-! ## The weights

Weight number k, broadcast over the channels, at (c, p, e1, e2) is the weight array at (p, e1, e2, k). -/

theorem val_v103_eq (x1 : (⟨S18x256x512x4, .f32⟩ : BufTy).Contents (Elt Ideal)) (x2 : (⟨S18x256x512, .f32⟩ : BufTy).Contents (Elt Ideal)) (c : Fin 32) (p : Fin 18) (e1 : Fin 256) (e2 : Fin 512) :
    val_main_v103 (F := Ideal) x1 x2 (ix5 (0 : Fin 1) c p e1 e2)
      = val_main_v13 (F := Ideal) x1 x2 (ix4 p e1 e2 (0 : Fin 4)) := by
  rw [val_main_v103_apply, val_main_v102_apply, val_main_v101_apply, val_main_v100_apply]
  refine congrArg (val_main_v13 (F := Ideal) x1 x2) (funext fun a => ?_)
  have hp := p.isLt
  have h1 := e1.isLt
  have h2 := e2.isLt
  match a with
  | ⟨0, _⟩ =>
    refine Fin.ext ?_
    show ((p.val * 256 + e1.val) * 512 + e2.val) / 131072 = p.val
    omega
  | ⟨1, _⟩ =>
    refine Fin.ext ?_
    show ((p.val * 256 + e1.val) * 512 + e2.val) / 512 % 256 = e1.val
    omega
  | ⟨2, _⟩ =>
    refine Fin.ext ?_
    show ((p.val * 256 + e1.val) * 512 + e2.val) / 1 % 512 = e2.val
    omega
  | ⟨3, _⟩ => rfl

theorem val_v108_eq (x1 : (⟨S18x256x512x4, .f32⟩ : BufTy).Contents (Elt Ideal)) (x2 : (⟨S18x256x512, .f32⟩ : BufTy).Contents (Elt Ideal)) (c : Fin 32) (p : Fin 18) (e1 : Fin 256) (e2 : Fin 512) :
    val_main_v108 (F := Ideal) x1 x2 (ix5 (0 : Fin 1) c p e1 e2)
      = val_main_v13 (F := Ideal) x1 x2 (ix4 p e1 e2 (1 : Fin 4)) := by
  rw [val_main_v108_apply, val_main_v107_apply, val_main_v106_apply, val_main_v105_apply]
  refine congrArg (val_main_v13 (F := Ideal) x1 x2) (funext fun a => ?_)
  have hp := p.isLt
  have h1 := e1.isLt
  have h2 := e2.isLt
  match a with
  | ⟨0, _⟩ =>
    refine Fin.ext ?_
    show ((p.val * 256 + e1.val) * 512 + e2.val) / 131072 = p.val
    omega
  | ⟨1, _⟩ =>
    refine Fin.ext ?_
    show ((p.val * 256 + e1.val) * 512 + e2.val) / 512 % 256 = e1.val
    omega
  | ⟨2, _⟩ =>
    refine Fin.ext ?_
    show ((p.val * 256 + e1.val) * 512 + e2.val) / 1 % 512 = e2.val
    omega
  | ⟨3, _⟩ => rfl

theorem val_v114_eq (x1 : (⟨S18x256x512x4, .f32⟩ : BufTy).Contents (Elt Ideal)) (x2 : (⟨S18x256x512, .f32⟩ : BufTy).Contents (Elt Ideal)) (c : Fin 32) (p : Fin 18) (e1 : Fin 256) (e2 : Fin 512) :
    val_main_v114 (F := Ideal) x1 x2 (ix5 (0 : Fin 1) c p e1 e2)
      = val_main_v13 (F := Ideal) x1 x2 (ix4 p e1 e2 (2 : Fin 4)) := by
  rw [val_main_v114_apply, val_main_v113_apply, val_main_v112_apply, val_main_v111_apply]
  refine congrArg (val_main_v13 (F := Ideal) x1 x2) (funext fun a => ?_)
  have hp := p.isLt
  have h1 := e1.isLt
  have h2 := e2.isLt
  match a with
  | ⟨0, _⟩ =>
    refine Fin.ext ?_
    show ((p.val * 256 + e1.val) * 512 + e2.val) / 131072 = p.val
    omega
  | ⟨1, _⟩ =>
    refine Fin.ext ?_
    show ((p.val * 256 + e1.val) * 512 + e2.val) / 512 % 256 = e1.val
    omega
  | ⟨2, _⟩ =>
    refine Fin.ext ?_
    show ((p.val * 256 + e1.val) * 512 + e2.val) / 1 % 512 = e2.val
    omega
  | ⟨3, _⟩ => rfl

theorem val_v120_eq (x1 : (⟨S18x256x512x4, .f32⟩ : BufTy).Contents (Elt Ideal)) (x2 : (⟨S18x256x512, .f32⟩ : BufTy).Contents (Elt Ideal)) (c : Fin 32) (p : Fin 18) (e1 : Fin 256) (e2 : Fin 512) :
    val_main_v120 (F := Ideal) x1 x2 (ix5 (0 : Fin 1) c p e1 e2)
      = val_main_v13 (F := Ideal) x1 x2 (ix4 p e1 e2 (3 : Fin 4)) := by
  rw [val_main_v120_apply, val_main_v119_apply, val_main_v118_apply, val_main_v117_apply]
  refine congrArg (val_main_v13 (F := Ideal) x1 x2) (funext fun a => ?_)
  have hp := p.isLt
  have h1 := e1.isLt
  have h2 := e2.isLt
  match a with
  | ⟨0, _⟩ =>
    refine Fin.ext ?_
    show ((p.val * 256 + e1.val) * 512 + e2.val) / 131072 = p.val
    omega
  | ⟨1, _⟩ =>
    refine Fin.ext ?_
    show ((p.val * 256 + e1.val) * 512 + e2.val) / 512 % 256 = e1.val
    omega
  | ⟨2, _⟩ =>
    refine Fin.ext ?_
    show ((p.val * 256 + e1.val) * 512 + e2.val) / 1 % 512 = e2.val
    omega
  | ⟨3, _⟩ => rfl

/-! ## One gather

A gather of the image by a start-index table whose three columns at row (p, e1, e2) are an in-range row word, an in-range
column word and the patch word p reads the image at that row, that column and patch p: the clamp of each start index into
its axis is the identity on in-range words. -/

theorem gather_of_cols (img : S1x32x224x224x18.Idx → EReal) (T : IVec S18x256x512x3 32)
    (ya xa : S18x256x512.Idx → BitVec 32) (c : Fin 32) (p : Fin 18) (e1 : Fin 256) (e2 : Fin 512)
    (h0 : T (ix4 p e1 e2 (0 : Fin 3)) = ya (ix3 p e1 e2)) (h1 : T (ix4 p e1 e2 (1 : Fin 3)) = xa (ix3 p e1 e2))
    (h2 : T (ix4 p e1 e2 (2 : Fin 3)) = BitVec.ofNat 32 p.val)
    (hy : (ya (ix3 p e1 e2)).toNat < 224) (hx : (xa (ix3 p e1 e2)).toNat < 224) :
    Host.gather gather_S1x32x224x224x18_S18x256x512x3_S1x32x18x256x512_01_234_n_n_234_3_132111 img T (ix5 (0 : Fin 1) c p e1 e2)
      = img (ix5 (0 : Fin 1) c (rowOf (ya (ix3 p e1 e2))) (rowOf (xa (ix3 p e1 e2))) p) := by
  refine (gather_img_apply (by decide) (by decide) (by decide) gather_S1x32x224x224x18_S18x256x512x3_S1x32x18x256x512_01_234_n_n_234_3_132111_wf img T (0 : Fin 1) c p e1 e2).trans ?_
  refine congrArg img (funext fun a => ?_)
  match a with
  | ⟨0, _⟩ => rfl
  | ⟨1, _⟩ => rfl
  | ⟨2, _⟩ =>
    refine Fin.ext ?_
    show min (T (ix4 p e1 e2 (0 : Fin 3))).toInt.toNat 223 = min (ya (ix3 p e1 e2)).toNat 223
    rw [h0, toInt_toNat_of_lt _ (by omega)]
  | ⟨3, _⟩ =>
    refine Fin.ext ?_
    show min (T (ix4 p e1 e2 (1 : Fin 3))).toInt.toNat 223 = min (xa (ix3 p e1 e2)).toNat 223
    rw [h1, toInt_toNat_of_lt _ (by omega)]
  | ⟨4, _⟩ =>
    refine Fin.ext ?_
    show min (T (ix4 p e1 e2 (2 : Fin 3))).toInt.toNat 17 = p.val
    rw [h2, toInt_toNat_of_lt _ (ofNat_patch_lt p), BitVec.toNat_ofNat]
    have := p.isLt
    omega

/-! ## The four corners

Each product of a gathered image value and a broadcast weight, at (c, p, e1, e2), is the specification's corner. -/

theorem val_v104_eq (a0 : (⟨S1x32x224x224x18, .f32⟩ : BufTy).Contents (Elt Ideal)) (a1 : (⟨S18x256x512x4, .f32⟩ : BufTy).Contents (Elt Ideal)) (a2 : (⟨S18x256x512, .f32⟩ : BufTy).Contents (Elt Ideal)) (a3 a4 : (⟨S18x256x512, .i32⟩ : BufTy).Contents (Elt Ideal))
    (h3 : ∀ i, (a3 i).toNat < 224) (h4 : ∀ i, (a4 i).toNat < 224)
    (c : Fin 32) (p : Fin 18) (e1 : Fin 256) (e2 : Fin 512) :
    val_main_v104 (F := Ideal) a0 a1 a2 a3 a4 (ix5 (0 : Fin 1) c p e1 e2)
      = corner a0 (val_main_v13 (F := Ideal) a1 a2) a3 a4 0 c e1 e2 p := by
  have hg : val_main_v36 (F := Ideal) a0 a3 a4 (ix5 (0 : Fin 1) c p e1 e2)
      = a0 (ix5 (0 : Fin 1) c (rowOf (a3 (ix3 p e1 e2))) (rowOf (a4 (ix3 p e1 e2))) p) := by
    unfold val_main_v36
    refine gather_of_cols a0 _ a3 a4 c p e1 e2 ?_ ?_ ?_ (h3 _) (h4 _)
    · unfold val_main_v35; rw [concat3_col0, val_v32_eq a3 h3]
    · unfold val_main_v35; rw [concat3_col1, val_v33_eq a4 h4]
    · unfold val_main_v35; rw [concat3_col2, val_v34_eq]
  rw [val_main_v104_apply, hg, val_v103_eq]
  rfl

theorem val_v109_eq (a0 : (⟨S1x32x224x224x18, .f32⟩ : BufTy).Contents (Elt Ideal)) (a1 : (⟨S18x256x512x4, .f32⟩ : BufTy).Contents (Elt Ideal)) (a2 : (⟨S18x256x512, .f32⟩ : BufTy).Contents (Elt Ideal)) (a4 a5 : (⟨S18x256x512, .i32⟩ : BufTy).Contents (Elt Ideal))
    (h4 : ∀ i, (a4 i).toNat < 224) (h5 : ∀ i, (a5 i).toNat < 224)
    (c : Fin 32) (p : Fin 18) (e1 : Fin 256) (e2 : Fin 512) :
    val_main_v109 (F := Ideal) a0 a1 a2 a4 a5 (ix5 (0 : Fin 1) c p e1 e2)
      = corner a0 (val_main_v13 (F := Ideal) a1 a2) a5 a4 1 c e1 e2 p := by
  have hg : val_main_v57 (F := Ideal) a0 a4 a5 (ix5 (0 : Fin 1) c p e1 e2)
      = a0 (ix5 (0 : Fin 1) c (rowOf (a5 (ix3 p e1 e2))) (rowOf (a4 (ix3 p e1 e2))) p) := by
    unfold val_main_v57
    refine gather_of_cols a0 _ a5 a4 c p e1 e2 ?_ ?_ ?_ (h5 _) (h4 _)
    · unfold val_main_v56; rw [concat3_col0, val_v53_eq a5 h5]
    · unfold val_main_v56; rw [concat3_col1, val_v54_eq a4 h4]
    · unfold val_main_v56; rw [concat3_col2, val_v55_eq]
  rw [val_main_v109_apply, hg, val_v108_eq]
  rfl

theorem val_v115_eq (a0 : (⟨S1x32x224x224x18, .f32⟩ : BufTy).Contents (Elt Ideal)) (a1 : (⟨S18x256x512x4, .f32⟩ : BufTy).Contents (Elt Ideal)) (a2 : (⟨S18x256x512, .f32⟩ : BufTy).Contents (Elt Ideal)) (a3 a6 : (⟨S18x256x512, .i32⟩ : BufTy).Contents (Elt Ideal))
    (h3 : ∀ i, (a3 i).toNat < 224) (h6 : ∀ i, (a6 i).toNat < 224)
    (c : Fin 32) (p : Fin 18) (e1 : Fin 256) (e2 : Fin 512) :
    val_main_v115 (F := Ideal) a0 a1 a2 a3 a6 (ix5 (0 : Fin 1) c p e1 e2)
      = corner a0 (val_main_v13 (F := Ideal) a1 a2) a3 a6 2 c e1 e2 p := by
  have hg : val_main_v78 (F := Ideal) a0 a3 a6 (ix5 (0 : Fin 1) c p e1 e2)
      = a0 (ix5 (0 : Fin 1) c (rowOf (a3 (ix3 p e1 e2))) (rowOf (a6 (ix3 p e1 e2))) p) := by
    unfold val_main_v78
    refine gather_of_cols a0 _ a3 a6 c p e1 e2 ?_ ?_ ?_ (h3 _) (h6 _)
    · unfold val_main_v77; rw [concat3_col0, val_v74_eq a3 h3]
    · unfold val_main_v77; rw [concat3_col1, val_v75_eq a6 h6]
    · unfold val_main_v77; rw [concat3_col2, val_v76_eq]
  rw [val_main_v115_apply, hg, val_v114_eq]
  rfl

theorem val_v121_eq (a0 : (⟨S1x32x224x224x18, .f32⟩ : BufTy).Contents (Elt Ideal)) (a1 : (⟨S18x256x512x4, .f32⟩ : BufTy).Contents (Elt Ideal)) (a2 : (⟨S18x256x512, .f32⟩ : BufTy).Contents (Elt Ideal)) (a5 a6 : (⟨S18x256x512, .i32⟩ : BufTy).Contents (Elt Ideal))
    (h5 : ∀ i, (a5 i).toNat < 224) (h6 : ∀ i, (a6 i).toNat < 224)
    (c : Fin 32) (p : Fin 18) (e1 : Fin 256) (e2 : Fin 512) :
    val_main_v121 (F := Ideal) a0 a1 a2 a5 a6 (ix5 (0 : Fin 1) c p e1 e2)
      = corner a0 (val_main_v13 (F := Ideal) a1 a2) a5 a6 3 c e1 e2 p := by
  have hg : val_main_v99 (F := Ideal) a0 a5 a6 (ix5 (0 : Fin 1) c p e1 e2)
      = a0 (ix5 (0 : Fin 1) c (rowOf (a5 (ix3 p e1 e2))) (rowOf (a6 (ix3 p e1 e2))) p) := by
    unfold val_main_v99
    refine gather_of_cols a0 _ a5 a6 c p e1 e2 ?_ ?_ ?_ (h5 _) (h6 _)
    · unfold val_main_v98; rw [concat3_col0, val_v95_eq a5 h5]
    · unfold val_main_v98; rw [concat3_col1, val_v96_eq a6 h6]
    · unfold val_main_v98; rw [concat3_col2, val_v97_eq]
  rw [val_main_v121_apply, hg, val_v120_eq]
  rfl

/-! ## The result -/

/-- The reference's result is the specification: zero plus the sum over the patches of the four corners. -/
theorem ref_eq (a0 : (⟨Cert.ReferenceIdeal.S1x32x224x224x18, .f32⟩ : BufTy).Contents (Elt Ideal)) (a1 : (⟨Cert.ReferenceIdeal.S18x256x512x4, .f32⟩ : BufTy).Contents (Elt Ideal)) (a2 : (⟨Cert.ReferenceIdeal.S18x256x512, .f32⟩ : BufTy).Contents (Elt Ideal))
    (a3 a4 a5 a6 : (⟨Cert.ReferenceIdeal.S18x256x512, .i32⟩ : BufTy).Contents (Elt Ideal))
    (h3 : ∀ i, (a3 i).toNat < 224) (h4 : ∀ i, (a4 i).toNat < 224) (h5 : ∀ i, (a5 i).toNat < 224) (h6 : ∀ i, (a6 i).toNat < 224) :
    Cert.ReferenceIdeal.Read.val_main_v123 (F := Ideal) a0 a1 a2 a3 a4 a5 a6
      = Cert.P2E.G a0 (Cert.ReferenceIdeal.Read.val_main_v13 (F := Ideal) a1 a2) a3 a4 a5 a6 := by
  funext i
  have hi0 : i 0 = (0 : Fin 1) := Fin.ext (Nat.lt_one_iff.mp (i 0).isLt)
  obtain ⟨c, e1, e2, rfl⟩ : ∃ (c : Fin 32) (e1 : Fin 256) (e2 : Fin 512), i = ix4 (0 : Fin 1) c e1 e2 :=
    ⟨i 1, i 2, i 3, by rw [← hi0]; exact eq_ix4 i⟩
  rw [val_main_v123_apply, val_main_cst_25_apply]
  show Ideal.ofBits .f32 0x00000000#32 + _ = 0 + ∑ p : Fin 18, _
  rw [Ideal.ofBits_zero_f32]
  refine congrArg (0 + ·) (Finset.sum_congr rfl fun p _ => ?_)
  have hidx : idx_main_v123 (ix4 (0 : Fin 1) c e1 e2) p = ix5 (0 : Fin 1) c p e1 e2 :=
    funext fun a => by
      match a with
      | ⟨0, _⟩ => rfl
      | ⟨1, _⟩ => rfl
      | ⟨2, _⟩ => rfl
      | ⟨3, _⟩ => rfl
      | ⟨4, _⟩ => rfl
  rw [hidx, val_main_v122_apply, val_main_v116_apply, val_main_v110_apply,
    val_v104_eq a0 a1 a2 a3 a4 h3 h4, val_v109_eq a0 a1 a2 a4 a5 h4 h5, val_v115_eq a0 a1 a2 a3 a6 h3 h6,
    val_v121_eq a0 a1 a2 a5 a6 h5 h6]
  rfl

end Cert.P2E

end
-- ==== Proof.PreFacts.lean ====
import proofs.«427269_j59785944760704_3_alg».proof.Pre_finite_inputs
import Idealize.ShloMosaic.PureOps.Ideal
import Idealize.ShloMosaic.Lib.ReduceAll
import Idealize.ShloMosaic.Lib.ValueIdx

/-!
# The precondition, read back

The certificate's precondition is a single boolean: the conjunction of seven "all elements satisfy …"
tests, one per input array. This module turns "that boolean is true" into the seven elementwise facts
the rest of the proof uses:

* the three floating-point arrays hold only real numbers (no infinity), because each element's absolute
  value was tested strictly below `+∞`;
* the four integer arrays hold only words whose value lies in `[0, 224)`, because each element was tested
  `0 ≤ w` and `w < 224` as a signed word.
-/

open Idealize.ShloMosaic

namespace Cert.P2E

/-- The result shape of a reduction over every axis has exactly one index. -/
instance : Subsingleton Cert.Pre_finite_inputs.S_.Idx := ⟨fun a b => funext fun d => d.elim0⟩

/-- An extended real whose absolute value `max x (-x)` lies strictly below `+∞` is a real number:
    at `⊤` the maximum is `⊤`, and at `⊥` it is `-⊥ = ⊤`, so neither passes the test. -/
theorem real_of_abs_lt_top (x : EReal) (h : max x (-x) < ⊤) : ∃ r : ℝ, x = (r : EReal) := by
  induction x using EReal.rec with
  | bot => simp at h
  | coe r => exact ⟨r, rfl⟩
  | top => simp at h

/-- The element test of a floating-point array: `|x| < +∞` (the pattern `0x7F800000` denotes `+∞`)
    came out true, so `x` is a real number. -/
theorem real_of_test (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine real_of_abs_lt_top x ?_
  by_contra hn
  simp [Ideal.cmp, hn] at h'

/-- The element test of an integer array: `0 ≤ w` and `w < 224`, both signed, came out true. A word that
    is nonnegative as a signed number reads the same unsigned, so its unsigned value is below 224. -/
theorem toNat_lt_of_test (w : BitVec 32) (h0 : IntOp.cmpi .sge w 0#32 = 1#1)
    (h1 : IntOp.cmpi .slt w 224#32 = 1#1) : w.toNat < 224 := by
  rw [IntOp.cmpi_sge] at h0
  rw [IntOp.cmpi_slt] at h1
  have e0 : (0#32 : BitVec 32).toInt = 0 := by decide
  have e1 : (224#32 : BitVec 32).toInt = 224 := by decide
  rw [e0] at h0
  rw [e1] at h1
  have hw := BitVec.toInt_eq_toNat_cond w
  have hlt := w.isLt
  split at hw <;> omega

/-- The precondition holds, so every element test of every array came out true: the conjunction splits
    into its seven "all elements" reductions, each reduction that is true was true at every element,
    and each element test says what the two lemmas above read off it. -/
theorem of_pre [Cert.Pre_finite_inputs.Facts]
    (a0 : FVec Ideal Cert.Pre_finite_inputs.S1x32x224x224x18 .f32) (a1 : FVec Ideal Cert.Pre_finite_inputs.S18x256x512x4 .f32)
    (a2 : FVec Ideal Cert.Pre_finite_inputs.S18x256x512 .f32) (a3 a4 a5 a6 : IVec Cert.Pre_finite_inputs.S18x256x512 32)
    (h : Cert.Pre_finite_inputs.fn (F := Ideal) a0 a1 a2 a3 a4 a5 a6 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal))
    ∧ (∀ i, (a3 i).toNat < 224) ∧ (∀ i, (a4 i).toNat < 224) ∧ (∀ i, (a5 i).toNat < 224) ∧ (∀ i, (a6 i).toNat < 224) := by
  have h0 := congrFun h ValueIdx.ix0
  dsimp only [Cert.Pre_finite_inputs.fn, Cert.Pre_finite_inputs.fn_part1, Cert.Pre_finite_inputs.fn_part2] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have t0 := Host.reduce_andi_all _ _ _ _ _ e0
  have t1 := Host.reduce_andi_all _ _ _ _ _ e1
  have t2 := Host.reduce_andi_all _ _ _ _ _ e2
  have t3 := Host.reduce_andi_all _ _ _ _ _ e3
  have t4 := Host.reduce_andi_all _ _ _ _ _ e4
  have t5 := Host.reduce_andi_all _ _ _ _ _ e5
  have t6 := Host.reduce_andi_all _ _ _ _ _ e6
  refine ⟨fun i => real_of_test (a0 i) (t0 i), fun i => real_of_test (a1 i) (t1 i),
    fun i => real_of_test (a2 i) (t2 i), fun i => ?_, fun i => ?_, fun i => ?_, fun i => ?_⟩
  · obtain ⟨c0, c1⟩ := IntOp.andi_eq_one.1 (t3 i)
    exact toNat_lt_of_test (a3 i) c0 c1
  · obtain ⟨c0, c1⟩ := IntOp.andi_eq_one.1 (t4 i)
    exact toNat_lt_of_test (a4 i) c0 c1
  · obtain ⟨c0, c1⟩ := IntOp.andi_eq_one.1 (t5 i)
    exact toNat_lt_of_test (a5 i) c0 c1
  · obtain ⟨c0, c1⟩ := IntOp.andi_eq_one.1 (t6 i)
    exact toNat_lt_of_test (a6 i) c0 c1

end Cert.P2E
-- ==== Proof.WReal.lean ====
/- The normalized, masked weight array of the reference program is real-valued whenever the weight and the mask
   inputs are.  With `w = x1 · [x1 > c₀]` (the thresholded weight; the bracket is the 0/1 indicator), `d(q,r) = 0 + ∑ |w|` over the
   first and the last axis, and `W = (w / max(d, c₁)) · mask`, every step keeps real values real: a product, an absolute
   value, a finite sum and a maximum of reals are real, and the quotient by `max(d, c₁)` is the product with a
   reciprocal because `max(d, c₁) ≥ c₁ > 0` is a nonzero real. -/
import proofs.«427269_j59785944760704_3_alg».proof.Proof.Gen.ReferenceIdeal.Read

noncomputable section

namespace Cert.P2E

open Idealize.ShloMosaic Idealize.ShloMosaic.StableHlo Cert.ReferenceIdeal Cert.ReferenceIdeal.Read

/-- An extended real that is (the image of) a real number. -/
def IsR (x : EReal) : Prop := ∃ r : ℝ, x = (r : EReal)

theorem IsR.coe (r : ℝ) : IsR (r : EReal) := ⟨r, rfl⟩

theorem IsR.zero : IsR (0 : EReal) := ⟨0, rfl⟩

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.neg {x : EReal} (hx : IsR x) : IsR (-x) := by
  obtain ⟨a, rfl⟩ := hx
  exact ⟨-a, (EReal.coe_neg a).symm⟩

theorem IsR.max {x y : EReal} (hx : IsR x) (hy : IsR y) : IsR (max x y) := by
  rcases le_total x y with h | h
  · rw [max_eq_right h]; exact hy
  · rw [max_eq_left h]; exact hx

/-- A finite sum of reals is real. -/
theorem IsR.sum {ι : Type*} (s : Finset ι) (f : ι → EReal) (hf : ∀ i, IsR (f i)) : IsR (∑ i ∈ s, f i) := by
  classical
  induction s using Finset.induction_on with
  | empty => rw [Finset.sum_empty]; exact IsR.zero
  | insert a s ha ih => rw [Finset.sum_insert ha]; exact (hf a).add ih

/-- The quotient of a real by a positive real is real. -/
theorem IsR.div_pos {x : EReal} (hx : IsR x) {y : ℝ} (hy : 0 < y) : IsR (Ideal.div x (y : EReal)) := by
  rw [Ideal.div_coe (ne_of_gt hy)]
  exact hx.mul (IsR.coe _)

/-- The literal lower bound of the denominator denotes a positive real. -/
theorem eps_pos : ∃ c : ℝ, 0 < c ∧ Ideal.ofBits .f32 0x2B8CBCCC#32 = (c : EReal) := by
  refine ⟨_, ?_, by simp [Ideal.ofBits, Ideal.ieee, -EReal.coe_mul]; rfl⟩
  positivity

/-- The literal zero the sum starts from denotes the real zero. -/
theorem zero_real : IsR (Ideal.ofBits .f32 0x00000000#32) := by
  refine ⟨0, ?_⟩
  simp [Ideal.ofBits, Ideal.ieee]

section Walk

variable (a1 : (⟨S18x256x512x4, .f32⟩ : BufTy).Contents (Elt Ideal))

/-- The thresholded weight `x1 · [x1 > c₀]` is real: a real times 0 or 1. -/
theorem wthr_real (h1 : ∀ i, IsR (a1 i)) (i : S18x256x512x4.Idx) : IsR (val_main_v3 (F := Ideal) a1 i) := by
  rw [val_main_v3_apply, val_main_v2_apply]
  exact (h1 i).mul (IsR.coe _)

/-- The denominator before clamping, the sum of `|w|` over the first and the last axis from zero, is real. -/
theorem denom_real (h1 : ∀ i, IsR (a1 i)) (j : S256x512.Idx) : IsR (val_main_v5 (F := Ideal) a1 j) := by
  unfold val_main_v5
  show IsR (Ideal.hostReduceAdd _ _ _ j)
  unfold Ideal.hostReduceAdd
  refine IsR.add ?_ (IsR.sum _ _ fun i => ?_)
  · exact zero_real
  · rw [val_main_v4_apply]
    exact (wthr_real a1 h1 i).max (wthr_real a1 h1 i).neg

/-- The clamped denominator `max(d, c₁)` is a positive real. -/
theorem clamp_pos (h1 : ∀ i, IsR (a1 i)) (i : S1x256x512x1.Idx) :
    ∃ r : ℝ, 0 < r ∧ val_main_v8 (F := Ideal) a1 i = (r : EReal) := by
  obtain ⟨c, hc, hce⟩ := eps_pos
  obtain ⟨d, hd⟩ := denom_real a1 h1 (idx_main_v6 i)
  rw [val_main_v8_apply, val_main_v6_apply, val_main_v7_apply, val_main_cst_1_apply, hd]
  show ∃ r : ℝ, 0 < r ∧ max (d : EReal) (Ideal.ofBits .f32 0x2B8CBCCC#32) = (r : EReal)
  rw [hce]
  refine ⟨max d c, lt_max_of_lt_right hc, ?_⟩
  rcases le_total d c with h | h
  · rw [max_eq_right h, max_eq_right (EReal.coe_le_coe_iff.2 h)]
  · rw [max_eq_left h, max_eq_left (EReal.coe_le_coe_iff.2 h)]

/-- The normalized weight `w / max(d, c₁)` is real. -/
theorem wnorm_real (h1 : ∀ i, IsR (a1 i)) (i : S18x256x512x4.Idx) : IsR (val_main_v10 (F := Ideal) a1 i) := by
  obtain ⟨r, hr, hre⟩ := clamp_pos a1 h1 (idx_main_v9 i)
  rw [val_main_v10_apply, val_main_v9_apply, hre]
  exact (wthr_real a1 h1 i).div_pos hr

end Walk

/-- The normalized, masked weight `(w / max(d, c₁)) · mask` is real when the weight and the mask inputs are. -/
theorem wm_real (a1 : (⟨Cert.ReferenceIdeal.S18x256x512x4, .f32⟩ : BufTy).Contents (Elt Ideal)) (a2 : (⟨Cert.ReferenceIdeal.S18x256x512, .f32⟩ : BufTy).Contents (Elt Ideal))
    (h1 : ∀ i, ∃ r : ℝ, (a1 i : EReal) = (r : EReal)) (h2 : ∀ i, ∃ r : ℝ, (a2 i : EReal) = (r : EReal)) :
    ∀ i, ∃ r : ℝ, (Cert.ReferenceIdeal.Read.val_main_v13 (F := Ideal) a1 a2 i : EReal) = (r : EReal) := by
  intro i
  show IsR (val_main_v13 (F := Ideal) a1 a2 i)
  rw [val_main_v13_apply, val_main_v12_apply, val_main_v11_apply]
  exact (wnorm_real a1 h1 i).mul (h2 _)

end Cert.P2E

end
-- ==== Proof.lean ====
/-
  The certificate of the perspective-patches-to-equirectangular resampling kernel against its jnp reference, over the
  extended reals, under the precondition that the float inputs are finite and the four index tables hold valid image
  rows and columns (0 ≤ index < 224).

  Both programs compute, for every output pixel and channel, the sum over the 18 patches of the four bilinear corners:
  the image at (y, x) for y ∈ {y0, y1}, x ∈ {x0, x1}, each times its normalized, masked weight. The reference gathers
  the four image entries directly. The kernel reaches them by dense arithmetic: a one-hot product over the image rows
  picks row y, a two-term weighted selector over the (zero padded) lanes picks x0 and x1, and a running accumulator adds
  the patches one grid point at a time. On in-range indices the one-hot pick is exact; where x0 = x1 the selector's two
  weights fall on one lane and the kernel's v · (wa + wc) is the reference's v · wa + v · wc only because all three are
  real numbers, which is where finiteness of the inputs is used. The normalized weights are the same fourteen host
  operations in both programs and are carried as one array.

  The three frames: the two kernel programs' are the generated frame certificates; the reference's is its generated run.
  `preserves` is trivial (the ideal pass rewrote nothing).
-/
import proofs.«427269_j59785944760704_3_alg».proof.Defs
import proofs.«427269_j59785944760704_3_alg».proof.Proof.Gen.Kernel
import proofs.«427269_j59785944760704_3_alg».proof.Proof.Gen.Kernel.Skeleton
import proofs.«427269_j59785944760704_3_alg».proof.Proof.Gen.Kernel.Launch
import proofs.«427269_j59785944760704_3_alg».proof.Proof.Gen.Kernel.Points
import proofs.«427269_j59785944760704_3_alg».proof.Proof.Gen.Kernel.Frame
import proofs.«427269_j59785944760704_3_alg».proof.Proof.Gen.KernelIdeal
import proofs.«427269_j59785944760704_3_alg».proof.Proof.Gen.KernelIdeal.Skeleton
import proofs.«427269_j59785944760704_3_alg».proof.Proof.Gen.KernelIdeal.Launch
import proofs.«427269_j59785944760704_3_alg».proof.Proof.Gen.KernelIdeal.Points
import proofs.«427269_j59785944760704_3_alg».proof.Proof.Gen.KernelIdeal.Frame
import proofs.«427269_j59785944760704_3_alg».proof.Proof.Gen.ReferenceIdeal
import proofs.«427269_j59785944760704_3_alg».proof.Proof.Gen.Pre_finite_inputs
import proofs.«427269_j59785944760704_3_alg».proof.Proof.Gen.ReferenceIdeal.Run
import proofs.«427269_j59785944760704_3_alg».proof.Proof.Gen.ReferenceIdeal.Read
import proofs.«427269_j59785944760704_3_alg».proof.Proof.KRun
import proofs.«427269_j59785944760704_3_alg».proof.Proof.RefValue
import proofs.«427269_j59785944760704_3_alg».proof.Proof.PreFacts
import proofs.«427269_j59785944760704_3_alg».proof.Proof.WReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- What the precondition gives on a device: real image entries, real normalized weights, in-range index tables. -/
theorem hyps_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, Cert.P2E.IMG m c i = (r : EReal)) ∧ (∀ i, ∃ r : ℝ, Cert.P2E.WGT m c i = (r : EReal))
      ∧ (∀ i, (Cert.P2E.Y0 m c i).toNat < 224) ∧ (∀ i, (Cert.P2E.X0 m c i).toNat < 224)
      ∧ (∀ i, (Cert.P2E.Y1 m c i).toNat < 224) ∧ (∀ i, (Cert.P2E.X1 m c i).toNat < 224) := by
  obtain ⟨h0, h1, h2, h3, h4, h5, h6⟩ := Cert.P2E.of_pre _ _ _ _ _ _ _ (hpre c)
  exact ⟨h0, Cert.P2E.wm_real _ _ h1 h2, h3, h4, h5, h6⟩

/-- At the exact instance both programs end at the specification of arguments that agree. -/
theorem algebraic : Cert.algebraic_KernelIdeal_ReferenceIdeal := by
  intro m ρ m' ρ' hpre hagree
  have H := hyps_of_pre m hpre
  refine ⟨fun c => Cert.P2E.resK m c, Cert.P2E.kernel_run m ρ H, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨-, -, h3, h4, h5, h6⟩ := H c
  rw [Cert.ReferenceIdeal.Read.val_main_v123_eq, a0, a1, a2, a3, a4, a5, a6]
  exact Cert.P2E.ref_eq _ _ _ _ _ _ _ h3 h4 h5 h6

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
